-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v56)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v56) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v86) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x256 : Shape := ⟨2, ![262144, 256]⟩
abbrev S512x256 : Shape := ⟨2, ![512, 256]⟩
abbrev S256x512 : Shape := ⟨2, ![256, 512]⟩
abbrev S128x512 : Shape := ⟨2, ![128, 512]⟩
abbrev S262144 : Shape := ⟨1, ![262144]⟩
abbrev S_ : Shape := ⟨0, ![]⟩

class Facts : Prop where
  bcast_S_S262144x256 : S_.BroadcastsInDim S262144x256 (![] : Fin 0 → Fin S262144x256.rank)
  reducesTo_S262144x256_S_d0_1 : S262144x256.ReducesTo [0, 1] S_
  h_S_ : 0 < S_.numel
  bcast_S_S512x256 : S_.BroadcastsInDim S512x256 (![] : Fin 0 → Fin S512x256.rank)
  reducesTo_S512x256_S_d0_1 : S512x256.ReducesTo [0, 1] S_
  bcast_S_S256x512 : S_.BroadcastsInDim S256x512 (![] : Fin 0 → Fin S256x512.rank)
  reducesTo_S256x512_S_d0_1 : S256x512.ReducesTo [0, 1] S_
  bcast_S_S128x512 : S_.BroadcastsInDim S128x512 (![] : Fin 0 → Fin S128x512.rank)
  reducesTo_S128x512_S_d0_1 : S128x512.ReducesTo [0, 1] S_

variable [Facts]

def fn_part1 {F : FTy → Type} [FloatOps F] (main_arg4 : FVec F S128x512 .f32) (main_v13 : IVec S_ 1) (main_v16 : IVec S512x256 1) : IVec S_ 1 :=
  let main_c_5 : IVec S_ 1 := constantI S_ 1 1#1
  let main_v17 : IVec S_ 1 := (fun x v => Host.reduce IntOp.andi x v reducesTo_S512x256_S_d0_1 h_S_) main_v16 main_c_5
  let main_v18 : IVec S_ 1 := andi main_v13 main_v17
  let main_v19 : FVec F S128x512 .f32 := Host.absf main_arg4
  let main_cst_6 : FVec F S_ .f32 := constant S_ .f32 0x7F800000#32
  let main_v20 : FVec F S128x512 .f32 := broadcastInDim S128x512 ![] bcast_S_S128x512 main_cst_6
  let main_v21 : IVec S128x512 1 := cmpf .olt main_v19 main_v20
  let main_c_7 : IVec S_ 1 := constantI S_ 1 1#1
  let main_v22 : IVec S_ 1 := (fun x v => Host.reduce IntOp.andi x v reducesTo_S128x512_S_d0_1 h_S_) main_v21 main_c_7
  let main_v23 : IVec S_ 1 := andi main_v18 main_v22
  main_v23

def fn {F : FTy → Type} [FloatOps F] (main_arg0 : FVec F S262144x256 .f32) (main_arg1 : FVec F S512x256 .f32) (main_arg2 : FVec F S256x512 .f32) (main_arg3 : FVec F S512x256 .f32) (main_arg4 : FVec F S128x512 .f32) (main_arg5 : IVec S262144 32) : IVec S_ 1 :=
  let main_v0 : FVec F S262144x256 .f32 := Host.absf main_arg0
  let main_cst : FVec F S_ .f32 := constant S_ .f32 0x7F800000#32
  let main_v1 : FVec F S262144x256 .f32 := broadcastInDim S262144x256 ![] bcast_S_S262144x256 main_cst
  let main_v2 : IVec S262144x256 1 := cmpf .olt main_v0 main_v1
  let main_c : IVec S_ 1 := constantI S_ 1 1#1
  let main_v3 : IVec S_ 1 := (fun x v => Host.reduce IntOp.andi x v reducesTo_S262144x256_S_d0_1 h_S_) main_v2 main_c
  let main_v4 : FVec F S512x256 .f32 := Host.absf main_arg1
  let main_cst_0 : FVec F S_ .f32 := constant S_ .f32 0x7F800000#32
  let main_v5 : FVec F S512x256 .f32 := broadcastInDim S512x256 ![] bcast_S_S512x256 main_cst_0
  let main_v6 : IVec S512x256 1 := cmpf .olt main_v4 main_v5
  let main_c_1 : IVec S_ 1 := constantI S_ 1 1#1
  let main_v7 : IVec S_ 1 := (fun x v => Host.reduce IntOp.andi x v reducesTo_S512x256_S_d0_1 h_S_) main_v6 main_c_1
  let main_v8 : IVec S_ 1 := andi main_v3 main_v7
  let main_v9 : FVec F S256x512 .f32 := Host.absf main_arg2
  let main_cst_2 : FVec F S_ .f32 := constant S_ .f32 0x7F800000#32
  let main_v10 : FVec F S256x512 .f32 := broadcastInDim S256x512 ![] bcast_S_S256x512 main_cst_2
  let main_v11 : IVec S256x512 1 := cmpf .olt main_v9 main_v10
  let main_c_3 : IVec S_ 1 := constantI S_ 1 1#1
  let main_v12 : IVec S_ 1 := (fun x v => Host.reduce IntOp.andi x v reducesTo_S256x512_S_d0_1 h_S_) main_v11 main_c_3
  let main_v13 : IVec S_ 1 := andi main_v8 main_v12
  let main_v14 : FVec F S512x256 .f32 := Host.absf main_arg3
  let main_cst_4 : FVec F S_ .f32 := constant S_ .f32 0x7F800000#32
  let main_v15 : FVec F S512x256 .f32 := broadcastInDim S512x256 ![] bcast_S_S512x256 main_cst_4
  let main_v16 : IVec S512x256 1 := cmpf .olt main_v14 main_v15
  fn_part1 (F := F) main_arg4 main_v13 main_v16
-- ==== Kernel.lean ====
abbrev S262144x256 : Shape := ⟨2, ![262144, 256]⟩
abbrev S512x256 : Shape := ⟨2, ![512, 256]⟩
abbrev S256x512 : Shape := ⟨2, ![256, 512]⟩
abbrev S128x512 : Shape := ⟨2, ![128, 512]⟩
abbrev S262144 : Shape := ⟨1, ![262144]⟩
abbrev S262144x1 : Shape := ⟨2, ![262144, 1]⟩
abbrev S2x128x256 : Shape := ⟨3, ![2, 128, 256]⟩
abbrev S1024x256 : Shape := ⟨2, ![1024, 256]⟩
abbrev S1024x1 : Shape := ⟨2, ![1024, 1]⟩
abbrev S1x128x256 : Shape := ⟨3, ![1, 128, 256]⟩
abbrev S128x256 : Shape := ⟨2, ![128, 256]⟩
abbrev S1024x512 : Shape := ⟨2, ![1024, 512]⟩
abbrev S1024 : Shape := ⟨1, ![1024]⟩
abbrev S1024x128 : Shape := ⟨2, ![1024, 128]⟩
abbrev S_ : Shape := ⟨0, ![]⟩
abbrev S128 : Shape := ⟨1, ![128]⟩
abbrev S128x1 : Shape := ⟨2, ![128, 1]⟩
abbrev S512x128 : Shape := ⟨2, ![512, 128]⟩
abbrev S128x128 : Shape := ⟨2, ![128, 128]⟩

abbrev nBuf : Space → Nat
  | .hbm => 78
  | .vmem => 8
  | .smem => 0
  | _ => 0

abbrev bufTy : (tb : Table) → Fin (tcTables nBuf tb) → BufTy
  | .hbm, ⟨0, _⟩ => ⟨S262144x256, .f32⟩
  | .hbm, ⟨1, _⟩ => ⟨S512x256, .f32⟩
  | .hbm, ⟨2, _⟩ => ⟨S256x512, .f32⟩
  | .hbm, ⟨3, _⟩ => ⟨S512x256, .f32⟩
  | .hbm, ⟨4, _⟩ => ⟨S128x512, .f32⟩
  | .hbm, ⟨5, _⟩ => ⟨S262144, .i32⟩
  | .hbm, ⟨6, _⟩ => ⟨S262144x1, .i32⟩
  | .hbm, ⟨7, _⟩ => ⟨S256x512, .f32⟩
  | .hbm, ⟨8, _⟩ => ⟨S256x512, .bf16⟩
  | .hbm, ⟨9, _⟩ => ⟨S512x256, .f32⟩
  | .hbm, ⟨10, _⟩ => ⟨S512x256, .bf16⟩
  | .hbm, ⟨11, _⟩ => ⟨S2x128x256, .f32⟩
  | .hbm, ⟨12, _⟩ => ⟨S_, .f32⟩
  | .hbm, ⟨13, _⟩ => ⟨S128x256, .f32⟩
  | .hbm, ⟨14, _⟩ => ⟨S256x512, .f32⟩
  | .hbm, ⟨15, _⟩ => ⟨S128x512, .f32⟩
  | .hbm, ⟨16, _⟩ => ⟨S_, .f32⟩
  | .hbm, ⟨17, _⟩ => ⟨S128, .f32⟩
  | .hbm, ⟨18, _⟩ => ⟨S128x1, .f32⟩
  | .hbm, ⟨19, _⟩ => ⟨S_, .f32⟩
  | .hbm, ⟨20, _⟩ => ⟨S128x1, .f32⟩
  | .hbm, ⟨21, _⟩ => ⟨S128x1, .f32⟩
  | .hbm, ⟨22, _⟩ => ⟨S128x512, .f32⟩
  | .hbm, ⟨23, _⟩ => ⟨S128x512, .f32⟩
  | .hbm, ⟨24, _⟩ => ⟨S128x512, .f32⟩
  | .hbm, ⟨25, _⟩ => ⟨S_, .f32⟩
  | .hbm, ⟨26, _⟩ => ⟨S128, .f32⟩
  | .hbm, ⟨27, _⟩ => ⟨S128x1, .f32⟩
  | .hbm, ⟨28, _⟩ => ⟨S_, .f32⟩
  | .hbm, ⟨29, _⟩ => ⟨S128x1, .f32⟩
  | .hbm, ⟨30, _⟩ => ⟨S128x1, .f32⟩
  | .hbm, ⟨31, _⟩ => ⟨S128x512, .f32⟩
  | .hbm, ⟨32, _⟩ => ⟨S128x512, .f32⟩
  | .hbm, ⟨33, _⟩ => ⟨S_, .f32⟩
  | .hbm, ⟨34, _⟩ => ⟨S128x1, .f32⟩
  | .hbm, ⟨35, _⟩ => ⟨S128x1, .f32⟩
  | .hbm, ⟨36, _⟩ => ⟨S128x1, .f32⟩
  | .hbm, ⟨37, _⟩ => ⟨S128x512, .f32⟩
  | .hbm, ⟨38, _⟩ => ⟨S128x512, .f32⟩
  | .hbm, ⟨39, _⟩ => ⟨S_, .f32⟩
  | .hbm, ⟨40, _⟩ => ⟨S128x512, .f32⟩
  | .hbm, ⟨41, _⟩ => ⟨S128x512, .i1⟩
  | .hbm, ⟨42, _⟩ => ⟨S_, .f32⟩
  | .hbm, ⟨43, _⟩ => ⟨S128x512, .f32⟩
  | .hbm, ⟨44, _⟩ => ⟨S128x512, .f32⟩
  | .hbm, ⟨45, _⟩ => ⟨S128x512, .f32⟩
  | .hbm, ⟨46, _⟩ => ⟨S512x128, .f32⟩
  | .hbm, ⟨47, _⟩ => ⟨S128x128, .f32⟩
  | .hbm, ⟨48, _⟩ => ⟨S_, .f32⟩
  | .hbm, ⟨49, _⟩ => ⟨S128, .f32⟩
  | .hbm, ⟨50, _⟩ => ⟨S128x1, .f32⟩
  | .hbm, ⟨51, _⟩ => ⟨S_, .f32⟩
  | .hbm, ⟨52, _⟩ => ⟨S128x1, .f32⟩
  | .hbm, ⟨53, _⟩ => ⟨S128x1, .f32⟩
  | .hbm, ⟨54, _⟩ => ⟨S128x128, .f32⟩
  | .hbm, ⟨55, _⟩ => ⟨S128x128, .f32⟩
  | .hbm, ⟨56, _⟩ => ⟨S128x128, .f32⟩
  | .hbm, ⟨57, _⟩ => ⟨S_, .f32⟩
  | .hbm, ⟨58, _⟩ => ⟨S128, .f32⟩
  | .hbm, ⟨59, _⟩ => ⟨S128x1, .f32⟩
  | .hbm, ⟨60, _⟩ => ⟨S_, .f32⟩
  | .hbm, ⟨61, _⟩ => ⟨S128x1, .f32⟩
  | .hbm, ⟨62, _⟩ => ⟨S128x1, .f32⟩
  | .hbm, ⟨63, _⟩ => ⟨S128x128, .f32⟩
  | .hbm, ⟨64, _⟩ => ⟨S128x128, .f32⟩
  | .hbm, ⟨65, _⟩ => ⟨S_, .f32⟩
  | .hbm, ⟨66, _⟩ => ⟨S128x1, .f32⟩
  | .hbm, ⟨67, _⟩ => ⟨S128x1, .f32⟩
  | .hbm, ⟨68, _⟩ => ⟨S128x1, .f32⟩
  | .hbm, ⟨69, _⟩ => ⟨S128x128, .f32⟩
  | .hbm, ⟨70, _⟩ => ⟨S128x128, .f32⟩
  | .hbm, ⟨71, _⟩ => ⟨S_, .f32⟩
  | .hbm, ⟨72, _⟩ => ⟨S128x128, .f32⟩
  | .hbm, ⟨73, _⟩ => ⟨S128x128, .i1⟩
  | .hbm, ⟨74, _⟩ => ⟨S_, .f32⟩
  | .hbm, ⟨75, _⟩ => ⟨S128x128, .f32⟩
  | .hbm, ⟨76, _⟩ => ⟨S128x128, .f32⟩
  | .hbm, ⟨77, _⟩ => ⟨S128x128, .f32⟩
  | .local _ .vmem, ⟨0, _⟩ => ⟨S1024x256, .f32⟩
  | .local _ .vmem, ⟨1, _⟩ => ⟨S1024x256, .f32⟩
  | .local _ .vmem, ⟨2, _⟩ => ⟨S1024x1, .i32⟩
  | .local _ .vmem, ⟨3, _⟩ => ⟨S1024x1, .i32⟩
  | .local _ .vmem, ⟨4, _⟩ => ⟨S256x512, .bf16⟩
  | .local _ .vmem, ⟨5, _⟩ => ⟨S512x256, .bf16⟩
  | .local _ .vmem, ⟨6, _⟩ => ⟨S1x128x256, .f32⟩
  | .local _ .vmem, ⟨7, _⟩ => ⟨S1x128x256, .f32⟩
  | _, _ => ⟨S262144x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_4 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_5 : Ref sig .tc := ⟨.hbm, 39, rfl⟩
abbrev main_v27 : Ref sig .tc := ⟨.hbm, 40, rfl⟩
abbrev main_v28 : Ref sig .tc := ⟨.hbm, 41, rfl⟩
abbrev main_cst_6 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_7 : Ref sig .tc := ⟨.hbm, 48, rfl⟩
abbrev main_v34 : Ref sig .tc := ⟨.hbm, 49, rfl⟩
abbrev main_v35 : Ref sig .tc := ⟨.hbm, 50, rfl⟩
abbrev main_cst_8 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_9 : Ref sig .tc := ⟨.hbm, 57, rfl⟩
abbrev main_v41 : Ref sig .tc := ⟨.hbm, 58, rfl⟩
abbrev main_v42 : Ref sig .tc := ⟨.hbm, 59, rfl⟩
abbrev main_cst_10 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_cst_11 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_cst_12 : Ref sig .tc := ⟨.hbm, 71, rfl⟩
abbrev main_v52 : Ref sig .tc := ⟨.hbm, 72, rfl⟩
abbrev main_v53 : Ref sig .tc := ⟨.hbm, 73, rfl⟩
abbrev main_cst_13 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![2, 128], ![false, false]⟩

def cc0_transform_0 (i : grid0.Coords) : Fin 2 → Nat :=
  let arg0 : BitVec 32 := BitVec.ofNat 32 (i 0).val
  let arg1 : BitVec 32 := BitVec.ofNat 32 (i 1).val
  let c128_i32 : BitVec 32 := 128#32
  let v0 : BitVec 32 := Scalar.muli arg0 c128_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c128_i32 : BitVec 32 := 128#32
  let v0 : BitVec 32 := Scalar.muli arg0 c128_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S256x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S512x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x128x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  shapeCasts_S262144_S262144x1 : S262144.ShapeCasts S262144x1
  transposes_S512x256_S256x512_1_0 : S512x256.Transposes [1, 0] S256x512
  bitsLt_bf16_f32 : FTy.bits .bf16 < FTy.bits .f32
  transposes_S256x512_S512x256_1_0 : S256x512.Transposes [1, 0] S512x256
  inb_S1x128x256_S1x128x256_0_0_0 : ∀ a, (![0, 0, 0] : Fin 3 → Nat) a + S1x128x256.size a ≤ S1x128x256.size a
  h_S1x128x256 : 0 < S1x128x256.numel
  shapeCasts_S1x128x256_S128x256 : S1x128x256.ShapeCasts S128x256
  shapeCasts_S128x256_S1x128x256 : S128x256.ShapeCasts S1x128x256
  inb_S1024x256_S1024x256_0_0 : ∀ a, (![0, 0] : Fin 2 → Nat) a + S1024x256.size a ≤ S1024x256.size a
  h_S1024x256 : 0 < S1024x256.numel
  inb_S256x512_S256x512_0_0 : ∀ a, (![0, 0] : Fin 2 → Nat) a + S256x512.size a ≤ S256x512.size a
  h_S256x512 : 0 < S256x512.numel
  shapeCasts_S256x512_S256x512 : S256x512.ShapeCasts S256x512
  reduces_S1024x512_S1024 : S1024x512.Reduces [1] S1024
  shapeCasts_S1024_S1024x1 : S1024.ShapeCasts S1024x1
  broadcasts_S1024x1_S1024x512 : S1024x1.Broadcasts S1024x512
  inb_S512x256_S512x256_0_0 : ∀ a, (![0, 0] : Fin 2 → Nat) a + S512x256.size a ≤ S512x256.size a
  h_S512x256 : 0 < S512x256.numel
  shapeCasts_S512x256_S512x256 : S512x256.ShapeCasts S512x256
  reduces_S1024x256_S1024 : S1024x256.Reduces [1] S1024
  broadcasts_S1024x1_S1024x256 : S1024x1.Broadcasts S1024x256
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  iota_S1024x128_d1_w32 : S1024x128.Iotas .tc 32 [1]
  broadcasts_S1024x1_S1024x128 : S1024x1.Broadcasts S1024x128
  natLt_1_32 : 1 < 32
  reducesTo_S2x128x256_S128x256_d0 : S2x128x256.ReducesTo [0] S128x256
  h_S_ : 0 < S_.numel
  reducesTo_S128x512_S128_d1 : S128x512.ReducesTo [1] S128
  bcast_S128_S128x1_0 : S128.BroadcastsInDim S128x1 (![0] : Fin 1 → Fin S128x1.rank)
  bcast_S_S128x1 : S_.BroadcastsInDim S128x1 (![] : Fin 0 → Fin S128x1.rank)
  bcast_S128x1_S128x512_0_1 : S128x1.BroadcastsInDim S128x512 (![0, 1] : Fin 2 → Fin S128x512.rank)
  bcast_S_S128x512 : S_.BroadcastsInDim S128x512 (![] : Fin 0 → Fin S128x512.rank)
  transposes_S128x512_S512x128_1_0 : S128x512.Transposes [1, 0] S512x128
  reducesTo_S128x128_S128_d1 : S128x128.ReducesTo [1] S128
  bcast_S128x1_S128x128_0_1 : S128x1.BroadcastsInDim S128x128 (![0, 1] : Fin 2 → Fin S128x128.rank)
  bcast_S_S128x128 : S_.BroadcastsInDim S128x128 (![] : Fin 0 → Fin S128x128.rank)
  dot_S1024x256_S256x512_S1024x512_1_0_0_1_n_n_wf : DotDims.WF S1024x256 S256x512 S1024x512 [1] [0] [0] [1] [] []
  dot_S1024x512_S512x256_S1024x256_1_0_0_1_n_n_wf : DotDims.WF S1024x512 S512x256 S1024x256 [1] [0] [0] [1] [] []
  dot_S1024x128_S1024x256_S128x256_0_0_1_1_n_n_wf : DotDims.WF S1024x128 S1024x256 S128x256 [0] [0] [1] [1] [] []
  dot_S128x256_S256x512_S128x512_1_0_0_1_n_n_wf : DotDims.WF S128x256 S256x512 S128x512 [1] [0] [0] [1] [] []
  dot_S128x512_S512x128_S128x128_1_0_0_1_n_n_wf : DotDims.WF S128x512 S512x128 S128x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S262144x256.size a
  hwx0_0 : ∀ i : grid0.Coords, EltTy.bits .f32 = 32 ∨ (Rect.block (s := S262144x256) S1024x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1.size a ≤ S262144x1.size a
  hwx0_1 : ∀ i : grid0.Coords, EltTy.bits .i32 = 32 ∨ (Rect.block (s := S262144x1) S1024x1.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x512.size a ≤ S256x512.size a
  hwx0_2 : ∀ i : grid0.Coords, EltTy.bits .bf16 = 32 ∨ (Rect.block (s := S256x512) S256x512.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x256.size a ≤ S512x256.size a
  hwx0_3 : ∀ i : grid0.Coords, EltTy.bits .bf16 = 32 ∨ (Rect.block (s := S512x256) S512x256.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x128x256.size a ≤ S2x128x256.size a
  hwx0_4 : ∀ i : grid0.Coords, EltTy.bits .f32 = 32 ∨ (Rect.block (s := S2x128x256) S1x128x256.size (cc0_transform_4 i) (hinb0_4 i)).WholeWords (EltTy.packing .f32)

variable [Facts₀]

def dot_S1024x256_S256x512_S1024x512_1_0_0_1_n_n : DotDims S1024x256 S256x512 S1024x512 where
  lhsContracting := [1]
  rhsContracting := [0]
  lhsNonContracting := [0]
  rhsNonContracting := [1]
  lhsBatch := []
  rhsBatch := []
  wf := dot_S1024x256_S256x512_S1024x512_1_0_0_1_n_n_wf
def dot_S1024x512_S512x256_S1024x256_1_0_0_1_n_n : DotDims S1024x512 S512x256 S1024x256 where
  lhsContracting := [1]
  rhsContracting := [0]
  lhsNonContracting := [0]
  rhsNonContracting := [1]
  lhsBatch := []
  rhsBatch := []
  wf := dot_S1024x512_S512x256_S1024x256_1_0_0_1_n_n_wf
def dot_S1024x128_S1024x256_S128x256_0_0_1_1_n_n : DotDims S1024x128 S1024x256 S128x256 where
  lhsContracting := [0]
  rhsContracting := [0]
  lhsNonContracting := [1]
  rhsNonContracting := [1]
  lhsBatch := []
  rhsBatch := []
  wf := dot_S1024x128_S1024x256_S128x256_0_0_1_1_n_n_wf
def dot_S128x256_S256x512_S128x512_1_0_0_1_n_n : DotDims S128x256 S256x512 S128x512 where
  lhsContracting := [1]
  rhsContracting := [0]
  lhsNonContracting := [0]
  rhsNonContracting := [1]
  lhsBatch := []
  rhsBatch := []
  wf := dot_S128x256_S256x512_S128x512_1_0_0_1_n_n_wf
def dot_S128x512_S512x128_S128x128_1_0_0_1_n_n : DotDims S128x512 S512x128 S128x128 where
  lhsContracting := [1]
  rhsContracting := [0]
  lhsNonContracting := [0]
  rhsNonContracting := [1]
  lhsBatch := []
  rhsBatch := []
  wf := dot_S128x512_S512x128_S128x128_1_0_0_1_n_n_wf

abbrev win0_0 : Pipeline.Window sig grid0 :=
  Pipeline.Window.ofSpec (Memref.whole main_arg0) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S256x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S512x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1x128x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S262144x256 : Shape := ⟨2, ![262144, 256]⟩
abbrev S512x256 : Shape := ⟨2, ![512, 256]⟩
abbrev S256x512 : Shape := ⟨2, ![256, 512]⟩
abbrev S128x512 : Shape := ⟨2, ![128, 512]⟩
abbrev S262144 : Shape := ⟨1, ![262144]⟩
abbrev S262144x512 : Shape := ⟨2, ![262144, 512]⟩
abbrev S_ : Shape := ⟨0, ![]⟩
abbrev S262144x1 : Shape := ⟨2, ![262144, 1]⟩
abbrev S128x256 : Shape := ⟨2, ![128, 256]⟩
abbrev S128 : Shape := ⟨1, ![128]⟩
abbrev S128x1 : Shape := ⟨2, ![128, 1]⟩
abbrev S512x128 : Shape := ⟨2, ![512, 128]⟩
abbrev S128x128 : Shape := ⟨2, ![128, 128]⟩

abbrev nBuf : Space → Nat
  | .hbm => 142
  | .vmem => 0
  | .smem => 0
  | _ => 0

abbrev hbmTy0_0 (i : Nat) : BufTy := match i % 128 with
  | 0 => ⟨S262144x256, .f32⟩
  | 1 => ⟨S512x256, .f32⟩
  | 2 => ⟨S256x512, .f32⟩
  | 3 => ⟨S512x256, .f32⟩
  | 4 => ⟨S128x512, .f32⟩
  | 5 => ⟨S262144, .i32⟩
  | 6 => ⟨S256x512, .f32⟩
  | 7 => ⟨S262144x512, .f32⟩
  | 8 => ⟨S_, .f32⟩
  | 9 => ⟨S262144, .f32⟩
  | 10 => ⟨S262144x1, .f32⟩
  | 11 => ⟨S_, .f32⟩
  | 12 => ⟨S262144x1, .f32⟩
  | 13 => ⟨S262144x1, .f32⟩
  | 14 => ⟨S262144x512, .f32⟩
  | 15 => ⟨S262144x512, .f32⟩
  | 16 => ⟨S262144x512, .f32⟩
  | 17 => ⟨S_, .f32⟩
  | 18 => ⟨S262144, .f32⟩
  | 19 => ⟨S262144x1, .f32⟩
  | 20 => ⟨S_, .f32⟩
  | 21 => ⟨S262144x1, .f32⟩
  | 22 => ⟨S262144x1, .f32⟩
  | 23 => ⟨S262144x512, .f32⟩
  | 24 => ⟨S262144x512, .f32⟩
  | 25 => ⟨S_, .f32⟩
  | 26 => ⟨S262144x1, .f32⟩
  | 27 => ⟨S262144x1, .f32⟩
  | 28 => ⟨S262144x1, .f32⟩
  | 29 => ⟨S262144x512, .f32⟩
  | 30 => ⟨S262144x512, .f32⟩
  | 31 => ⟨S_, .f32⟩
  | 32 => ⟨S_, .f32⟩
  | 33 => ⟨S262144x512, .f32⟩
  | 34 => ⟨S262144x512, .i1⟩
  | 35 => ⟨S_, .f32⟩
  | 36 => ⟨S262144x512, .f32⟩
  | 37 => ⟨S262144x512, .f32⟩
  | 38 => ⟨S262144x512, .f32⟩
  | 39 => ⟨S512x256, .f32⟩
  | 40 => ⟨S262144x256, .f32⟩
  | 41 => ⟨S_, .f32⟩
  | 42 => ⟨S262144, .f32⟩
  | 43 => ⟨S262144x1, .f32⟩
  | 44 => ⟨S_, .f32⟩
  | 45 => ⟨S262144x1, .f32⟩
  | 46 => ⟨S262144x1, .f32⟩
  | 47 => ⟨S262144x256, .f32⟩
  | 48 => ⟨S262144x256, .f32⟩
  | 49 => ⟨S262144x256, .f32⟩
  | 50 => ⟨S_, .f32⟩
  | 51 => ⟨S262144, .f32⟩
  | 52 => ⟨S262144x1, .f32⟩
  | 53 => ⟨S_, .f32⟩
  | 54 => ⟨S262144x1, .f32⟩
  | 55 => ⟨S262144x1, .f32⟩
  | 56 => ⟨S262144x256, .f32⟩
  | 57 => ⟨S262144x256, .f32⟩
  | 58 => ⟨S_, .f32⟩
  | 59 => ⟨S262144x1, .f32⟩
  | 60 => ⟨S262144x1, .f32⟩
  | 61 => ⟨S262144x1, .f32⟩
  | 62 => ⟨S262144x256, .f32⟩
  | 63 => ⟨S262144x256, .f32⟩
  | 64 => ⟨S_, .f32⟩
  | 65 => ⟨S_, .f32⟩
  | 66 => ⟨S262144x256, .f32⟩
  | 67 => ⟨S262144x256, .i1⟩
  | 68 => ⟨S_, .f32⟩
  | 69 => ⟨S262144x256, .f32⟩
  | 70 => ⟨S262144x256, .f32⟩
  | 71 => ⟨S262144x256, .f32⟩
  | 72 => ⟨S_, .f32⟩
  | 73 => ⟨S128x256, .f32⟩
  | 74 => ⟨S262144x1, .i32⟩
  | 75 => ⟨S128x256, .f32⟩
  | 76 => ⟨S256x512, .f32⟩
  | 77 => ⟨S128x512, .f32⟩
  | 78 => ⟨S_, .f32⟩
  | 79 => ⟨S128, .f32⟩
  | 80 => ⟨S128x1, .f32⟩
  | 81 => ⟨S_, .f32⟩
  | 82 => ⟨S128x1, .f32⟩
  | 83 => ⟨S128x1, .f32⟩
  | 84 => ⟨S128x512, .f32⟩
  | 85 => ⟨S128x512, .f32⟩
  | 86 => ⟨S128x512, .f32⟩
  | 87 => ⟨S_, .f32⟩
  | 88 => ⟨S128, .f32⟩
  | 89 => ⟨S128x1, .f32⟩
  | 90 => ⟨S_, .f32⟩
  | 91 => ⟨S128x1, .f32⟩
  | 92 => ⟨S128x1, .f32⟩
  | 93 => ⟨S128x512, .f32⟩
  | 94 => ⟨S128x512, .f32⟩
  | 95 => ⟨S_, .f32⟩
  | 96 => ⟨S128x1, .f32⟩
  | 97 => ⟨S128x1, .f32⟩
  | 98 => ⟨S128x1, .f32⟩
  | 99 => ⟨S128x512, .f32⟩
  | 100 => ⟨S128x512, .f32⟩
  | 101 => ⟨S_, .f32⟩
  | 102 => ⟨S_, .f32⟩
  | 103 => ⟨S128x512, .f32⟩
  | 104 => ⟨S128x512, .i1⟩
  | 105 => ⟨S_, .f32⟩
  | 106 => ⟨S128x512, .f32⟩
  | 107 => ⟨S128x512, .f32⟩
  | 108 => ⟨S128x512, .f32⟩
  | 109 => ⟨S512x128, .f32⟩
  | 110 => ⟨S128x128, .f32⟩
  | 111 => ⟨S_, .f32⟩
  | 112 => ⟨S128, .f32⟩
  | 113 => ⟨S128x1, .f32⟩
  | 114 => ⟨S_, .f32⟩
  | 115 => ⟨S128x1, .f32⟩
  | 116 => ⟨S128x1, .f32⟩
  | 117 => ⟨S128x128, .f32⟩
  | 118 => ⟨S128x128, .f32⟩
  | 119 => ⟨S128x128, .f32⟩
  | 120 => ⟨S_, .f32⟩
  | 121 => ⟨S128, .f32⟩
  | 122 => ⟨S128x1, .f32⟩
  | 123 => ⟨S_, .f32⟩
  | 124 => ⟨S128x1, .f32⟩
  | 125 => ⟨S128x1, .f32⟩
  | 126 => ⟨S128x128, .f32⟩
  | 127 => ⟨S128x128, .f32⟩
  | _ => ⟨S262144x256, .f32⟩

abbrev hbmTy0_1 (i : Nat) : BufTy := match i % 128 with
  | 0 => ⟨S_, .f32⟩
  | 1 => ⟨S128x1, .f32⟩
  | 2 => ⟨S128x1, .f32⟩
  | 3 => ⟨S128x1, .f32⟩
  | 4 => ⟨S128x128, .f32⟩
  | 5 => ⟨S128x128, .f32⟩
  | 6 => ⟨S_, .f32⟩
  | 7 => ⟨S_, .f32⟩
  | 8 => ⟨S128x128, .f32⟩
  | 9 => ⟨S128x128, .i1⟩
  | 10 => ⟨S_, .f32⟩
  | 11 => ⟨S128x128, .f32⟩
  | 12 => ⟨S128x128, .f32⟩
  | 13 => ⟨S128x128, .f32⟩
  | _ => ⟨S262144x256, .f32⟩

abbrev hbmTy (i : Nat) : BufTy := match i / 128 with
  | 0 => hbmTy0_0 i
  | 1 => hbmTy0_1 i
  | _ => ⟨S262144x256, .f32⟩

abbrev bufTy : (tb : Table) → Fin (tcTables nBuf tb) → BufTy
  | .hbm, ⟨i, _⟩ => hbmTy i
  | _, _ => ⟨S262144x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_3 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_4 : Ref sig .tc := ⟨.hbm, 31, rfl⟩
abbrev main_call0_cst : Ref sig .tc := ⟨.hbm, 32, rfl⟩
abbrev main_call0_v0 : Ref sig .tc := ⟨.hbm, 33, rfl⟩
abbrev main_call0_v1 : Ref sig .tc := ⟨.hbm, 34, rfl⟩
abbrev main_call0_v2 : Ref sig .tc := ⟨.hbm, 35, rfl⟩
abbrev main_call0_v3 : Ref sig .tc := ⟨.hbm, 36, rfl⟩
abbrev main_call0_v4 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_cst_5 : Ref sig .tc := ⟨.hbm, 41, rfl⟩
abbrev main_v23 : Ref sig .tc := ⟨.hbm, 42, rfl⟩
abbrev main_v24 : Ref sig .tc := ⟨.hbm, 43, rfl⟩
abbrev main_cst_6 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_cst_7 : Ref sig .tc := ⟨.hbm, 50, rfl⟩
abbrev main_v30 : Ref sig .tc := ⟨.hbm, 51, rfl⟩
abbrev main_v31 : Ref sig .tc := ⟨.hbm, 52, rfl⟩
abbrev main_cst_8 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_cst_9 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_cst_10 : Ref sig .tc := ⟨.hbm, 64, rfl⟩
abbrev main_call1_cst : Ref sig .tc := ⟨.hbm, 65, rfl⟩
abbrev main_call1_v0 : Ref sig .tc := ⟨.hbm, 66, rfl⟩
abbrev main_call1_v1 : Ref sig .tc := ⟨.hbm, 67, rfl⟩
abbrev main_call1_v2 : Ref sig .tc := ⟨.hbm, 68, rfl⟩
abbrev main_call1_v3 : Ref sig .tc := ⟨.hbm, 69, rfl⟩
abbrev main_call1_v4 : Ref sig .tc := ⟨.hbm, 70, rfl⟩
abbrev main_v41 : Ref sig .tc := ⟨.hbm, 71, rfl⟩
abbrev main_cst_11 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_cst_12 : Ref sig .tc := ⟨.hbm, 78, rfl⟩
abbrev main_v47 : Ref sig .tc := ⟨.hbm, 79, rfl⟩
abbrev main_v48 : Ref sig .tc := ⟨.hbm, 80, rfl⟩
abbrev main_cst_13 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_cst_14 : Ref sig .tc := ⟨.hbm, 87, rfl⟩
abbrev main_v54 : Ref sig .tc := ⟨.hbm, 88, rfl⟩
abbrev main_v55 : Ref sig .tc := ⟨.hbm, 89, rfl⟩
abbrev main_cst_15 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_v59 : Ref sig .tc := ⟨.hbm, 94, rfl⟩
abbrev main_cst_16 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_cst_17 : Ref sig .tc := ⟨.hbm, 101, rfl⟩
abbrev main_call2_cst : Ref sig .tc := ⟨.hbm, 102, rfl⟩
abbrev main_call2_v0 : Ref sig .tc := ⟨.hbm, 103, rfl⟩
abbrev main_call2_v1 : Ref sig .tc := ⟨.hbm, 104, rfl⟩
abbrev main_call2_v2 : Ref sig .tc := ⟨.hbm, 105, rfl⟩
abbrev main_call2_v3 : Ref sig .tc := ⟨.hbm, 106, rfl⟩
abbrev main_call2_v4 : Ref sig .tc := ⟨.hbm, 107, rfl⟩
abbrev main_v65 : Ref sig .tc := ⟨.hbm, 108, rfl⟩
abbrev main_v66 : Ref sig .tc := ⟨.hbm, 109, rfl⟩
abbrev main_v67 : Ref sig .tc := ⟨.hbm, 110, rfl⟩
abbrev main_cst_18 : Ref sig .tc := ⟨.hbm, 111, rfl⟩
abbrev main_v68 : Ref sig .tc := ⟨.hbm, 112, rfl⟩
abbrev main_v69 : Ref sig .tc := ⟨.hbm, 113, rfl⟩
abbrev main_cst_19 : Ref sig .tc := ⟨.hbm, 114, rfl⟩
abbrev main_v70 : Ref sig .tc := ⟨.hbm, 115, rfl⟩
abbrev main_v71 : Ref sig .tc := ⟨.hbm, 116, rfl⟩
abbrev main_v72 : Ref sig .tc := ⟨.hbm, 117, rfl⟩
abbrev main_v73 : Ref sig .tc := ⟨.hbm, 118, rfl⟩
abbrev main_v74 : Ref sig .tc := ⟨.hbm, 119, rfl⟩
abbrev main_cst_20 : Ref sig .tc := ⟨.hbm, 120, rfl⟩
abbrev main_v75 : Ref sig .tc := ⟨.hbm, 121, rfl⟩
abbrev main_v76 : Ref sig .tc := ⟨.hbm, 122, rfl⟩
abbrev main_cst_21 : Ref sig .tc := ⟨.hbm, 123, rfl⟩
abbrev main_v77 : Ref sig .tc := ⟨.hbm, 124, rfl⟩
abbrev main_v78 : Ref sig .tc := ⟨.hbm, 125, rfl⟩
abbrev main_v79 : Ref sig .tc := ⟨.hbm, 126, rfl⟩
abbrev main_v80 : Ref sig .tc := ⟨.hbm, 127, rfl⟩
abbrev main_cst_22 : Ref sig .tc := ⟨.hbm, 128, rfl⟩
abbrev main_v81 : Ref sig .tc := ⟨.hbm, 129, rfl⟩
abbrev main_v82 : Ref sig .tc := ⟨.hbm, 130, rfl⟩
abbrev main_v83 : Ref sig .tc := ⟨.hbm, 131, rfl⟩
abbrev main_v84 : Ref sig .tc := ⟨.hbm, 132, rfl⟩
abbrev main_v85 : Ref sig .tc := ⟨.hbm, 133, rfl⟩
abbrev main_cst_23 : Ref sig .tc := ⟨.hbm, 134, rfl⟩
abbrev main_call3_cst : Ref sig .tc := ⟨.hbm, 135, rfl⟩
abbrev main_call3_v0 : Ref sig .tc := ⟨.hbm, 136, rfl⟩
abbrev main_call3_v1 : Ref sig .tc := ⟨.hbm, 137, rfl⟩
abbrev main_call3_v2 : Ref sig .tc := ⟨.hbm, 138, rfl⟩
abbrev main_call3_v3 : Ref sig .tc := ⟨.hbm, 139, rfl⟩
abbrev main_call3_v4 : Ref sig .tc := ⟨.hbm, 140, rfl⟩
abbrev main_v86 : Ref sig .tc := ⟨.hbm, 141, rfl⟩

abbrev nD : Nat := 1
abbrev τ : Topo := Topo.v7x

variable {F : FTy → Type} [FloatOps F]

class Facts₀ : Prop where
  transposes_S512x256_S256x512_1_0 : S512x256.Transposes [1, 0] S256x512
  reducesTo_S262144x512_S262144_d1 : S262144x512.ReducesTo [1] S262144
  h_S_ : 0 < S_.numel
  bcast_S262144_S262144x1_0 : S262144.BroadcastsInDim S262144x1 (![0] : Fin 1 → Fin S262144x1.rank)
  bcast_S_S262144x1 : S_.BroadcastsInDim S262144x1 (![] : Fin 0 → Fin S262144x1.rank)
  bcast_S262144x1_S262144x512_0_1 : S262144x1.BroadcastsInDim S262144x512 (![0, 1] : Fin 2 → Fin S262144x512.rank)
  bcast_S_S262144x512 : S_.BroadcastsInDim S262144x512 (![] : Fin 0 → Fin S262144x512.rank)
  transposes_S256x512_S512x256_1_0 : S256x512.Transposes [1, 0] S512x256
  reducesTo_S262144x256_S262144_d1 : S262144x256.ReducesTo [1] S262144
  bcast_S262144x1_S262144x256_0_1 : S262144x1.BroadcastsInDim S262144x256 (![0, 1] : Fin 2 → Fin S262144x256.rank)
  bcast_S_S262144x256 : S_.BroadcastsInDim S262144x256 (![] : Fin 0 → Fin S262144x256.rank)
  bcast_S_S128x256 : S_.BroadcastsInDim S128x256 (![] : Fin 0 → Fin S128x256.rank)
  reducesTo_S128x512_S128_d1 : S128x512.ReducesTo [1] S128
  bcast_S128_S128x1_0 : S128.BroadcastsInDim S128x1 (![0] : Fin 1 → Fin S128x1.rank)
  bcast_S_S128x1 : S_.BroadcastsInDim S128x1 (![] : Fin 0 → Fin S128x1.rank)
  bcast_S128x1_S128x512_0_1 : S128x1.BroadcastsInDim S128x512 (![0, 1] : Fin 2 → Fin S128x512.rank)
  bcast_S_S128x512 : S_.BroadcastsInDim S128x512 (![] : Fin 0 → Fin S128x512.rank)
  transposes_S128x512_S512x128_1_0 : S128x512.Transposes [1, 0] S512x128
  reducesTo_S128x128_S128_d1 : S128x128.ReducesTo [1] S128
  bcast_S128x1_S128x128_0_1 : S128x1.BroadcastsInDim S128x128 (![0, 1] : Fin 2 → Fin S128x128.rank)
  bcast_S_S128x128 : S_.BroadcastsInDim S128x128 (![] : Fin 0 → Fin S128x128.rank)
  dot_S262144x256_S256x512_S262144x512_1_0_0_1_n_n_wf : DotDims.WF S262144x256 S256x512 S262144x512 [1] [0] [0] [1] [] []
  dot_S262144x512_S512x256_S262144x256_1_0_0_1_n_n_wf : DotDims.WF S262144x512 S512x256 S262144x256 [1] [0] [0] [1] [] []
  scatter_S128x256_S262144x1_S262144x256_1_0_0_1_wf : ScatterDims.WF S128x256 S262144x1 S262144x256 [1] [0] [0] 1
  dot_S128x256_S256x512_S128x512_1_0_0_1_n_n_wf : DotDims.WF S128x256 S256x512 S128x512 [1] [0] [0] [1] [] []
  dot_S128x512_S512x128_S128x128_1_0_0_1_n_n_wf : DotDims.WF S128x512 S512x128 S128x128 [1] [0] [0] [1] [] []

variable [Facts₀]

def dot_S262144x256_S256x512_S262144x512_1_0_0_1_n_n : DotDims S262144x256 S256x512 S262144x512 where
  lhsContracting := [1]
  rhsContracting := [0]
  lhsNonContracting := [0]
  rhsNonContracting := [1]
  lhsBatch := []
  rhsBatch := []
  wf := dot_S262144x256_S256x512_S262144x512_1_0_0_1_n_n_wf
def dot_S262144x512_S512x256_S262144x256_1_0_0_1_n_n : DotDims S262144x512 S512x256 S262144x256 where
  lhsContracting := [1]
  rhsContracting := [0]
  lhsNonContracting := [0]
  rhsNonContracting := [1]
  lhsBatch := []
  rhsBatch := []
  wf := dot_S262144x512_S512x256_S262144x256_1_0_0_1_n_n_wf
def scatter_S128x256_S262144x1_S262144x256_1_0_0_1 : ScatterDims S128x256 S262144x1 S262144x256 where
  updateWindowDims := [1]
  insertedWindowDims := [0]
  scatterDimsToOperandDims := [0]
  indexVectorDim := 1
  wf := scatter_S128x256_S262144x1_S262144x256_1_0_0_1_wf
def dot_S128x256_S256x512_S128x512_1_0_0_1_n_n : DotDims S128x256 S256x512 S128x512 where
  lhsContracting := [1]
  rhsContracting := [0]
  lhsNonContracting := [0]
  rhsNonContracting := [1]
  lhsBatch := []
  rhsBatch := []
  wf := dot_S128x256_S256x512_S128x512_1_0_0_1_n_n_wf
def dot_S128x512_S512x128_S128x128_1_0_0_1_n_n : DotDims S128x512 S512x128 S128x128 where
  lhsContracting := [1]
  rhsContracting := [0]
  lhsNonContracting := [0]
  rhsNonContracting := [1]
  lhsBatch := []
  rhsBatch := []
  wf := dot_S128x512_S512x128_S128x128_1_0_0_1_n_n_wf

class Facts : Prop extends Facts₀ where

variable [Facts]
-- ==== Proof.KKit.lean ====
import proofs.«407833_j86303072845932_1_alg».proof.Proof.Gen.Kernel.Launch
import proofs.«407833_j86303072845932_1_alg».proof.Proof.Gen.Kernel.Skeleton
import proofs.«407833_j86303072845932_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

-- membership in a rectangle of full extents: the elaborator's structural look recurses once per coordinate of the long axes
set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host program around the one region

The host program is five operations (a reshape of the segment ids, two transposed weights rounded to bf16), the one
region, and sixty-six operations after it in four stretches. The region sees the buffers as the five operations leave
them; the later operations see the region's arrays as the region leaves them and every other buffer as it was. -/

/-- The core's buffer contents when the region is entered: after the operations before it. -/
abbrev V0 (c : Dev nD) : Valuation τ sig (Elt F) := StableHlo.after (List.flatten [hostOps0]) (fun b => m (c, b))
/-- The same read at a reference. -/
abbrev V (c : Dev nD) (b : Ref sig .tc) : Buf (Elt F) ((c : Thread nD τ).loc b) := V0 m c (Proc.devRef .tc b)

/-! No host operation allocates a buffer. -/
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor

-- (the host program's chain of seventy-one operations is matched against the library's statement whole)
set_option maxHeartbeats 4000000 in
/-- The host program is the operations before the region, the region, and the four stretches after it: it reduces to
    the region continued by the later stretches. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1, StableHlo.seq hostOps1_1, StableHlo.seq hostOps1_2, StableHlo.seq hostOps1_3]) :=
  Pipeline.hmain_around cfgs 0 defs₀ 𝒱₀ m main [hostOps0] [hostOps1, hostOps1_1, hostOps1_2, hostOps1_3] (by simp only [List.Forall]; exact hostOps0_sub)
    (by simp only [List.Forall]; exact hostOps0_fresh) main_chain

/-- The later stretches touch unscoped references only: with nothing prefetched these are exactly the region's arrays
    and the buffers that bypass it. -/
theorem sfx_sub : ∀ ops ∈ ([hostOps1, hostOps1_1, hostOps1_2, hostOps1_3] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)

/-- They allocate nothing. -/
theorem sfx_fresh : ∀ ops ∈ ([hostOps1, hostOps1_1, hostOps1_2, hostOps1_3] : List (List (HloOp τ sig (Elt F)))), ∀ op ∈ ops, op.fresh = ∅ := by
  intro ops hops op hop
  simp only [List.mem_cons, List.mem_nil_iff, or_false] at hops
  rcases hops with rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop

/-! Each later operation writes its own result buffer only, and no result buffer is one of the region's five arrays
    (the features, the reshaped segment ids, the two bf16 weights, the per-half segment sums). -/
theorem hostOps1_keeps : (hostOps1 : List (HloOp τ sig (Elt F))).Forall fun op =>
    ∀ w, Proc.devRef .tc (Pipeline.arrRef spec0 w) ∉ op.writes := by
  simp only [hostOps1, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact fun w => StableHlo.devRef_ne_of_ne (by revert w; decide)
theorem hostOps1_1_keeps : (hostOps1_1 : List (HloOp τ sig (Elt F))).Forall fun op =>
    ∀ w, Proc.devRef .tc (Pipeline.arrRef spec0 w) ∉ op.writes := by
  simp only [hostOps1_1, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact fun w => StableHlo.devRef_ne_of_ne (by revert w; decide)
theorem hostOps1_2_keeps : (hostOps1_2 : List (HloOp τ sig (Elt F))).Forall fun op =>
    ∀ w, Proc.devRef .tc (Pipeline.arrRef spec0 w) ∉ op.writes := by
  simp only [hostOps1_2, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact fun w => StableHlo.devRef_ne_of_ne (by revert w; decide)
theorem hostOps1_3_keeps : (hostOps1_3 : List (HloOp τ sig (Elt F))).Forall fun op =>
    ∀ w, Proc.devRef .tc (Pipeline.arrRef spec0 w) ∉ op.writes := by
  simp only [hostOps1_3, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact fun w => StableHlo.devRef_ne_of_ne (by revert w; decide)

/-- So the later stretches write no array of the region. -/
theorem sfx_keeps : ∀ ops ∈ ([hostOps1, hostOps1_1, hostOps1_2, hostOps1_3] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl | rfl | rfl | rfl
  · exact (List.forall_iff_forall_mem.mp hostOps1_keeps) op hop
  · exact (List.forall_iff_forall_mem.mp hostOps1_1_keeps) op hop
  · exact (List.forall_iff_forall_mem.mp hostOps1_2_keeps) op hop
  · exact (List.forall_iff_forall_mem.mp hostOps1_3_keeps) op hop

/-! ## The six arguments are never written -/

/-- No operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No operation after the region writes `main_arg0`. -/
theorem tail_keeps_arg0 : ∀ op ∈ ([hostOps1, hostOps1_1, hostOps1_2, hostOps1_3] : List (List (HloOp τ sig (Elt F)))).flatten,
    Proc.devRef .tc main_arg0 ∉ op.writes :=
  List.forall_iff_forall_mem.mp (by
    simp only [hostOps1, hostOps1_1, hostOps1_2, hostOps1_3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))

/-- No operation after the region writes `main_arg1`. -/
theorem tail_keeps_arg1 : ∀ op ∈ ([hostOps1, hostOps1_1, hostOps1_2, hostOps1_3] : List (List (HloOp τ sig (Elt F)))).flatten,
    Proc.devRef .tc main_arg1 ∉ op.writes :=
  List.forall_iff_forall_mem.mp (by
    simp only [hostOps1, hostOps1_1, hostOps1_2, hostOps1_3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))

/-- No operation after the region writes `main_arg2`. -/
theorem tail_keeps_arg2 : ∀ op ∈ ([hostOps1, hostOps1_1, hostOps1_2, hostOps1_3] : List (List (HloOp τ sig (Elt F)))).flatten,
    Proc.devRef .tc main_arg2 ∉ op.writes :=
  List.forall_iff_forall_mem.mp (by
    simp only [hostOps1, hostOps1_1, hostOps1_2, hostOps1_3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))

/-- No operation after the region writes `main_arg3`. -/
theorem tail_keeps_arg3 : ∀ op ∈ ([hostOps1, hostOps1_1, hostOps1_2, hostOps1_3] : List (List (HloOp τ sig (Elt F)))).flatten,
    Proc.devRef .tc main_arg3 ∉ op.writes :=
  List.forall_iff_forall_mem.mp (by
    simp only [hostOps1, hostOps1_1, hostOps1_2, hostOps1_3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))

/-- No operation after the region writes `main_arg4`. -/
theorem tail_keeps_arg4 : ∀ op ∈ ([hostOps1, hostOps1_1, hostOps1_2, hostOps1_3] : List (List (HloOp τ sig (Elt F)))).flatten,
    Proc.devRef .tc main_arg4 ∉ op.writes :=
  List.forall_iff_forall_mem.mp (by
    simp only [hostOps1, hostOps1_1, hostOps1_2, hostOps1_3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))

/-- No operation after the region writes `main_arg5`. -/
theorem tail_keeps_arg5 : ∀ op ∈ ([hostOps1, hostOps1_1, hostOps1_2, hostOps1_3] : List (List (HloOp τ sig (Elt F)))).flatten,
    Proc.devRef .tc main_arg5 ∉ op.writes :=
  List.forall_iff_forall_mem.mp (by
    simp only [hostOps1, hostOps1_1, hostOps1_2, hostOps1_3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))

/-- `main_arg0` is the region's first array, an input: the region leaves it at its entry contents (for proof data whose
    array is the region-entry contents, `hA`), and no later operation writes it. -/
theorem W_main_arg0 (dats : (p : Fin _) → (c : Dev nD) → Dat τ (Elt F) Unit ℕ (UR sig nD τ) ℕ (cfgs p) c) (c : Dev nD)
    (hA : (dats 0 c).A 0 = V m c (Pipeline.arrRef spec0 0)) :
    Pipeline.afterTail₀ cfgs dats 0 (V0 m) [hostOps1, hostOps1_1, hostOps1_2, hostOps1_3] c main_arg0 = m ((c : Thread nD τ).loc main_arg0) := by
  unfold Pipeline.afterTail₀
  rw [StableHlo.after_of_forall_not_mem (b := Proc.devRef .tc main_arg0) _ _ (tail_keeps_arg0 (F := F))]
  exact (Pipeline.withArrays_arr spec0 launch0.win.arr_inj c _ _ 0).trans
    (((dats 0 c).arrAt_in 0 rfl _).trans (hA.trans (V_main_arg0 m c)))

/-- No operation after the region writes `main_arg1`, and it is no array of the pipeline: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1, hostOps1_1, hostOps1_2, hostOps1_3] c main_arg1 = m ((c : Thread nD τ).loc main_arg1) := by
  unfold Pipeline.afterTail₀
  rw [StableHlo.after_of_forall_not_mem (b := Proc.devRef .tc main_arg1) _ _ (tail_keeps_arg1 (F := F)),
    Pipeline.withArrays_of_ne _ c (V0 m c) _ main_arg1 (by exact (by decide : ∀ w, Pipeline.arrRef spec0 w ≠ main_arg1))]
  exact V_main_arg1 m c

/-- No operation after the region writes `main_arg2`, and it is no array of the pipeline: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1, hostOps1_1, hostOps1_2, hostOps1_3] c main_arg2 = m ((c : Thread nD τ).loc main_arg2) := by
  unfold Pipeline.afterTail₀
  rw [StableHlo.after_of_forall_not_mem (b := Proc.devRef .tc main_arg2) _ _ (tail_keeps_arg2 (F := F)),
    Pipeline.withArrays_of_ne _ c (V0 m c) _ main_arg2 (by exact (by decide : ∀ w, Pipeline.arrRef spec0 w ≠ main_arg2))]
  exact V_main_arg2 m c

/-- No operation after the region writes `main_arg3`, and it is no array of the pipeline: it ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1, hostOps1_1, hostOps1_2, hostOps1_3] c main_arg3 = m ((c : Thread nD τ).loc main_arg3) := by
  unfold Pipeline.afterTail₀
  rw [StableHlo.after_of_forall_not_mem (b := Proc.devRef .tc main_arg3) _ _ (tail_keeps_arg3 (F := F)),
    Pipeline.withArrays_of_ne _ c (V0 m c) _ main_arg3 (by exact (by decide : ∀ w, Pipeline.arrRef spec0 w ≠ main_arg3))]
  exact V_main_arg3 m c

/-- No operation after the region writes `main_arg4`, and it is no array of the pipeline: it ends as launched. -/
theorem W_main_arg4 (dats : (p : Fin _) → (c : Dev nD) → Dat τ (Elt F) Unit ℕ (UR sig nD τ) ℕ (cfgs p) c) (c : Dev nD) :
    Pipeline.afterTail₀ cfgs dats 0 (V0 m) [hostOps1, hostOps1_1, hostOps1_2, hostOps1_3] c main_arg4 = m ((c : Thread nD τ).loc main_arg4) := by
  unfold Pipeline.afterTail₀
  rw [StableHlo.after_of_forall_not_mem (b := Proc.devRef .tc main_arg4) _ _ (tail_keeps_arg4 (F := F)),
    Pipeline.withArrays_of_ne _ c (V0 m c) _ main_arg4 (by exact (by decide : ∀ w, Pipeline.arrRef spec0 w ≠ main_arg4))]
  exact V_main_arg4 m c

/-- No operation after the region writes `main_arg5`, and it is no array of the pipeline: it ends as launched. -/
theorem W_main_arg5 (dats : (p : Fin _) → (c : Dev nD) → Dat τ (Elt F) Unit ℕ (UR sig nD τ) ℕ (cfgs p) c) (c : Dev nD) :
    Pipeline.afterTail₀ cfgs dats 0 (V0 m) [hostOps1, hostOps1_1, hostOps1_2, hostOps1_3] c main_arg5 = m ((c : Thread nD τ).loc main_arg5) := by
  unfold Pipeline.afterTail₀
  rw [StableHlo.after_of_forall_not_mem (b := Proc.devRef .tc main_arg5) _ _ (tail_keeps_arg5 (F := F)),
    Pipeline.withArrays_of_ne _ c (V0 m c) _ main_arg5 (by exact (by decide : ∀ w, Pipeline.arrRef spec0 w ≠ main_arg5))]
  exact V_main_arg5 m c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for any proof data
    whose array is the region-entry contents and whose body leaves the block in place (unfetched, the index has not moved). -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not, for any proof data
    whose array is the region-entry contents and whose body leaves the block in place (unfetched, the index has not moved). -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not, for any proof data
    whose array is the region-entry contents and whose body leaves the block in place (unfetched, the index has not moved). -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not, for any proof data
    whose array is the region-entry contents and whose body leaves the block in place (unfetched, the index has not moved). -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- From a run whose final state has every array of the region at what the proof data compute and every other unscoped
    buffer as the later operations leave it: the six arguments end as launched. The features array is the region's first
    input, which the region hands back unchanged; the other five bypass the region and no operation writes them. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1, hostOps1_1, hostOps1_2, hostOps1_3]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).1 0).trans (((dats 0 c).arrAt_in 0 rfl _).trans ((hA c 0).trans (V_main_arg0 m c))),
     ((h c).2 main_arg1 (Pipeline.mem_restRefs_of main_arg1 (by decide) (by decide))).trans (W_main_arg1 m dats c),
     ((h c).2 main_arg2 (Pipeline.mem_restRefs_of main_arg2 (by decide) (by decide))).trans (W_main_arg2 m dats c),
     ((h c).2 main_arg3 (Pipeline.mem_restRefs_of main_arg3 (by decide) (by decide))).trans (W_main_arg3 m dats c),
     ((h c).2 main_arg4 (Pipeline.mem_restRefs_of main_arg4 (by decide) (by decide))).trans (W_main_arg4 m dats c),
     ((h c).2 main_arg5 (Pipeline.mem_restRefs_of main_arg5 (by decide) (by decide))).trans (W_main_arg5 m dats c)⟩) h

/-! ## The body's branch condition -/

/-- The body resets its output block when the second grid coordinate is zero. -/
abbrev cond0_0 (i : grid0.Coords) : Prop := (Scalar.cmpi .ne (Scalar.extui (Scalar.cmpi .eq (BitVec.ofNat 32 (i 1).val) 0#32)) 0#32) = 1#1
/-- That is at the points ≡ 0 (mod 128): the first point of each half of the grid. -/
theorem hcond0_0 : ∀ t : Fin cfg0.N, cond0_0 (grid0.coords t) ↔ t.val % 128 = 0 :=
  (by decide +kernel : ∀ t : Fin grid0.N, cond0_0 (grid0.coords t) ↔ t.val % 128 = 0)

/-! ## The staging memrefs the body is called with -/

/-- One staging buffer of the output window, through which its contents are stated (the choice does not matter). -/
abbrev VO0_4 : View sig .tc .vmem S1x128x256 .f32 := (Memref.whole cc0_stg4_0 : Memref sig .tc .vmem S1x128x256 .f32).view
/-- Each window's current staging memref at point `t`, and its wholeness. -/
abbrev ms0_0 (t : Fin cfg0.N) : Memref sig .tc .vmem S1024x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x1 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x512 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x256 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x128x256 .f32 := win0_4.stage (cfg0.slots t 4)
abbrev hs0_4 (t : Fin cfg0.N) : (ms0_4 t).IsWhole := hstage0_4 ((cfg0.slots t 4).cast nbuf0_4)

end Cert.Kernel.Frm

end
-- ==== Proof.KRunReset.lean ====
import proofs.«407833_j86303072845932_1_alg».proof.Proof.KKit

-- membership in a rectangle of full extents: the elaborator's structural look recurses once per coordinate of the long axes
set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body at a point where the output block is reset

At a point whose second grid coordinate is zero the body first overwrites the whole output block with zeros, then
reads the four input blocks, computes the per-segment sums of this tile of rows, reads the output block back (now the
zeros), adds, and stores the whole block again. Whatever the block held on entry is never used. -/

-- (the run's proof term is large: the definition's epilogue walks it past the default budget)
set_option maxHeartbeats 1000000 in
/-- What the body's stores leave in the output's staging memref, as pieces (last first), in the reset case, with the
    proof that on whole staging memrefs — the four inputs' at their contents, the output's at anything — the body runs to
    the continuation holding the inputs' as they were and the output's buffer with those pieces written. The pieces are
    found by running the body: the zero store, then the store of the sum read back over it. -/
noncomputable def kernelRun0_A (c : Dev nD) (i : grid0.Coords) (arg2 : Memref sig .tc .vmem S1024x256 .f32) (harg2 : arg2.IsWhole) (arg3 : Memref sig .tc .vmem S1024x1 .i32) (harg3 : arg3.IsWhole) (arg4 : Memref sig .tc .vmem S256x512 .bf16) (harg4 : arg4.IsWhole) (arg5 : Memref sig .tc .vmem S512x256 .bf16) (harg5 : arg5.IsWhole) (arg6 : Memref sig .tc .vmem S1x128x256 .f32) (harg6 : arg6.IsWhole) (hc0 : cond0_0 i)
    (x0 : Vec F S1024x256 .f32) (x1 : Vec F S1024x1 .i32) (x2 : Vec F S256x512 .bf16) (x3 : Vec F S512x256 .bf16) :
    { L4 : List (View.Piece (Elt F) S1x128x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4)) -∗ K ⟨⟩))
          ⊢ wp frame (wpE (defs₀ (F := F)) Variants.none c none) E (cc0__phi_kernel i arg2 harg2 arg3 harg3 arg4 harg4 arg5 harg5 arg6 harg6) K } := by
  refine ⟨?_, fun E K => ?run⟩
  case run =>
    simp only [cc0__phi_kernel_eq_skeleton]; unfold cc0__phi_kernel_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, Hk⟩
    obtain rfl := harg2.eq_unread hf0; obtain rfl := harg3.eq_unread hf1; obtain rfl := harg4.eq_unread hf2; obtain rfl := harg5.eq_unread hf3
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact H4

end Cert.Kernel.Frm

end
-- ==== Proof.KRunAcc.lean ====
import proofs.«407833_j86303072845932_1_alg».proof.Proof.KKit

-- membership in a rectangle of full extents: the elaborator's structural look recurses once per coordinate of the long axes
set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body at a point where the output block is accumulated

At a point whose second grid coordinate is not zero the body reads the four input blocks, computes the per-segment sums
of this tile of rows, reads the output block — the running sum of the earlier tiles of this half —, adds, and stores the
whole block. -/

-- (the run's proof term is large: the definition's epilogue walks it past the default budget)
set_option maxHeartbeats 1000000 in
/-- What the body's store leaves in the output's staging memref, as pieces, in the accumulating case, with the proof
    that on whole staging memrefs — the four inputs' at their contents, the output's at its running contents `xo4` — the
    body runs to the continuation holding the inputs' as they were and the output's buffer with that piece written. -/
noncomputable def kernelRun0_B (c : Dev nD) (i : grid0.Coords) (arg2 : Memref sig .tc .vmem S1024x256 .f32) (harg2 : arg2.IsWhole) (arg3 : Memref sig .tc .vmem S1024x1 .i32) (harg3 : arg3.IsWhole) (arg4 : Memref sig .tc .vmem S256x512 .bf16) (harg4 : arg4.IsWhole) (arg5 : Memref sig .tc .vmem S512x256 .bf16) (harg5 : arg5.IsWhole) (arg6 : Memref sig .tc .vmem S1x128x256 .f32) (harg6 : arg6.IsWhole) (hc0 : ¬cond0_0 i)
    (x0 : Vec F S1024x256 .f32) (x1 : Vec F S1024x1 .i32) (x2 : Vec F S256x512 .bf16) (x3 : Vec F S512x256 .bf16) (xo4 : Vec F S1x128x256 .f32) :
    { L4 : List (View.Piece (Elt F) S1x128x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo4
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4)) -∗ K ⟨⟩))
          ⊢ wp frame (wpE (defs₀ (F := F)) Variants.none c none) E (cc0__phi_kernel i arg2 harg2 arg3 harg3 arg4 harg4 arg5 harg5 arg6 harg6) K } := by
  refine ⟨?_, fun E K => ?run⟩
  case run =>
    simp only [cc0__phi_kernel_eq_skeleton]; unfold cc0__phi_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact H4

end Cert.Kernel.Frm

end
-- ==== Proof.KFrm.lean ====
import proofs.«407833_j86303072845932_1_alg».proof.Proof.KRunReset
import proofs.«407833_j86303072845932_1_alg».proof.Proof.KRunAcc

-- membership in a rectangle of full extents: the elaborator's structural look recurses once per coordinate of the long axes
set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves in the output block -/

/-- The reset case's pieces cover the output block (the zero store and the final store are each the whole block). -/
theorem cover0_A_4 (c : Dev nD) (i : grid0.Coords) (arg2 : Memref sig .tc .vmem S1024x256 .f32) (harg2 : arg2.IsWhole) (arg3 : Memref sig .tc .vmem S1024x1 .i32) (harg3 : arg3.IsWhole) (arg4 : Memref sig .tc .vmem S256x512 .bf16) (harg4 : arg4.IsWhole) (arg5 : Memref sig .tc .vmem S512x256 .bf16) (harg5 : arg5.IsWhole) (arg6 : Memref sig .tc .vmem S1x128x256 .f32) (harg6 : arg6.IsWhole) (hc0 : cond0_0 i)
    (x0 : Vec F S1024x256 .f32) (x1 : Vec F S1024x1 .i32) (x2 : Vec F S256x512 .bf16) (x3 : Vec F S512x256 .bf16) (y : S1x128x256.Idx) :
    ∃ pc ∈ (kernelRun0_A c i arg2 harg2 arg3 harg3 arg4 harg4 arg5 harg5 arg6 harg6 hc0 x0 x1 x2 x3).1, y ∈ pc.1.set :=
  View.cover_of_tiledL (kernelRun0_A c i arg2 harg2 arg3 harg3 arg4 harg4 arg5 harg5 arg6 harg6 hc0 x0 x1 x2 x3).1 S1x128x256.size (by sl_kernel_rfl) y

/-- What the reset case leaves in the output's staging buffer: its pieces read back over junk. -/
def out0_A_4 (c : Dev nD) (i : grid0.Coords) (arg2 : Memref sig .tc .vmem S1024x256 .f32) (harg2 : arg2.IsWhole) (arg3 : Memref sig .tc .vmem S1024x1 .i32) (harg3 : arg3.IsWhole) (arg4 : Memref sig .tc .vmem S256x512 .bf16) (harg4 : arg4.IsWhole) (arg5 : Memref sig .tc .vmem S512x256 .bf16) (harg5 : arg5.IsWhole) (arg6 : Memref sig .tc .vmem S1x128x256 .f32) (harg6 : arg6.IsWhole) (hc0 : cond0_0 i)
    (x0 : Vec F S1024x256 .f32) (x1 : Vec F S1024x1 .i32) (x2 : Vec F S256x512 .bf16) (x3 : Vec F S512x256 .bf16) : Vec F S1x128x256 .f32 :=
  VO0_4.read (Elt F) (VO0_4.writes (Elt F) VO0_4.junk (kernelRun0_A c i arg2 harg2 arg3 harg3 arg4 harg4 arg5 harg5 arg6 harg6 hc0 x0 x1 x2 x3).1)

/-- The accumulating case's piece covers the output block (one store of the whole block). -/
theorem cover0_B_4 (c : Dev nD) (i : grid0.Coords) (arg2 : Memref sig .tc .vmem S1024x256 .f32) (harg2 : arg2.IsWhole) (arg3 : Memref sig .tc .vmem S1024x1 .i32) (harg3 : arg3.IsWhole) (arg4 : Memref sig .tc .vmem S256x512 .bf16) (harg4 : arg4.IsWhole) (arg5 : Memref sig .tc .vmem S512x256 .bf16) (harg5 : arg5.IsWhole) (arg6 : Memref sig .tc .vmem S1x128x256 .f32) (harg6 : arg6.IsWhole) (hc0 : ¬cond0_0 i)
    (x0 : Vec F S1024x256 .f32) (x1 : Vec F S1024x1 .i32) (x2 : Vec F S256x512 .bf16) (x3 : Vec F S512x256 .bf16) (xo4 : Vec F S1x128x256 .f32) (y : S1x128x256.Idx) :
    ∃ pc ∈ (kernelRun0_B c i arg2 harg2 arg3 harg3 arg4 harg4 arg5 harg5 arg6 harg6 hc0 x0 x1 x2 x3 xo4).1, y ∈ pc.1.set :=
  View.cover_of_tiledL (kernelRun0_B c i arg2 harg2 arg3 harg3 arg4 harg4 arg5 harg5 arg6 harg6 hc0 x0 x1 x2 x3 xo4).1 S1x128x256.size (by sl_kernel_rfl) y

/-- What the accumulating case leaves in the output's staging buffer: its piece read back over junk. -/
def out0_B_4 (c : Dev nD) (i : grid0.Coords) (arg2 : Memref sig .tc .vmem S1024x256 .f32) (harg2 : arg2.IsWhole) (arg3 : Memref sig .tc .vmem S1024x1 .i32) (harg3 : arg3.IsWhole) (arg4 : Memref sig .tc .vmem S256x512 .bf16) (harg4 : arg4.IsWhole) (arg5 : Memref sig .tc .vmem S512x256 .bf16) (harg5 : arg5.IsWhole) (arg6 : Memref sig .tc .vmem S1x128x256 .f32) (harg6 : arg6.IsWhole) (hc0 : ¬cond0_0 i)
    (x0 : Vec F S1024x256 .f32) (x1 : Vec F S1024x1 .i32) (x2 : Vec F S256x512 .bf16) (x3 : Vec F S512x256 .bf16) (xo4 : Vec F S1x128x256 .f32) : Vec F S1x128x256 .f32 :=
  VO0_4.read (Elt F) (VO0_4.writes (Elt F) VO0_4.junk (kernelRun0_B c i arg2 harg2 arg3 harg3 arg4 harg4 arg5 harg5 arg6 harg6 hc0 x0 x1 x2 x3 xo4).1)

/-! ## What the output block holds after each point -/

/-- THE ACCUMULATION. What the output's staging buffer holds after the body at position `n`: at the first point of a
    half of the grid (`n % 128 = 0`) the reset case, run at the point's input blocks; at every other point the
    accumulating case over what this leaves at `n - 1` (the buffer is not written back between the two). -/
def outsAt0 (c : Dev nD) : (n : ℕ) → n < cfg0.N → Vec F S1x128x256 .f32
  | 0, hn => out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) ((hcond0_0 ⟨0, hn⟩).mpr (Nat.zero_mod _)) (iblk m c 0 ⟨0, hn⟩) (iblk m c 1 ⟨0, hn⟩) (iblk m c 2 ⟨0, hn⟩) (iblk m c 3 ⟨0, hn⟩)
  | n + 1, hn =>
    if h0 : (n + 1) % 128 = 0 then
      out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩)
    else
      out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn))

/-- `outsAt0` at a point of the reset case: that case's contents. -/
theorem outsAt0_A (c : Dev nD) (t : Fin cfg0.N) (h0 : t.val % 128 = 0) :
    outsAt0 m c t.val t.isLt = out0_A_4 c (grid0.coords t) (ms0_0 t) (hs0_0 t) (ms0_1 t) (hs0_1 t) (ms0_2 t) (hs0_2 t) (ms0_3 t) (hs0_3 t) (ms0_4 t) (hs0_4 t) ((hcond0_0 t).mpr h0) (iblk m c 0 t) (iblk m c 1 t) (iblk m c 2 t) (iblk m c 3 t) := by
  obtain ⟨n, hn⟩ := t
  cases n with
  | zero => exact rfl
  | succ n => exact (dif_pos h0).trans rfl

/-- `outsAt0` at a point of the accumulating case: that case's contents, over what the point before left. -/
theorem outsAt0_B (c : Dev nD) (t : Fin cfg0.N) (h0 : ¬t.val % 128 = 0) :
    outsAt0 m c t.val t.isLt = out0_B_4 c (grid0.coords t) (ms0_0 t) (hs0_0 t) (ms0_1 t) (hs0_1 t) (ms0_2 t) (hs0_2 t) (ms0_3 t) (hs0_3 t) (ms0_4 t) (hs0_4 t) (fun h => h0 ((hcond0_0 t).mp h)) (iblk m c 0 t) (iblk m c 1 t) (iblk m c 2 t) (iblk m c 3 t) (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The pipeline's proof data -/

/-- The proof data of the one pipeline on core `c`: the arrays as the region finds them; after the body at point `t`
    each input's buffer at its block and the output's at `outsAt0`; the invariant the scoped rest and the generator
    register; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t.val t.isLt)
  Φ _ := Pipeline.ΦA spec0 c
  q _ := fullShare
  owed _ := 0

/-- The proof data's arrays are the region-entry contents (the definition projected, so that the fold over the host
    operations before the region is never unfolded to check it). -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (outsAt0 m c t.val t.isLt) := by dsimp only [dats]

/-- Each input's current staging buffer holds its block at every point, fetched there or not (the two weights are
    fetched at the first point only and stay in place). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-- At a point of the accumulating case the output's current staging buffer holds what the body left at the point
    before: the point is not the first, and the buffer is written back only after the last point of a half
    (`t % 128 = 127`), which the point before an accumulating point never is. -/
theorem before0_4_B (c : Dev nD) (t : Fin cfg0.N) (h0 : ¬t.val % 128 = 0) (d) :
    (dats m 0 c).before 4 t d = (outsAt0 m c (t.val - 1) (Nat.lt_of_le_of_lt (Nat.sub_le _ _) t.isLt)) := by
  have hN : t.val < 256 := lt_of_lt_of_eq t.isLt (show cfg0.N = 256 from N_0)
  rw [Dat.before_out_kept _ 4 rfl t (by omega) (Bool.eq_false_iff.mpr fun h => by have := (flush0_4 _).mp h; dsimp only at this; omega)
    (fun _ => rfl) (fun _ _ => rfl)]
  dsimp only [dats]

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t))

set_option maxHeartbeats 1600000 in
/-- The body at any point: the inputs' memrefs hold their blocks; the closed form of the condition says which case the
    point is in; in the accumulating case the output's memref holds what the point before left; so that case's run
    applies; the invariant passes through unread; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4]
  have hN : t.val < 256 := lt_of_lt_of_eq t.isLt (show cfg0.N = 256 from N_0)
  by_cases h0 : t.val % 128 = 0
  · rw [outsAt0_A m c t h0]
    unfold out0_A_4
    iintro ⟨HΦ, Ho, ⟨%d0, H0⟩, ⟨%d1, H1⟩, ⟨%d2, H2⟩, ⟨%d3, H3⟩, ⟨%d4, H4⟩⟩
    iapply ((kernelRun0_A c (grid0.coords t) _ _ _ _ _ _ _ _ _ _ ((hcond0_0 t).mpr h0) (iblk m c 0 t) (iblk m c 1 t) (iblk m c 2 t) (iblk m c 3 t)).2 Set.univ _)
    isplitl [H0]; · iexact H0
    isplitl [H1]; · iexact H1
    isplitl [H2]; · iexact H2
    isplitl [H3]; · iexact H3
    isplitl [H4]; · iexists _; iexact H4
    iintro ⟨H0, H1, H2, H3, ⟨%e4, H4⟩⟩
    isplitl [HΦ]; · iexact HΦ
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover0_A_4 c _ _ _ _ _ _ _ _ _ _ _ _ _ _ _ _)
  · rw [outsAt0_B m c t h0]
    simp only [before0_4_B m c t h0]
    unfold out0_B_4
    iintro ⟨HΦ, Ho, ⟨%d0, H0⟩, ⟨%d1, H1⟩, ⟨%d2, H2⟩, ⟨%d3, H3⟩, ⟨%d4, H4⟩⟩
    iapply ((kernelRun0_B c (grid0.coords t) _ _ _ _ _ _ _ _ _ _ (fun h => h0 ((hcond0_0 t).mp h)) (iblk m c 0 t) (iblk m c 1 t) (iblk m c 2 t) (iblk m c 3 t) _).2 Set.univ _)
    isplitl [H0]; · iexact H0
    isplitl [H1]; · iexact H1
    isplitl [H2]; · iexact H2
    isplitl [H3]; · iexact H3
    isplitl [H4]; · iexact H4
    iintro ⟨H0, H1, H2, H3, ⟨%e4, H4⟩⟩
    isplitl [HΦ]; · iexact HΦ
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover0_B_4 c _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

-- the launch theorem's implicit arguments are found by unifying its conclusion with this one, which takes unfolding plain
-- definitions in a metavariable's type
set_option backward.isDefEq.respectTransparency.types false in
set_option maxHeartbeats 4000000 in
/-- At the compiled mesh, for any values, from any memory with zero counters: every weakly fair execution of the host
    program terminates, and every final state has every array of the pipeline at what the library computes from the proof
    data and every other unscoped buffer as the operations after the region leave it. -/
theorem run_main : θ_run defs (onTc (τ := τ) (main (F := F))) (s₀ m ρ) (Pipeline.FramePost cfgs (dats m) 0 (Pipeline.afterTail₀ cfgs (dats m) 0 (V0 m) [hostOps1, hostOps1_1, hostOps1_2, hostOps1_3])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1, hostOps1_1, hostOps1_2, hostOps1_3]) (hsub := sfx_sub) (hfresh := sfx_fresh) (hkeep := sfx_keeps)
    (hmain := hmain m Variants.none) (hA := A_eq m) (hΦ := fun _ _ => rfl)

/-- info: 'Cert.Kernel.Frm.run_main' depends on axioms: [propext, Classical.choice, Quot.sound] -/
#guard_msgs in #print axioms run_main

/-- THE FRAME: the host program runs, and its six argument arrays end unchanged, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

end Cert.Kernel.Frm

end
-- ==== Proof.KIKit.lean ====
import proofs.«407833_j86303072845932_1_alg».proof.Proof.Gen.KernelIdeal.Launch
import proofs.«407833_j86303072845932_1_alg».proof.Proof.Gen.KernelIdeal.Skeleton
import proofs.«407833_j86303072845932_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

-- membership in a rectangle of full extents: the elaborator's structural look recurses once per coordinate of the long axes
set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host program around the one region

The host program is five operations (a reshape of the segment ids, two transposed weights rounded to bf16), the one
region, and sixty-six operations after it in four stretches. The region sees the buffers as the five operations leave
them; the later operations see the region's arrays as the region leaves them and every other buffer as it was. -/

/-- The core's buffer contents when the region is entered: after the operations before it. -/
abbrev V0 (c : Dev nD) : Valuation τ sig (Elt F) := StableHlo.after (List.flatten [hostOps0]) (fun b => m (c, b))
/-- The same read at a reference. -/
abbrev V (c : Dev nD) (b : Ref sig .tc) : Buf (Elt F) ((c : Thread nD τ).loc b) := V0 m c (Proc.devRef .tc b)

/-! No host operation allocates a buffer. -/
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor

-- (the host program's chain of seventy-one operations is matched against the library's statement whole)
set_option maxHeartbeats 4000000 in
/-- The host program is the operations before the region, the region, and the four stretches after it: it reduces to
    the region continued by the later stretches. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1, StableHlo.seq hostOps1_1, StableHlo.seq hostOps1_2, StableHlo.seq hostOps1_3]) :=
  Pipeline.hmain_around cfgs 0 defs₀ 𝒱₀ m main [hostOps0] [hostOps1, hostOps1_1, hostOps1_2, hostOps1_3] (by simp only [List.Forall]; exact hostOps0_sub)
    (by simp only [List.Forall]; exact hostOps0_fresh) main_chain

/-- The later stretches touch unscoped references only: with nothing prefetched these are exactly the region's arrays
    and the buffers that bypass it. -/
theorem sfx_sub : ∀ ops ∈ ([hostOps1, hostOps1_1, hostOps1_2, hostOps1_3] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)

/-- They allocate nothing. -/
theorem sfx_fresh : ∀ ops ∈ ([hostOps1, hostOps1_1, hostOps1_2, hostOps1_3] : List (List (HloOp τ sig (Elt F)))), ∀ op ∈ ops, op.fresh = ∅ := by
  intro ops hops op hop
  simp only [List.mem_cons, List.mem_nil_iff, or_false] at hops
  rcases hops with rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop

/-! Each later operation writes its own result buffer only, and no result buffer is one of the region's five arrays
    (the features, the reshaped segment ids, the two bf16 weights, the per-half segment sums). -/
theorem hostOps1_keeps : (hostOps1 : List (HloOp τ sig (Elt F))).Forall fun op =>
    ∀ w, Proc.devRef .tc (Pipeline.arrRef spec0 w) ∉ op.writes := by
  simp only [hostOps1, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact fun w => StableHlo.devRef_ne_of_ne (by revert w; decide)
theorem hostOps1_1_keeps : (hostOps1_1 : List (HloOp τ sig (Elt F))).Forall fun op =>
    ∀ w, Proc.devRef .tc (Pipeline.arrRef spec0 w) ∉ op.writes := by
  simp only [hostOps1_1, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact fun w => StableHlo.devRef_ne_of_ne (by revert w; decide)
theorem hostOps1_2_keeps : (hostOps1_2 : List (HloOp τ sig (Elt F))).Forall fun op =>
    ∀ w, Proc.devRef .tc (Pipeline.arrRef spec0 w) ∉ op.writes := by
  simp only [hostOps1_2, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact fun w => StableHlo.devRef_ne_of_ne (by revert w; decide)
theorem hostOps1_3_keeps : (hostOps1_3 : List (HloOp τ sig (Elt F))).Forall fun op =>
    ∀ w, Proc.devRef .tc (Pipeline.arrRef spec0 w) ∉ op.writes := by
  simp only [hostOps1_3, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact fun w => StableHlo.devRef_ne_of_ne (by revert w; decide)

/-- So the later stretches write no array of the region. -/
theorem sfx_keeps : ∀ ops ∈ ([hostOps1, hostOps1_1, hostOps1_2, hostOps1_3] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl | rfl | rfl | rfl
  · exact (List.forall_iff_forall_mem.mp hostOps1_keeps) op hop
  · exact (List.forall_iff_forall_mem.mp hostOps1_1_keeps) op hop
  · exact (List.forall_iff_forall_mem.mp hostOps1_2_keeps) op hop
  · exact (List.forall_iff_forall_mem.mp hostOps1_3_keeps) op hop

/-! ## The six arguments are never written -/

/-- No operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No operation after the region writes `main_arg0`. -/
theorem tail_keeps_arg0 : ∀ op ∈ ([hostOps1, hostOps1_1, hostOps1_2, hostOps1_3] : List (List (HloOp τ sig (Elt F)))).flatten,
    Proc.devRef .tc main_arg0 ∉ op.writes :=
  List.forall_iff_forall_mem.mp (by
    simp only [hostOps1, hostOps1_1, hostOps1_2, hostOps1_3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))

/-- No operation after the region writes `main_arg1`. -/
theorem tail_keeps_arg1 : ∀ op ∈ ([hostOps1, hostOps1_1, hostOps1_2, hostOps1_3] : List (List (HloOp τ sig (Elt F)))).flatten,
    Proc.devRef .tc main_arg1 ∉ op.writes :=
  List.forall_iff_forall_mem.mp (by
    simp only [hostOps1, hostOps1_1, hostOps1_2, hostOps1_3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))

/-- No operation after the region writes `main_arg2`. -/
theorem tail_keeps_arg2 : ∀ op ∈ ([hostOps1, hostOps1_1, hostOps1_2, hostOps1_3] : List (List (HloOp τ sig (Elt F)))).flatten,
    Proc.devRef .tc main_arg2 ∉ op.writes :=
  List.forall_iff_forall_mem.mp (by
    simp only [hostOps1, hostOps1_1, hostOps1_2, hostOps1_3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))

/-- No operation after the region writes `main_arg3`. -/
theorem tail_keeps_arg3 : ∀ op ∈ ([hostOps1, hostOps1_1, hostOps1_2, hostOps1_3] : List (List (HloOp τ sig (Elt F)))).flatten,
    Proc.devRef .tc main_arg3 ∉ op.writes :=
  List.forall_iff_forall_mem.mp (by
    simp only [hostOps1, hostOps1_1, hostOps1_2, hostOps1_3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))

/-- No operation after the region writes `main_arg4`. -/
theorem tail_keeps_arg4 : ∀ op ∈ ([hostOps1, hostOps1_1, hostOps1_2, hostOps1_3] : List (List (HloOp τ sig (Elt F)))).flatten,
    Proc.devRef .tc main_arg4 ∉ op.writes :=
  List.forall_iff_forall_mem.mp (by
    simp only [hostOps1, hostOps1_1, hostOps1_2, hostOps1_3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))

/-- No operation after the region writes `main_arg5`. -/
theorem tail_keeps_arg5 : ∀ op ∈ ([hostOps1, hostOps1_1, hostOps1_2, hostOps1_3] : List (List (HloOp τ sig (Elt F)))).flatten,
    Proc.devRef .tc main_arg5 ∉ op.writes :=
  List.forall_iff_forall_mem.mp (by
    simp only [hostOps1, hostOps1_1, hostOps1_2, hostOps1_3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))

/-- `main_arg0` is the region's first array, an input: the region leaves it at its entry contents (for proof data whose
    array is the region-entry contents, `hA`), and no later operation writes it. -/
theorem W_main_arg0 (dats : (p : Fin _) → (c : Dev nD) → Dat τ (Elt F) Unit ℕ (UR sig nD τ) ℕ (cfgs p) c) (c : Dev nD)
    (hA : (dats 0 c).A 0 = V m c (Pipeline.arrRef spec0 0)) :
    Pipeline.afterTail₀ cfgs dats 0 (V0 m) [hostOps1, hostOps1_1, hostOps1_2, hostOps1_3] c main_arg0 = m ((c : Thread nD τ).loc main_arg0) := by
  unfold Pipeline.afterTail₀
  rw [StableHlo.after_of_forall_not_mem (b := Proc.devRef .tc main_arg0) _ _ (tail_keeps_arg0 (F := F))]
  exact (Pipeline.withArrays_arr spec0 launch0.win.arr_inj c _ _ 0).trans
    (((dats 0 c).arrAt_in 0 rfl _).trans (hA.trans (V_main_arg0 m c)))

/-- No operation after the region writes `main_arg1`, and it is no array of the pipeline: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1, hostOps1_1, hostOps1_2, hostOps1_3] c main_arg1 = m ((c : Thread nD τ).loc main_arg1) := by
  unfold Pipeline.afterTail₀
  rw [StableHlo.after_of_forall_not_mem (b := Proc.devRef .tc main_arg1) _ _ (tail_keeps_arg1 (F := F)),
    Pipeline.withArrays_of_ne _ c (V0 m c) _ main_arg1 (by exact (by decide : ∀ w, Pipeline.arrRef spec0 w ≠ main_arg1))]
  exact V_main_arg1 m c

/-- No operation after the region writes `main_arg2`, and it is no array of the pipeline: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1, hostOps1_1, hostOps1_2, hostOps1_3] c main_arg2 = m ((c : Thread nD τ).loc main_arg2) := by
  unfold Pipeline.afterTail₀
  rw [StableHlo.after_of_forall_not_mem (b := Proc.devRef .tc main_arg2) _ _ (tail_keeps_arg2 (F := F)),
    Pipeline.withArrays_of_ne _ c (V0 m c) _ main_arg2 (by exact (by decide : ∀ w, Pipeline.arrRef spec0 w ≠ main_arg2))]
  exact V_main_arg2 m c

/-- No operation after the region writes `main_arg3`, and it is no array of the pipeline: it ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1, hostOps1_1, hostOps1_2, hostOps1_3] c main_arg3 = m ((c : Thread nD τ).loc main_arg3) := by
  unfold Pipeline.afterTail₀
  rw [StableHlo.after_of_forall_not_mem (b := Proc.devRef .tc main_arg3) _ _ (tail_keeps_arg3 (F := F)),
    Pipeline.withArrays_of_ne _ c (V0 m c) _ main_arg3 (by exact (by decide : ∀ w, Pipeline.arrRef spec0 w ≠ main_arg3))]
  exact V_main_arg3 m c

/-- No operation after the region writes `main_arg4`, and it is no array of the pipeline: it ends as launched. -/
theorem W_main_arg4 (dats : (p : Fin _) → (c : Dev nD) → Dat τ (Elt F) Unit ℕ (UR sig nD τ) ℕ (cfgs p) c) (c : Dev nD) :
    Pipeline.afterTail₀ cfgs dats 0 (V0 m) [hostOps1, hostOps1_1, hostOps1_2, hostOps1_3] c main_arg4 = m ((c : Thread nD τ).loc main_arg4) := by
  unfold Pipeline.afterTail₀
  rw [StableHlo.after_of_forall_not_mem (b := Proc.devRef .tc main_arg4) _ _ (tail_keeps_arg4 (F := F)),
    Pipeline.withArrays_of_ne _ c (V0 m c) _ main_arg4 (by exact (by decide : ∀ w, Pipeline.arrRef spec0 w ≠ main_arg4))]
  exact V_main_arg4 m c

/-- No operation after the region writes `main_arg5`, and it is no array of the pipeline: it ends as launched. -/
theorem W_main_arg5 (dats : (p : Fin _) → (c : Dev nD) → Dat τ (Elt F) Unit ℕ (UR sig nD τ) ℕ (cfgs p) c) (c : Dev nD) :
    Pipeline.afterTail₀ cfgs dats 0 (V0 m) [hostOps1, hostOps1_1, hostOps1_2, hostOps1_3] c main_arg5 = m ((c : Thread nD τ).loc main_arg5) := by
  unfold Pipeline.afterTail₀
  rw [StableHlo.after_of_forall_not_mem (b := Proc.devRef .tc main_arg5) _ _ (tail_keeps_arg5 (F := F)),
    Pipeline.withArrays_of_ne _ c (V0 m c) _ main_arg5 (by exact (by decide : ∀ w, Pipeline.arrRef spec0 w ≠ main_arg5))]
  exact V_main_arg5 m c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for any proof data
    whose array is the region-entry contents and whose body leaves the block in place (unfetched, the index has not moved). -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not, for any proof data
    whose array is the region-entry contents and whose body leaves the block in place (unfetched, the index has not moved). -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not, for any proof data
    whose array is the region-entry contents and whose body leaves the block in place (unfetched, the index has not moved). -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not, for any proof data
    whose array is the region-entry contents and whose body leaves the block in place (unfetched, the index has not moved). -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- From a run whose final state has every array of the region at what the proof data compute and every other unscoped
    buffer as the later operations leave it: the six arguments end as launched. The features array is the region's first
    input, which the region hands back unchanged; the other five bypass the region and no operation writes them. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1, hostOps1_1, hostOps1_2, hostOps1_3]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).1 0).trans (((dats 0 c).arrAt_in 0 rfl _).trans ((hA c 0).trans (V_main_arg0 m c))),
     ((h c).2 main_arg1 (Pipeline.mem_restRefs_of main_arg1 (by decide) (by decide))).trans (W_main_arg1 m dats c),
     ((h c).2 main_arg2 (Pipeline.mem_restRefs_of main_arg2 (by decide) (by decide))).trans (W_main_arg2 m dats c),
     ((h c).2 main_arg3 (Pipeline.mem_restRefs_of main_arg3 (by decide) (by decide))).trans (W_main_arg3 m dats c),
     ((h c).2 main_arg4 (Pipeline.mem_restRefs_of main_arg4 (by decide) (by decide))).trans (W_main_arg4 m dats c),
     ((h c).2 main_arg5 (Pipeline.mem_restRefs_of main_arg5 (by decide) (by decide))).trans (W_main_arg5 m dats c)⟩) h

/-! ## The body's branch condition -/

/-- The body resets its output block when the second grid coordinate is zero. -/
abbrev cond0_0 (i : grid0.Coords) : Prop := (Scalar.cmpi .ne (Scalar.extui (Scalar.cmpi .eq (BitVec.ofNat 32 (i 1).val) 0#32)) 0#32) = 1#1
/-- That is at the points ≡ 0 (mod 128): the first point of each half of the grid. -/
theorem hcond0_0 : ∀ t : Fin cfg0.N, cond0_0 (grid0.coords t) ↔ t.val % 128 = 0 :=
  (by decide +kernel : ∀ t : Fin grid0.N, cond0_0 (grid0.coords t) ↔ t.val % 128 = 0)

/-! ## The staging memrefs the body is called with -/

/-- One staging buffer of the output window, through which its contents are stated (the choice does not matter). -/
abbrev VO0_4 : View sig .tc .vmem S1x128x256 .f32 := (Memref.whole cc0_stg4_0 : Memref sig .tc .vmem S1x128x256 .f32).view
/-- Each window's current staging memref at point `t`, and its wholeness. -/
abbrev ms0_0 (t : Fin cfg0.N) : Memref sig .tc .vmem S1024x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x1 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x512 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x256 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x128x256 .f32 := win0_4.stage (cfg0.slots t 4)
abbrev hs0_4 (t : Fin cfg0.N) : (ms0_4 t).IsWhole := hstage0_4 ((cfg0.slots t 4).cast nbuf0_4)

end Cert.KernelIdeal.Frm

end
-- ==== Proof.KIRunReset.lean ====
import proofs.«407833_j86303072845932_1_alg».proof.Proof.KIKit

-- membership in a rectangle of full extents: the elaborator's structural look recurses once per coordinate of the long axes
set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body at a point where the output block is reset

At a point whose second grid coordinate is zero the body first overwrites the whole output block with zeros, then
reads the four input blocks, computes the per-segment sums of this tile of rows, reads the output block back (now the
zeros), adds, and stores the whole block again. Whatever the block held on entry is never used. -/

-- (the run's proof term is large: the definition's epilogue walks it past the default budget)
set_option maxHeartbeats 1000000 in
/-- What the body's stores leave in the output's staging memref, as pieces (last first), in the reset case, with the
    proof that on whole staging memrefs — the four inputs' at their contents, the output's at anything — the body runs to
    the continuation holding the inputs' as they were and the output's buffer with those pieces written. The pieces are
    found by running the body: the zero store, then the store of the sum read back over it. -/
noncomputable def kernelRun0_A (c : Dev nD) (i : grid0.Coords) (arg2 : Memref sig .tc .vmem S1024x256 .f32) (harg2 : arg2.IsWhole) (arg3 : Memref sig .tc .vmem S1024x1 .i32) (harg3 : arg3.IsWhole) (arg4 : Memref sig .tc .vmem S256x512 .bf16) (harg4 : arg4.IsWhole) (arg5 : Memref sig .tc .vmem S512x256 .bf16) (harg5 : arg5.IsWhole) (arg6 : Memref sig .tc .vmem S1x128x256 .f32) (harg6 : arg6.IsWhole) (hc0 : cond0_0 i)
    (x0 : Vec F S1024x256 .f32) (x1 : Vec F S1024x1 .i32) (x2 : Vec F S256x512 .bf16) (x3 : Vec F S512x256 .bf16) :
    { L4 : List (View.Piece (Elt F) S1x128x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4)) -∗ K ⟨⟩))
          ⊢ wp frame (wpE (defs₀ (F := F)) Variants.none c none) E (cc0__phi_kernel i arg2 harg2 arg3 harg3 arg4 harg4 arg5 harg5 arg6 harg6) K } := by
  refine ⟨?_, fun E K => ?run⟩
  case run =>
    simp only [cc0__phi_kernel_eq_skeleton]; unfold cc0__phi_kernel_skel
    simp only [k0_part1_eq_skeleton]
    unfold owns
    iintro ⟨⟨%f0, %hf0, H0⟩, ⟨%f1, %hf1, H1⟩, ⟨%f2, %hf2, H2⟩, ⟨%f3, %hf3, H3⟩, ⟨%d4, %f4, -, H4⟩, Hk⟩
    obtain rfl := harg2.eq_unread hf0; obtain rfl := harg3.eq_unread hf1; obtain rfl := harg4.eq_unread hf2; obtain rfl := harg5.eq_unread hf3
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact H4

end Cert.KernelIdeal.Frm

end
-- ==== Proof.KIRunAcc.lean ====
import proofs.«407833_j86303072845932_1_alg».proof.Proof.KIKit

-- membership in a rectangle of full extents: the elaborator's structural look recurses once per coordinate of the long axes
set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body at a point where the output block is accumulated

At a point whose second grid coordinate is not zero the body reads the four input blocks, computes the per-segment sums
of this tile of rows, reads the output block — the running sum of the earlier tiles of this half —, adds, and stores the
whole block. -/

-- (the run's proof term is large: the definition's epilogue walks it past the default budget)
set_option maxHeartbeats 1000000 in
/-- What the body's store leaves in the output's staging memref, as pieces, in the accumulating case, with the proof
    that on whole staging memrefs — the four inputs' at their contents, the output's at its running contents `xo4` — the
    body runs to the continuation holding the inputs' as they were and the output's buffer with that piece written. -/
noncomputable def kernelRun0_B (c : Dev nD) (i : grid0.Coords) (arg2 : Memref sig .tc .vmem S1024x256 .f32) (harg2 : arg2.IsWhole) (arg3 : Memref sig .tc .vmem S1024x1 .i32) (harg3 : arg3.IsWhole) (arg4 : Memref sig .tc .vmem S256x512 .bf16) (harg4 : arg4.IsWhole) (arg5 : Memref sig .tc .vmem S512x256 .bf16) (harg5 : arg5.IsWhole) (arg6 : Memref sig .tc .vmem S1x128x256 .f32) (harg6 : arg6.IsWhole) (hc0 : ¬cond0_0 i)
    (x0 : Vec F S1024x256 .f32) (x1 : Vec F S1024x1 .i32) (x2 : Vec F S256x512 .bf16) (x3 : Vec F S512x256 .bf16) (xo4 : Vec F S1x128x256 .f32) :
    { L4 : List (View.Piece (Elt F) S1x128x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xo4
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4)) -∗ K ⟨⟩))
          ⊢ wp frame (wpE (defs₀ (F := F)) Variants.none c none) E (cc0__phi_kernel i arg2 harg2 arg3 harg3 arg4 harg4 arg5 harg5 arg6 harg6) K } := by
  refine ⟨?_, fun E K => ?run⟩
  case run =>
    simp only [cc0__phi_kernel_eq_skeleton]; unfold cc0__phi_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact H4

end Cert.KernelIdeal.Frm

end
-- ==== Proof.KIFrm.lean ====
import proofs.«407833_j86303072845932_1_alg».proof.Proof.KIRunReset
import proofs.«407833_j86303072845932_1_alg».proof.Proof.KIRunAcc

-- membership in a rectangle of full extents: the elaborator's structural look recurses once per coordinate of the long axes
set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves in the output block -/

/-- The reset case's pieces cover the output block (the zero store and the final store are each the whole block). -/
theorem cover0_A_4 (c : Dev nD) (i : grid0.Coords) (arg2 : Memref sig .tc .vmem S1024x256 .f32) (harg2 : arg2.IsWhole) (arg3 : Memref sig .tc .vmem S1024x1 .i32) (harg3 : arg3.IsWhole) (arg4 : Memref sig .tc .vmem S256x512 .bf16) (harg4 : arg4.IsWhole) (arg5 : Memref sig .tc .vmem S512x256 .bf16) (harg5 : arg5.IsWhole) (arg6 : Memref sig .tc .vmem S1x128x256 .f32) (harg6 : arg6.IsWhole) (hc0 : cond0_0 i)
    (x0 : Vec F S1024x256 .f32) (x1 : Vec F S1024x1 .i32) (x2 : Vec F S256x512 .bf16) (x3 : Vec F S512x256 .bf16) (y : S1x128x256.Idx) :
    ∃ pc ∈ (kernelRun0_A c i arg2 harg2 arg3 harg3 arg4 harg4 arg5 harg5 arg6 harg6 hc0 x0 x1 x2 x3).1, y ∈ pc.1.set :=
  View.cover_of_tiledL (kernelRun0_A c i arg2 harg2 arg3 harg3 arg4 harg4 arg5 harg5 arg6 harg6 hc0 x0 x1 x2 x3).1 S1x128x256.size (by sl_kernel_rfl) y

/-- What the reset case leaves in the output's staging buffer: its pieces read back over junk. -/
def out0_A_4 (c : Dev nD) (i : grid0.Coords) (arg2 : Memref sig .tc .vmem S1024x256 .f32) (harg2 : arg2.IsWhole) (arg3 : Memref sig .tc .vmem S1024x1 .i32) (harg3 : arg3.IsWhole) (arg4 : Memref sig .tc .vmem S256x512 .bf16) (harg4 : arg4.IsWhole) (arg5 : Memref sig .tc .vmem S512x256 .bf16) (harg5 : arg5.IsWhole) (arg6 : Memref sig .tc .vmem S1x128x256 .f32) (harg6 : arg6.IsWhole) (hc0 : cond0_0 i)
    (x0 : Vec F S1024x256 .f32) (x1 : Vec F S1024x1 .i32) (x2 : Vec F S256x512 .bf16) (x3 : Vec F S512x256 .bf16) : Vec F S1x128x256 .f32 :=
  VO0_4.read (Elt F) (VO0_4.writes (Elt F) VO0_4.junk (kernelRun0_A c i arg2 harg2 arg3 harg3 arg4 harg4 arg5 harg5 arg6 harg6 hc0 x0 x1 x2 x3).1)

/-- The accumulating case's piece covers the output block (one store of the whole block). -/
theorem cover0_B_4 (c : Dev nD) (i : grid0.Coords) (arg2 : Memref sig .tc .vmem S1024x256 .f32) (harg2 : arg2.IsWhole) (arg3 : Memref sig .tc .vmem S1024x1 .i32) (harg3 : arg3.IsWhole) (arg4 : Memref sig .tc .vmem S256x512 .bf16) (harg4 : arg4.IsWhole) (arg5 : Memref sig .tc .vmem S512x256 .bf16) (harg5 : arg5.IsWhole) (arg6 : Memref sig .tc .vmem S1x128x256 .f32) (harg6 : arg6.IsWhole) (hc0 : ¬cond0_0 i)
    (x0 : Vec F S1024x256 .f32) (x1 : Vec F S1024x1 .i32) (x2 : Vec F S256x512 .bf16) (x3 : Vec F S512x256 .bf16) (xo4 : Vec F S1x128x256 .f32) (y : S1x128x256.Idx) :
    ∃ pc ∈ (kernelRun0_B c i arg2 harg2 arg3 harg3 arg4 harg4 arg5 harg5 arg6 harg6 hc0 x0 x1 x2 x3 xo4).1, y ∈ pc.1.set :=
  View.cover_of_tiledL (kernelRun0_B c i arg2 harg2 arg3 harg3 arg4 harg4 arg5 harg5 arg6 harg6 hc0 x0 x1 x2 x3 xo4).1 S1x128x256.size (by sl_kernel_rfl) y

/-- What the accumulating case leaves in the output's staging buffer: its piece read back over junk. -/
def out0_B_4 (c : Dev nD) (i : grid0.Coords) (arg2 : Memref sig .tc .vmem S1024x256 .f32) (harg2 : arg2.IsWhole) (arg3 : Memref sig .tc .vmem S1024x1 .i32) (harg3 : arg3.IsWhole) (arg4 : Memref sig .tc .vmem S256x512 .bf16) (harg4 : arg4.IsWhole) (arg5 : Memref sig .tc .vmem S512x256 .bf16) (harg5 : arg5.IsWhole) (arg6 : Memref sig .tc .vmem S1x128x256 .f32) (harg6 : arg6.IsWhole) (hc0 : ¬cond0_0 i)
    (x0 : Vec F S1024x256 .f32) (x1 : Vec F S1024x1 .i32) (x2 : Vec F S256x512 .bf16) (x3 : Vec F S512x256 .bf16) (xo4 : Vec F S1x128x256 .f32) : Vec F S1x128x256 .f32 :=
  VO0_4.read (Elt F) (VO0_4.writes (Elt F) VO0_4.junk (kernelRun0_B c i arg2 harg2 arg3 harg3 arg4 harg4 arg5 harg5 arg6 harg6 hc0 x0 x1 x2 x3 xo4).1)

/-! ## What the output block holds after each point -/

/-- THE ACCUMULATION. What the output's staging buffer holds after the body at position `n`: at the first point of a
    half of the grid (`n % 128 = 0`) the reset case, run at the point's input blocks; at every other point the
    accumulating case over what this leaves at `n - 1` (the buffer is not written back between the two). -/
def outsAt0 (c : Dev nD) : (n : ℕ) → n < cfg0.N → Vec F S1x128x256 .f32
  | 0, hn => out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) ((hcond0_0 ⟨0, hn⟩).mpr (Nat.zero_mod _)) (iblk m c 0 ⟨0, hn⟩) (iblk m c 1 ⟨0, hn⟩) (iblk m c 2 ⟨0, hn⟩) (iblk m c 3 ⟨0, hn⟩)
  | n + 1, hn =>
    if h0 : (n + 1) % 128 = 0 then
      out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩)
    else
      out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (outsAt0 c n (Nat.lt_of_succ_lt hn))

/-- `outsAt0` at a point of the reset case: that case's contents. -/
theorem outsAt0_A (c : Dev nD) (t : Fin cfg0.N) (h0 : t.val % 128 = 0) :
    outsAt0 m c t.val t.isLt = out0_A_4 c (grid0.coords t) (ms0_0 t) (hs0_0 t) (ms0_1 t) (hs0_1 t) (ms0_2 t) (hs0_2 t) (ms0_3 t) (hs0_3 t) (ms0_4 t) (hs0_4 t) ((hcond0_0 t).mpr h0) (iblk m c 0 t) (iblk m c 1 t) (iblk m c 2 t) (iblk m c 3 t) := by
  obtain ⟨n, hn⟩ := t
  cases n with
  | zero => exact rfl
  | succ n => exact (dif_pos h0).trans rfl

/-- `outsAt0` at a point of the accumulating case: that case's contents, over what the point before left. -/
theorem outsAt0_B (c : Dev nD) (t : Fin cfg0.N) (h0 : ¬t.val % 128 = 0) :
    outsAt0 m c t.val t.isLt = out0_B_4 c (grid0.coords t) (ms0_0 t) (hs0_0 t) (ms0_1 t) (hs0_1 t) (ms0_2 t) (hs0_2 t) (ms0_3 t) (hs0_3 t) (ms0_4 t) (hs0_4 t) (fun h => h0 ((hcond0_0 t).mp h)) (iblk m c 0 t) (iblk m c 1 t) (iblk m c 2 t) (iblk m c 3 t) (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans rfl

/-! ## The pipeline's proof data -/

/-- The proof data of the one pipeline on core `c`: the arrays as the region finds them; after the body at point `t`
    each input's buffer at its block and the output's at `outsAt0`; the invariant the scoped rest and the generator
    register; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (outsAt0 m c t.val t.isLt)
  Φ _ := Pipeline.ΦA spec0 c
  q _ := fullShare
  owed _ := 0

/-- The proof data's arrays are the region-entry contents (the definition projected, so that the fold over the host
    operations before the region is never unfolded to check it). -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = (outsAt0 m c t.val t.isLt) := by dsimp only [dats]

/-- Each input's current staging buffer holds its block at every point, fetched there or not (the two weights are
    fetched at the first point only and stay in place). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-- At a point of the accumulating case the output's current staging buffer holds what the body left at the point
    before: the point is not the first, and the buffer is written back only after the last point of a half
    (`t % 128 = 127`), which the point before an accumulating point never is. -/
theorem before0_4_B (c : Dev nD) (t : Fin cfg0.N) (h0 : ¬t.val % 128 = 0) (d) :
    (dats m 0 c).before 4 t d = (outsAt0 m c (t.val - 1) (Nat.lt_of_le_of_lt (Nat.sub_le _ _) t.isLt)) := by
  have hN : t.val < 256 := lt_of_lt_of_eq t.isLt (show cfg0.N = 256 from N_0)
  rw [Dat.before_out_kept _ 4 rfl t (by omega) (Bool.eq_false_iff.mpr fun h => by have := (flush0_4 _).mp h; dsimp only at this; omega)
    (fun _ => rfl) (fun _ _ => rfl)]
  dsimp only [dats]

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t))

set_option maxHeartbeats 1600000 in
/-- The body at any point: the inputs' memrefs hold their blocks; the closed form of the condition says which case the
    point is in; in the accumulating case the output's memref holds what the point before left; so that case's run
    applies; the invariant passes through unread; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4]
  have hN : t.val < 256 := lt_of_lt_of_eq t.isLt (show cfg0.N = 256 from N_0)
  by_cases h0 : t.val % 128 = 0
  · rw [outsAt0_A m c t h0]
    unfold out0_A_4
    iintro ⟨HΦ, Ho, ⟨%d0, H0⟩, ⟨%d1, H1⟩, ⟨%d2, H2⟩, ⟨%d3, H3⟩, ⟨%d4, H4⟩⟩
    iapply ((kernelRun0_A c (grid0.coords t) _ _ _ _ _ _ _ _ _ _ ((hcond0_0 t).mpr h0) (iblk m c 0 t) (iblk m c 1 t) (iblk m c 2 t) (iblk m c 3 t)).2 Set.univ _)
    isplitl [H0]; · iexact H0
    isplitl [H1]; · iexact H1
    isplitl [H2]; · iexact H2
    isplitl [H3]; · iexact H3
    isplitl [H4]; · iexists _; iexact H4
    iintro ⟨H0, H1, H2, H3, ⟨%e4, H4⟩⟩
    isplitl [HΦ]; · iexact HΦ
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover0_A_4 c _ _ _ _ _ _ _ _ _ _ _ _ _ _ _ _)
  · rw [outsAt0_B m c t h0]
    simp only [before0_4_B m c t h0]
    unfold out0_B_4
    iintro ⟨HΦ, Ho, ⟨%d0, H0⟩, ⟨%d1, H1⟩, ⟨%d2, H2⟩, ⟨%d3, H3⟩, ⟨%d4, H4⟩⟩
    iapply ((kernelRun0_B c (grid0.coords t) _ _ _ _ _ _ _ _ _ _ (fun h => h0 ((hcond0_0 t).mp h)) (iblk m c 0 t) (iblk m c 1 t) (iblk m c 2 t) (iblk m c 3 t) _).2 Set.univ _)
    isplitl [H0]; · iexact H0
    isplitl [H1]; · iexact H1
    isplitl [H2]; · iexact H2
    isplitl [H3]; · iexact H3
    isplitl [H4]; · iexact H4
    iintro ⟨H0, H1, H2, H3, ⟨%e4, H4⟩⟩
    isplitl [HΦ]; · iexact HΦ
    isplitl [Ho]; · iexact Ho
    isplitl [H0]; · iexact H0
    isplitl [H1]; · iexact H1
    isplitl [H2]; · iexact H2
    isplitl [H3]; · iexact H3
    unfold owns; iexists _; isplitr
    swap; · iexact H4
    ipureintro; exact View.read_writes_of_cover _ _ _ _ _ (cover0_B_4 c _ _ _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

-- the launch theorem's implicit arguments are found by unifying its conclusion with this one, which takes unfolding plain
-- definitions in a metavariable's type
set_option backward.isDefEq.respectTransparency.types false in
set_option maxHeartbeats 4000000 in
/-- At the compiled mesh, for any values, from any memory with zero counters: every weakly fair execution of the host
    program terminates, and every final state has every array of the pipeline at what the library computes from the proof
    data and every other unscoped buffer as the operations after the region leave it. -/
theorem run_main : θ_run defs (onTc (τ := τ) (main (F := F))) (s₀ m ρ) (Pipeline.FramePost cfgs (dats m) 0 (Pipeline.afterTail₀ cfgs (dats m) 0 (V0 m) [hostOps1, hostOps1_1, hostOps1_2, hostOps1_3])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1, hostOps1_1, hostOps1_2, hostOps1_3]) (hsub := sfx_sub) (hfresh := sfx_fresh) (hkeep := sfx_keeps)
    (hmain := hmain m Variants.none) (hA := A_eq m) (hΦ := fun _ _ => rfl)

/-- info: 'Cert.KernelIdeal.Frm.run_main' depends on axioms: [propext, Classical.choice, Quot.sound] -/
#guard_msgs in #print axioms run_main

/-- THE FRAME: the host program runs, and its six argument arrays end unchanged, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

end Cert.KernelIdeal.Frm

end
-- ==== Proof.Stages.lean ====
/-
  One normalisation-and-rectifier stretch of host operations over an [N, D] table, whatever N and D, as both
  programs spell it: the row sums (a reduce along axis 1 from the zero word, re-expanded to [N, 1]), the
  quotient by the row length's word, the centred table, its squares' row sums and their quotient, the constant
  added, the reciprocal root, the product, and the rectifier (compare against the zero table, the slope table
  times the value, the select). The reference runs this stretch four times and the kernel's host program twice,
  each with its own shape facts; stating it once lets the two programs' pooled parts be compared as one function.
-/
import Idealize.ShloMosaic.PureOps

noncomputable section

namespace Cert.Stage

open Idealize.ShloMosaic

variable {F : FTy → Type} [FloatOps F]

/-- The shapes of one stretch over an [N, D] table. -/
abbrev T2 (N D : Nat) : Shape := ⟨2, ![N, D]⟩
abbrev T1 (N : Nat) : Shape := ⟨1, ![N]⟩
abbrev T0 : Shape := ⟨0, ![]⟩

/-- The stretch over the table `h`; `lenW` is the word of the row length D, the other arguments the shape
    facts its operations cite. -/
def normLeaky (N D : Nat) (lenW : BitVec 32)
    (hred : (T2 N D).ReducesTo [1] (T1 N)) (h0 : 0 < T0.numel)
    (hcol : (T1 N).BroadcastsInDim (T2 N 1) (![0] : Fin 1 → Fin (T2 N 1).rank))
    (hsc : T0.BroadcastsInDim (T2 N 1) (![] : Fin 0 → Fin (T2 N 1).rank))
    (hrow : (T2 N 1).BroadcastsInDim (T2 N D) (![0, 1] : Fin 2 → Fin (T2 N D).rank))
    (hsd : T0.BroadcastsInDim (T2 N D) (![] : Fin 0 → Fin (T2 N D).rank))
    (h : FVec F (T2 N D) .f32) : FVec F (T2 N D) .f32 :=
  let mean : FVec F (T2 N 1) .f32 :=
    Host.divf (broadcastInDim (T2 N 1) ![0] hcol (Host.reduceAdd h (constant T0 .f32 0x00000000#32) hred h0))
      (broadcastInDim (T2 N 1) ![] hsc (constant T0 .f32 lenW))
  let cen : FVec F (T2 N D) .f32 := subf h (broadcastInDim (T2 N D) ![0, 1] hrow mean)
  let var : FVec F (T2 N 1) .f32 :=
    Host.divf (broadcastInDim (T2 N 1) ![0] hcol (Host.reduceAdd (mulf cen cen) (constant T0 .f32 0x00000000#32) hred h0))
      (broadcastInDim (T2 N 1) ![] hsc (constant T0 .f32 lenW))
  let y : FVec F (T2 N D) .f32 :=
    mulf (subf h (broadcastInDim (T2 N D) ![0, 1] hrow mean))
      (broadcastInDim (T2 N D) ![0, 1] hrow
        (Host.rsqrt (addf var (broadcastInDim (T2 N 1) ![] hsc (constant T0 .f32 0x3727C5AC#32)))))
  select (cmpf .oge y (broadcastInDim (T2 N D) ![] hsd (constant T0 .f32 0x00000000#32)))
    y (mulf (broadcastInDim (T2 N D) ![] hsd (id (constant T0 .f32 0x3C23D70A#32))) y)

end Cert.Stage

end
-- ==== Proof.RefTerm.lean ====
/-
  The reference program's result as a composition of a few stage functions, each the host operations of one
  stretch of its text composed in order (a value read more than once is named once by a `let`).

  `Cert.Stage.normLeaky` is one normalisation-and-rectifier stretch over an [N, D] table (row means and
  variances, the reciprocal root, the rectifier). The program runs that stretch four times, on [262144, 512], [262144, 256], [128, 512] and [128, 128].
  `phiR` is the per-row part (two dense layers, each followed by such a stretch), `poolR` the accumulating
  scatter of the rows into the zero [128, 256] table by the segment ids, `rhoR` the same two layers on the
  pooled table, `refOut` the whole.
-/
import proofs.«407833_j86303072845932_1_alg».proof.Proof.Gen.ReferenceIdeal
import proofs.«407833_j86303072845932_1_alg».proof.Proof.Stages

noncomputable section

namespace Cert.ReferenceIdeal.Hand

open Idealize.ShloMosaic Cert.ReferenceIdeal Cert.ReferenceIdeal.Gen Cert.Stage

variable {F : FTy → Type} [FloatOps F]

/-- The stretch on the first layer's [262144, 512] table, -/
abbrev normLeakyA (h : FVec F S262144x512 .f32) : FVec F S262144x512 .f32 :=
  normLeaky 262144 512 0x44000000#32 reducesTo_S262144x512_S262144_d1 h_S_ bcast_S262144_S262144x1_0 bcast_S_S262144x1
    bcast_S262144x1_S262144x512_0_1 bcast_S_S262144x512 h
/-- on the second layer's [262144, 256] table, -/
abbrev normLeakyB (h : FVec F S262144x256 .f32) : FVec F S262144x256 .f32 :=
  normLeaky 262144 256 0x43800000#32 reducesTo_S262144x256_S262144_d1 h_S_ bcast_S262144_S262144x1_0 bcast_S_S262144x1
    bcast_S262144x1_S262144x256_0_1 bcast_S_S262144x256 h
/-- on the pooled first layer's [128, 512] table, -/
abbrev normLeakyC (h : FVec F S128x512 .f32) : FVec F S128x512 .f32 :=
  normLeaky 128 512 0x44000000#32 reducesTo_S128x512_S128_d1 h_S_ bcast_S128_S128x1_0 bcast_S_S128x1
    bcast_S128x1_S128x512_0_1 bcast_S_S128x512 h
/-- and on the pooled second layer's [128, 128] table. -/
abbrev normLeakyD (h : FVec F S128x128 .f32) : FVec F S128x128 .f32 :=
  normLeaky 128 128 0x43000000#32 reducesTo_S128x128_S128_d1 h_S_ bcast_S128_S128x1_0 bcast_S_S128x1
    bcast_S128x1_S128x128_0_1 bcast_S_S128x128 h

/-- The per-row part: features [262144, 256] through the first layer (weights [512, 256], transposed), the
    stretch, the second layer (weights [256, 512], transposed), the stretch. -/
def phiR (x : FVec F S262144x256 .f32) (w1 : FVec F S512x256 .f32) (w2 : FVec F S256x512 .f32) : FVec F S262144x256 .f32 :=
  normLeakyB (Host.dotGeneral dot_S262144x512_S512x256_S262144x256_1_0_0_1_n_n none
    (normLeakyA (Host.dotGeneral dot_S262144x256_S256x512_S262144x512_1_0_0_1_n_n none x
      (transpose S256x512 [1, 0] w1 transposes_S512x256_S256x512_1_0)))
    (transpose S512x256 [1, 0] w2 transposes_S256x512_S512x256_1_0))

/-- The pooling: the rows scattered, adding, into the zero [128, 256] table at the row their segment id names. -/
def poolR (phis : FVec F S262144x256 .f32) (ids : IVec S262144 32) : FVec F S128x256 .f32 :=
  Host.scatterAdd scatter_S128x256_S262144x1_S262144x256_1_0_0_1
    (broadcastInDim S128x256 ![] bcast_S_S128x256 (constant S_ .f32 0x00000000#32))
    (broadcastInDim S262144x1 ![0] bcast_S262144_S262144x1_0 ids) phis

/-- The pooled part: the [128, 256] table through a layer of weights [512, 256], the stretch, a layer of weights
    [128, 512], the stretch. -/
def rhoR (s : FVec F S128x256 .f32) (w3 : FVec F S512x256 .f32) (w4 : FVec F S128x512 .f32) : FVec F S128x128 .f32 :=
  normLeakyD (Host.dotGeneral dot_S128x512_S512x128_S128x128_1_0_0_1_n_n none
    (normLeakyC (Host.dotGeneral dot_S128x256_S256x512_S128x512_1_0_0_1_n_n none s
      (transpose S256x512 [1, 0] w3 transposes_S512x256_S256x512_1_0)))
    (transpose S512x128 [1, 0] w4 transposes_S128x512_S512x128_1_0))

/-- The reference's result of its six arguments. -/
def refOut (x : FVec F S262144x256 .f32) (w1 : FVec F S512x256 .f32) (w2 : FVec F S256x512 .f32)
    (w3 : FVec F S512x256 .f32) (w4 : FVec F S128x512 .f32) (ids : IVec S262144 32) : FVec F S128x128 .f32 :=
  rhoR (poolR (phiR x w1 w2) ids) w3 w4

end Cert.ReferenceIdeal.Hand

end
-- ==== Proof.RefRun.lean ====
/-
  The reference program's run, read back stage by stage.

  The program is a straight line of host operations once the four calls of the rectifier (each six operations and
  one select) are written at their call sites over the call's own buffers. The line is cut where the text's
  stretches end: a dense layer (the weights' transpose, the product), a normalisation-and-rectifier stretch, and so
  on, with the accumulating scatter in the middle. Each stretch reads the table before it three or four times, so
  the line is never composed into one term: each stage is read back over an ARBITRARY valuation of the buffers as
  one function of the buffers it reads, each stage leaves the buffers it does not write as they were, and the nine
  facts are chained.
-/
import proofs.«407833_j86303072845932_1_alg».proof.Proof.RefTerm
import Idealize.ShloMosaic.Lib.StableHlo.Run
import Idealize.ShloMosaic.Lib.Pipeline.Frame

set_option maxRecDepth 16384

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The program's 136 host operations, in order, each call's seven at its call site. -/
abbrev ops : List (HloOp τ sig (Elt F)) :=
  [ StableHlo.unary main_arg1 main_v0 ((transpose S256x512 [1, 0] · transposes_S512x256_S256x512_1_0) : (⟨S512x256, .f32⟩ : BufTy).Contents (Elt F) → (⟨S256x512, .f32⟩ : BufTy).Contents (Elt F)),
    StableHlo.binary main_arg0 main_v0 main_v1 ((fun l r => Host.dotGeneral dot_S262144x256_S256x512_S262144x512_1_0_0_1_n_n none l r) : (⟨S262144x256, .f32⟩ : BufTy).Contents (Elt F) → (⟨S256x512, .f32⟩ : BufTy).Contents (Elt F) → (⟨S262144x512, .f32⟩ : BufTy).Contents (Elt F)),
    StableHlo.nullary main_cst (constant S_ .f32 0x00000000#32),
    StableHlo.binary main_v1 main_cst main_v2 ((fun x v => Host.reduceAdd x v reducesTo_S262144x512_S262144_d1 h_S_) : (⟨S262144x512, .f32⟩ : BufTy).Contents (Elt F) → (⟨S_, .f32⟩ : BufTy).Contents (Elt F) → (⟨S262144, .f32⟩ : BufTy).Contents (Elt F)),
    StableHlo.unary main_v2 main_v3 (broadcastInDim S262144x1 ![0] bcast_S262144_S262144x1_0 : (⟨S262144, .f32⟩ : BufTy).Contents (Elt F) → (⟨S262144x1, .f32⟩ : BufTy).Contents (Elt F)),
    StableHlo.nullary main_cst_0 (constant S_ .f32 0x44000000#32),
    StableHlo.unary main_cst_0 main_v4 (broadcastInDim S262144x1 ![] bcast_S_S262144x1 : (⟨S_, .f32⟩ : BufTy).Contents (Elt F) → (⟨S262144x1, .f32⟩ : BufTy).Contents (Elt F)),
    StableHlo.binary main_v3 main_v4 main_v5 (Host.divf : (⟨S262144x1, .f32⟩ : BufTy).Contents (Elt F) → (⟨S262144x1, .f32⟩ : BufTy).Contents (Elt F) → (⟨S262144x1, .f32⟩ : BufTy).Contents (Elt F)),
    StableHlo.unary main_v5 main_v6 (broadcastInDim S262144x512 ![0, 1] bcast_S262144x1_S262144x512_0_1 : (⟨S262144x1, .f32⟩ : BufTy).Contents (Elt F) → (⟨S262144x512, .f32⟩ : BufTy).Contents (Elt F)),
    StableHlo.binary main_v1 main_v6 main_v7 (subf : (⟨S262144x512, .f32⟩ : BufTy).Contents (Elt F) → (⟨S262144x512, .f32⟩ : BufTy).Contents (Elt F) → (⟨S262144x512, .f32⟩ : BufTy).Contents (Elt F)),
    StableHlo.binary main_v7 main_v7 main_v8 (mulf : (⟨S262144x512, .f32⟩ : BufTy).Contents (Elt F) → (⟨S262144x512, .f32⟩ : BufTy).Contents (Elt F) → (⟨S262144x512, .f32⟩ : BufTy).Contents (Elt F)),
    StableHlo.nullary main_cst_1 (constant S_ .f32 0x00000000#32),
    StableHlo.binary main_v8 main_cst_1 main_v9 ((fun x v => Host.reduceAdd x v reducesTo_S262144x512_S262144_d1 h_S_) : (⟨S262144x512, .f32⟩ : BufTy).Contents (Elt F) → (⟨S_, .f32⟩ : BufTy).Contents (Elt F) → (⟨S262144, .f32⟩ : BufTy).Contents (Elt F)),
    StableHlo.unary main_v9 main_v10 (broadcastInDim S262144x1 ![0] bcast_S262144_S262144x1_0 : (⟨S262144, .f32⟩ : BufTy).Contents (Elt F) → (⟨S262144x1, .f32⟩ : BufTy).Contents (Elt F)),
    StableHlo.nullary main_cst_2 (constant S_ .f32 0x44000000#32),
    StableHlo.unary main_cst_2 main_v11 (broadcastInDim S262144x1 ![] bcast_S_S262144x1 : (⟨S_, .f32⟩ : BufTy).Contents (Elt F) → (⟨S262144x1, .f32⟩ : BufTy).Contents (Elt F)),
    StableHlo.binary main_v10 main_v11 main_v12 (Host.divf : (⟨S262144x1, .f32⟩ : BufTy).Contents (Elt F) → (⟨S262144x1, .f32⟩ : BufTy).Contents (Elt F) → (⟨S262144x1, .f32⟩ : BufTy).Contents (Elt F)),
    StableHlo.unary main_v5 main_v13 (broadcastInDim S262144x512 ![0, 1] bcast_S262144x1_S262144x512_0_1 : (⟨S262144x1, .f32⟩ : BufTy).Contents (Elt F) → (⟨S262144x512, .f32⟩ : BufTy).Contents (Elt F)),
    StableHlo.binary main_v1 main_v13 main_v14 (subf : (⟨S262144x512, .f32⟩ : BufTy).Contents (Elt F) → (⟨S262144x512, .f32⟩ : BufTy).Contents (Elt F) → (⟨S262144x512, .f32⟩ : BufTy).Contents (Elt F)),
    StableHlo.nullary main_cst_3 (constant S_ .f32 0x3727C5AC#32),
    StableHlo.unary main_cst_3 main_v15 (broadcastInDim S262144x1 ![] bcast_S_S262144x1 : (⟨S_, .f32⟩ : BufTy).Contents (Elt F) → (⟨S262144x1, .f32⟩ : BufTy).Contents (Elt F)),
    StableHlo.binary main_v12 main_v15 main_v16 (addf : (⟨S262144x1, .f32⟩ : BufTy).Contents (Elt F) → (⟨S262144x1, .f32⟩ : BufTy).Contents (Elt F) → (⟨S262144x1, .f32⟩ : BufTy).Contents (Elt F)),
    StableHlo.unary main_v16 main_v17 (Host.rsqrt : (⟨S262144x1, .f32⟩ : BufTy).Contents (Elt F) → (⟨S262144x1, .f32⟩ : BufTy).Contents (Elt F)),
    StableHlo.unary main_v17 main_v18 (broadcastInDim S262144x512 ![0, 1] bcast_S262144x1_S262144x512_0_1 : (⟨S262144x1, .f32⟩ : BufTy).Contents (Elt F) → (⟨S262144x512, .f32⟩ : BufTy).Contents (Elt F)),
    StableHlo.binary main_v14 main_v18 main_v19 (mulf : (⟨S262144x512, .f32⟩ : BufTy).Contents (Elt F) → (⟨S262144x512, .f32⟩ : BufTy).Contents (Elt F) → (⟨S262144x512, .f32⟩ : BufTy).Contents (Elt F)),
    StableHlo.nullary main_cst_4 (constant S_ .f32 0x3C23D70A#32),
    StableHlo.TRef.nullary main_call0.cst (constant S_ .f32 0x00000000#32),
    StableHlo.TRef.unary main_call0.cst main_call0.v0 (broadcastInDim S262144x512 ![] bcast_S_S262144x512),
    StableHlo.TRef.binary (.of main_v19 : StableHlo.TRef sig ⟨S262144x512, .f32⟩) main_call0.v0 main_call0.v1 (cmpf .oge),
    StableHlo.TRef.unary (.of main_cst_4 : StableHlo.TRef sig ⟨S_, .f32⟩) main_call0.v2 id,
    StableHlo.TRef.unary main_call0.v2 main_call0.v3 (broadcastInDim S262144x512 ![] bcast_S_S262144x512),
    StableHlo.TRef.binary main_call0.v3 (.of main_v19 : StableHlo.TRef sig ⟨S262144x512, .f32⟩) main_call0.v4 mulf,
    StableHlo.TRef.ternary main_call0.v1 (.of main_v19 : StableHlo.TRef sig ⟨S262144x512, .f32⟩) main_call0.v4 main_call0.call0.v0 select,
    StableHlo.unary main_arg2 main_v21 ((transpose S512x256 [1, 0] · transposes_S256x512_S512x256_1_0) : (⟨S256x512, .f32⟩ : BufTy).Contents (Elt F) → (⟨S512x256, .f32⟩ : BufTy).Contents (Elt F)),
    StableHlo.binary main_v20 main_v21 main_v22 ((fun l r => Host.dotGeneral dot_S262144x512_S512x256_S262144x256_1_0_0_1_n_n none l r) : (⟨S262144x512, .f32⟩ : BufTy).Contents (Elt F) → (⟨S512x256, .f32⟩ : BufTy).Contents (Elt F) → (⟨S262144x256, .f32⟩ : BufTy).Contents (Elt F)),
    StableHlo.nullary main_cst_5 (constant S_ .f32 0x00000000#32),
    StableHlo.binary main_v22 main_cst_5 main_v23 ((fun x v => Host.reduceAdd x v reducesTo_S262144x256_S262144_d1 h_S_) : (⟨S262144x256, .f32⟩ : BufTy).Contents (Elt F) → (⟨S_, .f32⟩ : BufTy).Contents (Elt F) → (⟨S262144, .f32⟩ : BufTy).Contents (Elt F)),
    StableHlo.unary main_v23 main_v24 (broadcastInDim S262144x1 ![0] bcast_S262144_S262144x1_0 : (⟨S262144, .f32⟩ : BufTy).Contents (Elt F) → (⟨S262144x1, .f32⟩ : BufTy).Contents (Elt F)),
    StableHlo.nullary main_cst_6 (constant S_ .f32 0x43800000#32),
    StableHlo.unary main_cst_6 main_v25 (broadcastInDim S262144x1 ![] bcast_S_S262144x1 : (⟨S_, .f32⟩ : BufTy).Contents (Elt F) → (⟨S262144x1, .f32⟩ : BufTy).Contents (Elt F)),
    StableHlo.binary main_v24 main_v25 main_v26 (Host.divf : (⟨S262144x1, .f32⟩ : BufTy).Contents (Elt F) → (⟨S262144x1, .f32⟩ : BufTy).Contents (Elt F) → (⟨S262144x1, .f32⟩ : BufTy).Contents (Elt F)),
    StableHlo.unary main_v26 main_v27 (broadcastInDim S262144x256 ![0, 1] bcast_S262144x1_S262144x256_0_1 : (⟨S262144x1, .f32⟩ : BufTy).Contents (Elt F) → (⟨S262144x256, .f32⟩ : BufTy).Contents (Elt F)),
    StableHlo.binary main_v22 main_v27 main_v28 (subf : (⟨S262144x256, .f32⟩ : BufTy).Contents (Elt F) → (⟨S262144x256, .f32⟩ : BufTy).Contents (Elt F) → (⟨S262144x256, .f32⟩ : BufTy).Contents (Elt F)),
    StableHlo.binary main_v28 main_v28 main_v29 (mulf : (⟨S262144x256, .f32⟩ : BufTy).Contents (Elt F) → (⟨S262144x256, .f32⟩ : BufTy).Contents (Elt F) → (⟨S262144x256, .f32⟩ : BufTy).Contents (Elt F)),
    StableHlo.nullary main_cst_7 (constant S_ .f32 0x00000000#32),
    StableHlo.binary main_v29 main_cst_7 main_v30 ((fun x v => Host.reduceAdd x v reducesTo_S262144x256_S262144_d1 h_S_) : (⟨S262144x256, .f32⟩ : BufTy).Contents (Elt F) → (⟨S_, .f32⟩ : BufTy).Contents (Elt F) → (⟨S262144, .f32⟩ : BufTy).Contents (Elt F)),
    StableHlo.unary main_v30 main_v31 (broadcastInDim S262144x1 ![0] bcast_S262144_S262144x1_0 : (⟨S262144, .f32⟩ : BufTy).Contents (Elt F) → (⟨S262144x1, .f32⟩ : BufTy).Contents (Elt F)),
    StableHlo.nullary main_cst_8 (constant S_ .f32 0x43800000#32),
    StableHlo.unary main_cst_8 main_v32 (broadcastInDim S262144x1 ![] bcast_S_S262144x1 : (⟨S_, .f32⟩ : BufTy).Contents (Elt F) → (⟨S262144x1, .f32⟩ : BufTy).Contents (Elt F)),
    StableHlo.binary main_v31 main_v32 main_v33 (Host.divf : (⟨S262144x1, .f32⟩ : BufTy).Contents (Elt F) → (⟨S262144x1, .f32⟩ : BufTy).Contents (Elt F) → (⟨S262144x1, .f32⟩ : BufTy).Contents (Elt F)),
    StableHlo.unary main_v26 main_v34 (broadcastInDim S262144x256 ![0, 1] bcast_S262144x1_S262144x256_0_1 : (⟨S262144x1, .f32⟩ : BufTy).Contents (Elt F) → (⟨S262144x256, .f32⟩ : BufTy).Contents (Elt F)),
    StableHlo.binary main_v22 main_v34 main_v35 (subf : (⟨S262144x256, .f32⟩ : BufTy).Contents (Elt F) → (⟨S262144x256, .f32⟩ : BufTy).Contents (Elt F) → (⟨S262144x256, .f32⟩ : BufTy).Contents (Elt F)),
    StableHlo.nullary main_cst_9 (constant S_ .f32 0x3727C5AC#32),
    StableHlo.unary main_cst_9 main_v36 (broadcastInDim S262144x1 ![] bcast_S_S262144x1 : (⟨S_, .f32⟩ : BufTy).Contents (Elt F) → (⟨S262144x1, .f32⟩ : BufTy).Contents (Elt F)),
    StableHlo.binary main_v33 main_v36 main_v37 (addf : (⟨S262144x1, .f32⟩ : BufTy).Contents (Elt F) → (⟨S262144x1, .f32⟩ : BufTy).Contents (Elt F) → (⟨S262144x1, .f32⟩ : BufTy).Contents (Elt F)),
    StableHlo.unary main_v37 main_v38 (Host.rsqrt : (⟨S262144x1, .f32⟩ : BufTy).Contents (Elt F) → (⟨S262144x1, .f32⟩ : BufTy).Contents (Elt F)),
    StableHlo.unary main_v38 main_v39 (broadcastInDim S262144x256 ![0, 1] bcast_S262144x1_S262144x256_0_1 : (⟨S262144x1, .f32⟩ : BufTy).Contents (Elt F) → (⟨S262144x256, .f32⟩ : BufTy).Contents (Elt F)),
    StableHlo.binary main_v35 main_v39 main_v40 (mulf : (⟨S262144x256, .f32⟩ : BufTy).Contents (Elt F) → (⟨S262144x256, .f32⟩ : BufTy).Contents (Elt F) → (⟨S262144x256, .f32⟩ : BufTy).Contents (Elt F)),
    StableHlo.nullary main_cst_10 (constant S_ .f32 0x3C23D70A#32),
    StableHlo.TRef.nullary main_call1.cst (constant S_ .f32 0x00000000#32),
    StableHlo.TRef.unary main_call1.cst main_call1.v0 (broadcastInDim S262144x256 ![] bcast_S_S262144x256),
    StableHlo.TRef.binary (.of main_v40 : StableHlo.TRef sig ⟨S262144x256, .f32⟩) main_call1.v0 main_call1.v1 (cmpf .oge),
    StableHlo.TRef.unary (.of main_cst_10 : StableHlo.TRef sig ⟨S_, .f32⟩) main_call1.v2 id,
    StableHlo.TRef.unary main_call1.v2 main_call1.v3 (broadcastInDim S262144x256 ![] bcast_S_S262144x256),
    StableHlo.TRef.binary main_call1.v3 (.of main_v40 : StableHlo.TRef sig ⟨S262144x256, .f32⟩) main_call1.v4 mulf,
    StableHlo.TRef.ternary main_call1.v1 (.of main_v40 : StableHlo.TRef sig ⟨S262144x256, .f32⟩) main_call1.v4 main_call1.call0.v0 select,
    StableHlo.nullary main_cst_11 (constant S_ .f32 0x00000000#32),
    StableHlo.unary main_cst_11 main_v42 (broadcastInDim S128x256 ![] bcast_S_S128x256 : (⟨S_, .f32⟩ : BufTy).Contents (Elt F) → (⟨S128x256, .f32⟩ : BufTy).Contents (Elt F)),
    StableHlo.unary main_arg5 main_v43 (broadcastInDim S262144x1 ![0] bcast_S262144_S262144x1_0 : (⟨S262144, .i32⟩ : BufTy).Contents (Elt F) → (⟨S262144x1, .i32⟩ : BufTy).Contents (Elt F)),
    StableHlo.ternary main_v42 main_v43 main_v41 main_v44 ((fun x i u => Host.scatterAdd scatter_S128x256_S262144x1_S262144x256_1_0_0_1 x i u) : (⟨S128x256, .f32⟩ : BufTy).Contents (Elt F) → (⟨S262144x1, .i32⟩ : BufTy).Contents (Elt F) → (⟨S262144x256, .f32⟩ : BufTy).Contents (Elt F) → (⟨S128x256, .f32⟩ : BufTy).Contents (Elt F)),
    StableHlo.unary main_arg3 main_v45 ((transpose S256x512 [1, 0] · transposes_S512x256_S256x512_1_0) : (⟨S512x256, .f32⟩ : BufTy).Contents (Elt F) → (⟨S256x512, .f32⟩ : BufTy).Contents (Elt F)),
    StableHlo.binary main_v44 main_v45 main_v46 ((fun l r => Host.dotGeneral dot_S128x256_S256x512_S128x512_1_0_0_1_n_n none l r) : (⟨S128x256, .f32⟩ : BufTy).Contents (Elt F) → (⟨S256x512, .f32⟩ : BufTy).Contents (Elt F) → (⟨S128x512, .f32⟩ : BufTy).Contents (Elt F)),
    StableHlo.nullary main_cst_12 (constant S_ .f32 0x00000000#32),
    StableHlo.binary main_v46 main_cst_12 main_v47 ((fun x v => Host.reduceAdd x v reducesTo_S128x512_S128_d1 h_S_) : (⟨S128x512, .f32⟩ : BufTy).Contents (Elt F) → (⟨S_, .f32⟩ : BufTy).Contents (Elt F) → (⟨S128, .f32⟩ : BufTy).Contents (Elt F)),
    StableHlo.unary main_v47 main_v48 (broadcastInDim S128x1 ![0] bcast_S128_S128x1_0 : (⟨S128, .f32⟩ : BufTy).Contents (Elt F) → (⟨S128x1, .f32⟩ : BufTy).Contents (Elt F)),
    StableHlo.nullary main_cst_13 (constant S_ .f32 0x44000000#32),
    StableHlo.unary main_cst_13 main_v49 (broadcastInDim S128x1 ![] bcast_S_S128x1 : (⟨S_, .f32⟩ : BufTy).Contents (Elt F) → (⟨S128x1, .f32⟩ : BufTy).Contents (Elt F)),
    StableHlo.binary main_v48 main_v49 main_v50 (Host.divf : (⟨S128x1, .f32⟩ : BufTy).Contents (Elt F) → (⟨S128x1, .f32⟩ : BufTy).Contents (Elt F) → (⟨S128x1, .f32⟩ : BufTy).Contents (Elt F)),
    StableHlo.unary main_v50 main_v51 (broadcastInDim S128x512 ![0, 1] bcast_S128x1_S128x512_0_1 : (⟨S128x1, .f32⟩ : BufTy).Contents (Elt F) → (⟨S128x512, .f32⟩ : BufTy).Contents (Elt F)),
    StableHlo.binary main_v46 main_v51 main_v52 (subf : (⟨S128x512, .f32⟩ : BufTy).Contents (Elt F) → (⟨S128x512, .f32⟩ : BufTy).Contents (Elt F) → (⟨S128x512, .f32⟩ : BufTy).Contents (Elt F)),
    StableHlo.binary main_v52 main_v52 main_v53 (mulf : (⟨S128x512, .f32⟩ : BufTy).Contents (Elt F) → (⟨S128x512, .f32⟩ : BufTy).Contents (Elt F) → (⟨S128x512, .f32⟩ : BufTy).Contents (Elt F)),
    StableHlo.nullary main_cst_14 (constant S_ .f32 0x00000000#32),
    StableHlo.binary main_v53 main_cst_14 main_v54 ((fun x v => Host.reduceAdd x v reducesTo_S128x512_S128_d1 h_S_) : (⟨S128x512, .f32⟩ : BufTy).Contents (Elt F) → (⟨S_, .f32⟩ : BufTy).Contents (Elt F) → (⟨S128, .f32⟩ : BufTy).Contents (Elt F)),
    StableHlo.unary main_v54 main_v55 (broadcastInDim S128x1 ![0] bcast_S128_S128x1_0 : (⟨S128, .f32⟩ : BufTy).Contents (Elt F) → (⟨S128x1, .f32⟩ : BufTy).Contents (Elt F)),
    StableHlo.nullary main_cst_15 (constant S_ .f32 0x44000000#32),
    StableHlo.unary main_cst_15 main_v56 (broadcastInDim S128x1 ![] bcast_S_S128x1 : (⟨S_, .f32⟩ : BufTy).Contents (Elt F) → (⟨S128x1, .f32⟩ : BufTy).Contents (Elt F)),
    StableHlo.binary main_v55 main_v56 main_v57 (Host.divf : (⟨S128x1, .f32⟩ : BufTy).Contents (Elt F) → (⟨S128x1, .f32⟩ : BufTy).Contents (Elt F) → (⟨S128x1, .f32⟩ : BufTy).Contents (Elt F)),
    StableHlo.unary main_v50 main_v58 (broadcastInDim S128x512 ![0, 1] bcast_S128x1_S128x512_0_1 : (⟨S128x1, .f32⟩ : BufTy).Contents (Elt F) → (⟨S128x512, .f32⟩ : BufTy).Contents (Elt F)),
    StableHlo.binary main_v46 main_v58 main_v59 (subf : (⟨S128x512, .f32⟩ : BufTy).Contents (Elt F) → (⟨S128x512, .f32⟩ : BufTy).Contents (Elt F) → (⟨S128x512, .f32⟩ : BufTy).Contents (Elt F)),
    StableHlo.nullary main_cst_16 (constant S_ .f32 0x3727C5AC#32),
    StableHlo.unary main_cst_16 main_v60 (broadcastInDim S128x1 ![] bcast_S_S128x1 : (⟨S_, .f32⟩ : BufTy).Contents (Elt F) → (⟨S128x1, .f32⟩ : BufTy).Contents (Elt F)),
    StableHlo.binary main_v57 main_v60 main_v61 (addf : (⟨S128x1, .f32⟩ : BufTy).Contents (Elt F) → (⟨S128x1, .f32⟩ : BufTy).Contents (Elt F) → (⟨S128x1, .f32⟩ : BufTy).Contents (Elt F)),
    StableHlo.unary main_v61 main_v62 (Host.rsqrt : (⟨S128x1, .f32⟩ : BufTy).Contents (Elt F) → (⟨S128x1, .f32⟩ : BufTy).Contents (Elt F)),
    StableHlo.unary main_v62 main_v63 (broadcastInDim S128x512 ![0, 1] bcast_S128x1_S128x512_0_1 : (⟨S128x1, .f32⟩ : BufTy).Contents (Elt F) → (⟨S128x512, .f32⟩ : BufTy).Contents (Elt F)),
    StableHlo.binary main_v59 main_v63 main_v64 (mulf : (⟨S128x512, .f32⟩ : BufTy).Contents (Elt F) → (⟨S128x512, .f32⟩ : BufTy).Contents (Elt F) → (⟨S128x512, .f32⟩ : BufTy).Contents (Elt F)),
    StableHlo.nullary main_cst_17 (constant S_ .f32 0x3C23D70A#32),
    StableHlo.TRef.nullary main_call2.cst (constant S_ .f32 0x00000000#32),
    StableHlo.TRef.unary main_call2.cst main_call2.v0 (broadcastInDim S128x512 ![] bcast_S_S128x512),
    StableHlo.TRef.binary (.of main_v64 : StableHlo.TRef sig ⟨S128x512, .f32⟩) main_call2.v0 main_call2.v1 (cmpf .oge),
    StableHlo.TRef.unary (.of main_cst_17 : StableHlo.TRef sig ⟨S_, .f32⟩) main_call2.v2 id,
    StableHlo.TRef.unary main_call2.v2 main_call2.v3 (broadcastInDim S128x512 ![] bcast_S_S128x512),
    StableHlo.TRef.binary main_call2.v3 (.of main_v64 : StableHlo.TRef sig ⟨S128x512, .f32⟩) main_call2.v4 mulf,
    StableHlo.TRef.ternary main_call2.v1 (.of main_v64 : StableHlo.TRef sig ⟨S128x512, .f32⟩) main_call2.v4 main_call2.call0.v0 select,
    StableHlo.unary main_arg4 main_v66 ((transpose S512x128 [1, 0] · transposes_S128x512_S512x128_1_0) : (⟨S128x512, .f32⟩ : BufTy).Contents (Elt F) → (⟨S512x128, .f32⟩ : BufTy).Contents (Elt F)),
    StableHlo.binary main_v65 main_v66 main_v67 ((fun l r => Host.dotGeneral dot_S128x512_S512x128_S128x128_1_0_0_1_n_n none l r) : (⟨S128x512, .f32⟩ : BufTy).Contents (Elt F) → (⟨S512x128, .f32⟩ : BufTy).Contents (Elt F) → (⟨S128x128, .f32⟩ : BufTy).Contents (Elt F)),
    StableHlo.nullary main_cst_18 (constant S_ .f32 0x00000000#32),
    StableHlo.binary main_v67 main_cst_18 main_v68 ((fun x v => Host.reduceAdd x v reducesTo_S128x128_S128_d1 h_S_) : (⟨S128x128, .f32⟩ : BufTy).Contents (Elt F) → (⟨S_, .f32⟩ : BufTy).Contents (Elt F) → (⟨S128, .f32⟩ : BufTy).Contents (Elt F)),
    StableHlo.unary main_v68 main_v69 (broadcastInDim S128x1 ![0] bcast_S128_S128x1_0 : (⟨S128, .f32⟩ : BufTy).Contents (Elt F) → (⟨S128x1, .f32⟩ : BufTy).Contents (Elt F)),
    StableHlo.nullary main_cst_19 (constant S_ .f32 0x43000000#32),
    StableHlo.unary main_cst_19 main_v70 (broadcastInDim S128x1 ![] bcast_S_S128x1 : (⟨S_, .f32⟩ : BufTy).Contents (Elt F) → (⟨S128x1, .f32⟩ : BufTy).Contents (Elt F)),
    StableHlo.binary main_v69 main_v70 main_v71 (Host.divf : (⟨S128x1, .f32⟩ : BufTy).Contents (Elt F) → (⟨S128x1, .f32⟩ : BufTy).Contents (Elt F) → (⟨S128x1, .f32⟩ : BufTy).Contents (Elt F)),
    StableHlo.unary main_v71 main_v72 (broadcastInDim S128x128 ![0, 1] bcast_S128x1_S128x128_0_1 : (⟨S128x1, .f32⟩ : BufTy).Contents (Elt F) → (⟨S128x128, .f32⟩ : BufTy).Contents (Elt F)),
    StableHlo.binary main_v67 main_v72 main_v73 (subf : (⟨S128x128, .f32⟩ : BufTy).Contents (Elt F) → (⟨S128x128, .f32⟩ : BufTy).Contents (Elt F) → (⟨S128x128, .f32⟩ : BufTy).Contents (Elt F)),
    StableHlo.binary main_v73 main_v73 main_v74 (mulf : (⟨S128x128, .f32⟩ : BufTy).Contents (Elt F) → (⟨S128x128, .f32⟩ : BufTy).Contents (Elt F) → (⟨S128x128, .f32⟩ : BufTy).Contents (Elt F)),
    StableHlo.nullary main_cst_20 (constant S_ .f32 0x00000000#32),
    StableHlo.binary main_v74 main_cst_20 main_v75 ((fun x v => Host.reduceAdd x v reducesTo_S128x128_S128_d1 h_S_) : (⟨S128x128, .f32⟩ : BufTy).Contents (Elt F) → (⟨S_, .f32⟩ : BufTy).Contents (Elt F) → (⟨S128, .f32⟩ : BufTy).Contents (Elt F)),
    StableHlo.unary main_v75 main_v76 (broadcastInDim S128x1 ![0] bcast_S128_S128x1_0 : (⟨S128, .f32⟩ : BufTy).Contents (Elt F) → (⟨S128x1, .f32⟩ : BufTy).Contents (Elt F)),
    StableHlo.nullary main_cst_21 (constant S_ .f32 0x43000000#32),
    StableHlo.unary main_cst_21 main_v77 (broadcastInDim S128x1 ![] bcast_S_S128x1 : (⟨S_, .f32⟩ : BufTy).Contents (Elt F) → (⟨S128x1, .f32⟩ : BufTy).Contents (Elt F)),
    StableHlo.binary main_v76 main_v77 main_v78 (Host.divf : (⟨S128x1, .f32⟩ : BufTy).Contents (Elt F) → (⟨S128x1, .f32⟩ : BufTy).Contents (Elt F) → (⟨S128x1, .f32⟩ : BufTy).Contents (Elt F)),
    StableHlo.unary main_v71 main_v79 (broadcastInDim S128x128 ![0, 1] bcast_S128x1_S128x128_0_1 : (⟨S128x1, .f32⟩ : BufTy).Contents (Elt F) → (⟨S128x128, .f32⟩ : BufTy).Contents (Elt F)),
    StableHlo.binary main_v67 main_v79 main_v80 (subf : (⟨S128x128, .f32⟩ : BufTy).Contents (Elt F) → (⟨S128x128, .f32⟩ : BufTy).Contents (Elt F) → (⟨S128x128, .f32⟩ : BufTy).Contents (Elt F)),
    StableHlo.nullary main_cst_22 (constant S_ .f32 0x3727C5AC#32),
    StableHlo.unary main_cst_22 main_v81 (broadcastInDim S128x1 ![] bcast_S_S128x1 : (⟨S_, .f32⟩ : BufTy).Contents (Elt F) → (⟨S128x1, .f32⟩ : BufTy).Contents (Elt F)),
    StableHlo.binary main_v78 main_v81 main_v82 (addf : (⟨S128x1, .f32⟩ : BufTy).Contents (Elt F) → (⟨S128x1, .f32⟩ : BufTy).Contents (Elt F) → (⟨S128x1, .f32⟩ : BufTy).Contents (Elt F)),
    StableHlo.unary main_v82 main_v83 (Host.rsqrt : (⟨S128x1, .f32⟩ : BufTy).Contents (Elt F) → (⟨S128x1, .f32⟩ : BufTy).Contents (Elt F)),
    StableHlo.unary main_v83 main_v84 (broadcastInDim S128x128 ![0, 1] bcast_S128x1_S128x128_0_1 : (⟨S128x1, .f32⟩ : BufTy).Contents (Elt F) → (⟨S128x128, .f32⟩ : BufTy).Contents (Elt F)),
    StableHlo.binary main_v80 main_v84 main_v85 (mulf : (⟨S128x128, .f32⟩ : BufTy).Contents (Elt F) → (⟨S128x128, .f32⟩ : BufTy).Contents (Elt F) → (⟨S128x128, .f32⟩ : BufTy).Contents (Elt F)),
    StableHlo.nullary main_cst_23 (constant S_ .f32 0x3C23D70A#32),
    StableHlo.TRef.nullary main_call3.cst (constant S_ .f32 0x00000000#32),
    StableHlo.TRef.unary main_call3.cst main_call3.v0 (broadcastInDim S128x128 ![] bcast_S_S128x128),
    StableHlo.TRef.binary (.of main_v85 : StableHlo.TRef sig ⟨S128x128, .f32⟩) main_call3.v0 main_call3.v1 (cmpf .oge),
    StableHlo.TRef.unary (.of main_cst_23 : StableHlo.TRef sig ⟨S_, .f32⟩) main_call3.v2 id,
    StableHlo.TRef.unary main_call3.v2 main_call3.v3 (broadcastInDim S128x128 ![] bcast_S_S128x128),
    StableHlo.TRef.binary main_call3.v3 (.of main_v85 : StableHlo.TRef sig ⟨S128x128, .f32⟩) main_call3.v4 mulf,
    StableHlo.TRef.ternary main_call3.v1 (.of main_v85 : StableHlo.TRef sig ⟨S128x128, .f32⟩) main_call3.v4 main_call3.call0.v0 select ]

set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨unary_bufs_sub .., binary_bufs_sub .., nullary_bufs_sub .., binary_bufs_sub .., unary_bufs_sub .., nullary_bufs_sub .., unary_bufs_sub .., binary_bufs_sub .., unary_bufs_sub .., binary_bufs_sub .., binary_bufs_sub .., nullary_bufs_sub .., binary_bufs_sub .., unary_bufs_sub .., nullary_bufs_sub .., unary_bufs_sub .., binary_bufs_sub .., unary_bufs_sub .., binary_bufs_sub .., nullary_bufs_sub .., unary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., unary_bufs_sub .., binary_bufs_sub .., nullary_bufs_sub .., binary_bufs_sub .., unary_bufs_sub .., nullary_bufs_sub .., unary_bufs_sub .., binary_bufs_sub .., unary_bufs_sub .., binary_bufs_sub .., binary_bufs_sub .., nullary_bufs_sub .., binary_bufs_sub .., unary_bufs_sub .., nullary_bufs_sub .., unary_bufs_sub .., binary_bufs_sub .., unary_bufs_sub .., binary_bufs_sub .., nullary_bufs_sub .., unary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., nullary_bufs_sub .., unary_bufs_sub .., unary_bufs_sub .., ternary_bufs_sub .., unary_bufs_sub .., binary_bufs_sub .., nullary_bufs_sub .., binary_bufs_sub .., unary_bufs_sub .., nullary_bufs_sub .., unary_bufs_sub .., binary_bufs_sub .., unary_bufs_sub .., binary_bufs_sub .., binary_bufs_sub .., nullary_bufs_sub .., binary_bufs_sub .., unary_bufs_sub .., nullary_bufs_sub .., unary_bufs_sub .., binary_bufs_sub .., unary_bufs_sub .., binary_bufs_sub .., nullary_bufs_sub .., unary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub .., unary_bufs_sub .., binary_bufs_sub .., nullary_bufs_sub .., binary_bufs_sub .., unary_bufs_sub .., nullary_bufs_sub .., unary_bufs_sub .., binary_bufs_sub .., unary_bufs_sub .., binary_bufs_sub .., binary_bufs_sub .., nullary_bufs_sub .., binary_bufs_sub .., unary_bufs_sub .., nullary_bufs_sub .., unary_bufs_sub .., binary_bufs_sub .., unary_bufs_sub .., binary_bufs_sub .., nullary_bufs_sub .., unary_bufs_sub .., binary_bufs_sub .., unary_bufs_sub .., unary_bufs_sub .., binary_bufs_sub .., nullary_bufs_sub .., nullary_bufs_sub .., unary_bufs_sub .., binary_bufs_sub .., unary_bufs_sub .., unary_bufs_sub .., binary_bufs_sub .., ternary_bufs_sub ..⟩

/-- Every weakly fair execution ends with each buffer at the fold of the operations over the launch contents. -/
theorem run_raw (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-- The first dense layer: the weights' transpose, the product with the features. -/
def opsL1 : List (HloOp τ sig (Elt F)) :=
  [ StableHlo.unary main_arg1 main_v0 ((transpose S256x512 [1, 0] · transposes_S512x256_S256x512_1_0) : (⟨S512x256, .f32⟩ : BufTy).Contents (Elt F) → (⟨S256x512, .f32⟩ : BufTy).Contents (Elt F)),
    StableHlo.binary main_arg0 main_v0 main_v1 ((fun l r => Host.dotGeneral dot_S262144x256_S256x512_S262144x512_1_0_0_1_n_n none l r) : (⟨S262144x256, .f32⟩ : BufTy).Contents (Elt F) → (⟨S256x512, .f32⟩ : BufTy).Contents (Elt F) → (⟨S262144x512, .f32⟩ : BufTy).Contents (Elt F)) ]

/-- The buffers that stage writes: each operation its own result. -/
abbrev L1_W : List (Ref sig .tc) := [main_v0, main_v1]

theorem opsL1_writes : (opsL1 : List (HloOp τ sig (Elt F))).Forall fun op => op.writes ⊆ (L1_W.map (Proc.devRef (τ := τ) .tc)).toFinset := by
  rw [opsL1]
  simp only [List.Forall]
  repeat' apply And.intro
  all_goals (simp only [nullary_writes, unary_writes, binary_writes, ternary_writes, Finset.singleton_subset_iff, List.mem_toFinset]; exact List.mem_map_of_mem (by decide))

/-- A buffer the stage does not write is as it was. -/
theorem L1_keep (V : Valuation τ sig (Elt F)) (r : Ref sig .tc) (h : r ∉ L1_W) :
    after opsL1 V (Proc.devRef .tc r) = V (Proc.devRef .tc r) :=
  after_of_writes_sub opsL1 V opsL1_writes h

/-- The stage's result, of the buffers it reads, whatever the others hold. -/
theorem L1_out (V : Valuation τ sig (Elt F)) :
    after opsL1 V (Proc.devRef .tc main_v1) = Host.dotGeneral dot_S262144x256_S256x512_S262144x512_1_0_0_1_n_n none (V (Proc.devRef .tc main_arg0)) (transpose S256x512 [1, 0] (V (Proc.devRef .tc main_arg1)) transposes_S512x256_S256x512_1_0) := by
  rw [opsL1]
  after_results_simp

/-- The stretch on the first layer's table: the row means and variances, the reciprocal root, then the rectifier's seven operations over its call's own buffers. -/
def opsNA : List (HloOp τ sig (Elt F)) :=
  [ StableHlo.nullary main_cst (constant S_ .f32 0x00000000#32),
    StableHlo.binary main_v1 main_cst main_v2 ((fun x v => Host.reduceAdd x v reducesTo_S262144x512_S262144_d1 h_S_) : (⟨S262144x512, .f32⟩ : BufTy).Contents (Elt F) → (⟨S_, .f32⟩ : BufTy).Contents (Elt F) → (⟨S262144, .f32⟩ : BufTy).Contents (Elt F)),
    StableHlo.unary main_v2 main_v3 (broadcastInDim S262144x1 ![0] bcast_S262144_S262144x1_0 : (⟨S262144, .f32⟩ : BufTy).Contents (Elt F) → (⟨S262144x1, .f32⟩ : BufTy).Contents (Elt F)),
    StableHlo.nullary main_cst_0 (constant S_ .f32 0x44000000#32),
    StableHlo.unary main_cst_0 main_v4 (broadcastInDim S262144x1 ![] bcast_S_S262144x1 : (⟨S_, .f32⟩ : BufTy).Contents (Elt F) → (⟨S262144x1, .f32⟩ : BufTy).Contents (Elt F)),
    StableHlo.binary main_v3 main_v4 main_v5 (Host.divf : (⟨S262144x1, .f32⟩ : BufTy).Contents (Elt F) → (⟨S262144x1, .f32⟩ : BufTy).Contents (Elt F) → (⟨S262144x1, .f32⟩ : BufTy).Contents (Elt F)),
    StableHlo.unary main_v5 main_v6 (broadcastInDim S262144x512 ![0, 1] bcast_S262144x1_S262144x512_0_1 : (⟨S262144x1, .f32⟩ : BufTy).Contents (Elt F) → (⟨S262144x512, .f32⟩ : BufTy).Contents (Elt F)),
    StableHlo.binary main_v1 main_v6 main_v7 (subf : (⟨S262144x512, .f32⟩ : BufTy).Contents (Elt F) → (⟨S262144x512, .f32⟩ : BufTy).Contents (Elt F) → (⟨S262144x512, .f32⟩ : BufTy).Contents (Elt F)),
    StableHlo.binary main_v7 main_v7 main_v8 (mulf : (⟨S262144x512, .f32⟩ : BufTy).Contents (Elt F) → (⟨S262144x512, .f32⟩ : BufTy).Contents (Elt F) → (⟨S262144x512, .f32⟩ : BufTy).Contents (Elt F)),
    StableHlo.nullary main_cst_1 (constant S_ .f32 0x00000000#32),
    StableHlo.binary main_v8 main_cst_1 main_v9 ((fun x v => Host.reduceAdd x v reducesTo_S262144x512_S262144_d1 h_S_) : (⟨S262144x512, .f32⟩ : BufTy).Contents (Elt F) → (⟨S_, .f32⟩ : BufTy).Contents (Elt F) → (⟨S262144, .f32⟩ : BufTy).Contents (Elt F)),
    StableHlo.unary main_v9 main_v10 (broadcastInDim S262144x1 ![0] bcast_S262144_S262144x1_0 : (⟨S262144, .f32⟩ : BufTy).Contents (Elt F) → (⟨S262144x1, .f32⟩ : BufTy).Contents (Elt F)),
    StableHlo.nullary main_cst_2 (constant S_ .f32 0x44000000#32),
    StableHlo.unary main_cst_2 main_v11 (broadcastInDim S262144x1 ![] bcast_S_S262144x1 : (⟨S_, .f32⟩ : BufTy).Contents (Elt F) → (⟨S262144x1, .f32⟩ : BufTy).Contents (Elt F)),
    StableHlo.binary main_v10 main_v11 main_v12 (Host.divf : (⟨S262144x1, .f32⟩ : BufTy).Contents (Elt F) → (⟨S262144x1, .f32⟩ : BufTy).Contents (Elt F) → (⟨S262144x1, .f32⟩ : BufTy).Contents (Elt F)),
    StableHlo.unary main_v5 main_v13 (broadcastInDim S262144x512 ![0, 1] bcast_S262144x1_S262144x512_0_1 : (⟨S262144x1, .f32⟩ : BufTy).Contents (Elt F) → (⟨S262144x512, .f32⟩ : BufTy).Contents (Elt F)),
    StableHlo.binary main_v1 main_v13 main_v14 (subf : (⟨S262144x512, .f32⟩ : BufTy).Contents (Elt F) → (⟨S262144x512, .f32⟩ : BufTy).Contents (Elt F) → (⟨S262144x512, .f32⟩ : BufTy).Contents (Elt F)),
    StableHlo.nullary main_cst_3 (constant S_ .f32 0x3727C5AC#32),
    StableHlo.unary main_cst_3 main_v15 (broadcastInDim S262144x1 ![] bcast_S_S262144x1 : (⟨S_, .f32⟩ : BufTy).Contents (Elt F) → (⟨S262144x1, .f32⟩ : BufTy).Contents (Elt F)),
    StableHlo.binary main_v12 main_v15 main_v16 (addf : (⟨S262144x1, .f32⟩ : BufTy).Contents (Elt F) → (⟨S262144x1, .f32⟩ : BufTy).Contents (Elt F) → (⟨S262144x1, .f32⟩ : BufTy).Contents (Elt F)),
    StableHlo.unary main_v16 main_v17 (Host.rsqrt : (⟨S262144x1, .f32⟩ : BufTy).Contents (Elt F) → (⟨S262144x1, .f32⟩ : BufTy).Contents (Elt F)),
    StableHlo.unary main_v17 main_v18 (broadcastInDim S262144x512 ![0, 1] bcast_S262144x1_S262144x512_0_1 : (⟨S262144x1, .f32⟩ : BufTy).Contents (Elt F) → (⟨S262144x512, .f32⟩ : BufTy).Contents (Elt F)),
    StableHlo.binary main_v14 main_v18 main_v19 (mulf : (⟨S262144x512, .f32⟩ : BufTy).Contents (Elt F) → (⟨S262144x512, .f32⟩ : BufTy).Contents (Elt F) → (⟨S262144x512, .f32⟩ : BufTy).Contents (Elt F)),
    StableHlo.nullary main_cst_4 (constant S_ .f32 0x3C23D70A#32),
    StableHlo.TRef.nullary main_call0.cst (constant S_ .f32 0x00000000#32),
    StableHlo.TRef.unary main_call0.cst main_call0.v0 (broadcastInDim S262144x512 ![] bcast_S_S262144x512),
    StableHlo.TRef.binary (.of main_v19 : StableHlo.TRef sig ⟨S262144x512, .f32⟩) main_call0.v0 main_call0.v1 (cmpf .oge),
    StableHlo.TRef.unary (.of main_cst_4 : StableHlo.TRef sig ⟨S_, .f32⟩) main_call0.v2 id,
    StableHlo.TRef.unary main_call0.v2 main_call0.v3 (broadcastInDim S262144x512 ![] bcast_S_S262144x512),
    StableHlo.TRef.binary main_call0.v3 (.of main_v19 : StableHlo.TRef sig ⟨S262144x512, .f32⟩) main_call0.v4 mulf,
    StableHlo.TRef.ternary main_call0.v1 (.of main_v19 : StableHlo.TRef sig ⟨S262144x512, .f32⟩) main_call0.v4 main_call0.call0.v0 select ]

/-- The buffers that stage writes: each operation its own result. -/
abbrev NA_W : List (Ref sig .tc) := [main_cst, main_v2, main_v3, main_cst_0, main_v4, main_v5, main_v6, main_v7, main_v8, main_cst_1, main_v9, main_v10, main_cst_2, main_v11, main_v12, main_v13, main_v14, main_cst_3, main_v15, main_v16, main_v17, main_v18, main_v19, main_cst_4, main_call0_cst, main_call0_v0, main_call0_v1, main_call0_v2, main_call0_v3, main_call0_v4, main_v20]

theorem opsNA_writes : (opsNA : List (HloOp τ sig (Elt F))).Forall fun op => op.writes ⊆ (NA_W.map (Proc.devRef (τ := τ) .tc)).toFinset := by
  rw [opsNA]
  simp only [List.Forall]
  repeat' apply And.intro
  all_goals (simp only [nullary_writes, unary_writes, binary_writes, ternary_writes, Finset.singleton_subset_iff, List.mem_toFinset]; exact List.mem_map_of_mem (by decide))

/-- A buffer the stage does not write is as it was. -/
theorem NA_keep (V : Valuation τ sig (Elt F)) (r : Ref sig .tc) (h : r ∉ NA_W) :
    after opsNA V (Proc.devRef .tc r) = V (Proc.devRef .tc r) :=
  after_of_writes_sub opsNA V opsNA_writes h

/-- The stage's result, of the buffers it reads, whatever the others hold. -/
theorem NA_out (V : Valuation τ sig (Elt F)) :
    after opsNA V (Proc.devRef .tc main_v20) = normLeakyA (V (Proc.devRef .tc main_v1)) := by
  rw [opsNA]
  after_results_simp
  rfl

/-- The second dense layer. -/
def opsL2 : List (HloOp τ sig (Elt F)) :=
  [ StableHlo.unary main_arg2 main_v21 ((transpose S512x256 [1, 0] · transposes_S256x512_S512x256_1_0) : (⟨S256x512, .f32⟩ : BufTy).Contents (Elt F) → (⟨S512x256, .f32⟩ : BufTy).Contents (Elt F)),
    StableHlo.binary main_v20 main_v21 main_v22 ((fun l r => Host.dotGeneral dot_S262144x512_S512x256_S262144x256_1_0_0_1_n_n none l r) : (⟨S262144x512, .f32⟩ : BufTy).Contents (Elt F) → (⟨S512x256, .f32⟩ : BufTy).Contents (Elt F) → (⟨S262144x256, .f32⟩ : BufTy).Contents (Elt F)) ]

/-- The buffers that stage writes: each operation its own result. -/
abbrev L2_W : List (Ref sig .tc) := [main_v21, main_v22]

theorem opsL2_writes : (opsL2 : List (HloOp τ sig (Elt F))).Forall fun op => op.writes ⊆ (L2_W.map (Proc.devRef (τ := τ) .tc)).toFinset := by
  rw [opsL2]
  simp only [List.Forall]
  repeat' apply And.intro
  all_goals (simp only [nullary_writes, unary_writes, binary_writes, ternary_writes, Finset.singleton_subset_iff, List.mem_toFinset]; exact List.mem_map_of_mem (by decide))

/-- A buffer the stage does not write is as it was. -/
theorem L2_keep (V : Valuation τ sig (Elt F)) (r : Ref sig .tc) (h : r ∉ L2_W) :
    after opsL2 V (Proc.devRef .tc r) = V (Proc.devRef .tc r) :=
  after_of_writes_sub opsL2 V opsL2_writes h

/-- The stage's result, of the buffers it reads, whatever the others hold. -/
theorem L2_out (V : Valuation τ sig (Elt F)) :
    after opsL2 V (Proc.devRef .tc main_v22) = Host.dotGeneral dot_S262144x512_S512x256_S262144x256_1_0_0_1_n_n none (V (Proc.devRef .tc main_v20)) (transpose S512x256 [1, 0] (V (Proc.devRef .tc main_arg2)) transposes_S256x512_S512x256_1_0) := by
  rw [opsL2]
  after_results_simp

/-- The stretch on the second layer's table. -/
def opsNB : List (HloOp τ sig (Elt F)) :=
  [ StableHlo.nullary main_cst_5 (constant S_ .f32 0x00000000#32),
    StableHlo.binary main_v22 main_cst_5 main_v23 ((fun x v => Host.reduceAdd x v reducesTo_S262144x256_S262144_d1 h_S_) : (⟨S262144x256, .f32⟩ : BufTy).Contents (Elt F) → (⟨S_, .f32⟩ : BufTy).Contents (Elt F) → (⟨S262144, .f32⟩ : BufTy).Contents (Elt F)),
    StableHlo.unary main_v23 main_v24 (broadcastInDim S262144x1 ![0] bcast_S262144_S262144x1_0 : (⟨S262144, .f32⟩ : BufTy).Contents (Elt F) → (⟨S262144x1, .f32⟩ : BufTy).Contents (Elt F)),
    StableHlo.nullary main_cst_6 (constant S_ .f32 0x43800000#32),
    StableHlo.unary main_cst_6 main_v25 (broadcastInDim S262144x1 ![] bcast_S_S262144x1 : (⟨S_, .f32⟩ : BufTy).Contents (Elt F) → (⟨S262144x1, .f32⟩ : BufTy).Contents (Elt F)),
    StableHlo.binary main_v24 main_v25 main_v26 (Host.divf : (⟨S262144x1, .f32⟩ : BufTy).Contents (Elt F) → (⟨S262144x1, .f32⟩ : BufTy).Contents (Elt F) → (⟨S262144x1, .f32⟩ : BufTy).Contents (Elt F)),
    StableHlo.unary main_v26 main_v27 (broadcastInDim S262144x256 ![0, 1] bcast_S262144x1_S262144x256_0_1 : (⟨S262144x1, .f32⟩ : BufTy).Contents (Elt F) → (⟨S262144x256, .f32⟩ : BufTy).Contents (Elt F)),
    StableHlo.binary main_v22 main_v27 main_v28 (subf : (⟨S262144x256, .f32⟩ : BufTy).Contents (Elt F) → (⟨S262144x256, .f32⟩ : BufTy).Contents (Elt F) → (⟨S262144x256, .f32⟩ : BufTy).Contents (Elt F)),
    StableHlo.binary main_v28 main_v28 main_v29 (mulf : (⟨S262144x256, .f32⟩ : BufTy).Contents (Elt F) → (⟨S262144x256, .f32⟩ : BufTy).Contents (Elt F) → (⟨S262144x256, .f32⟩ : BufTy).Contents (Elt F)),
    StableHlo.nullary main_cst_7 (constant S_ .f32 0x00000000#32),
    StableHlo.binary main_v29 main_cst_7 main_v30 ((fun x v => Host.reduceAdd x v reducesTo_S262144x256_S262144_d1 h_S_) : (⟨S262144x256, .f32⟩ : BufTy).Contents (Elt F) → (⟨S_, .f32⟩ : BufTy).Contents (Elt F) → (⟨S262144, .f32⟩ : BufTy).Contents (Elt F)),
    StableHlo.unary main_v30 main_v31 (broadcastInDim S262144x1 ![0] bcast_S262144_S262144x1_0 : (⟨S262144, .f32⟩ : BufTy).Contents (Elt F) → (⟨S262144x1, .f32⟩ : BufTy).Contents (Elt F)),
    StableHlo.nullary main_cst_8 (constant S_ .f32 0x43800000#32),
    StableHlo.unary main_cst_8 main_v32 (broadcastInDim S262144x1 ![] bcast_S_S262144x1 : (⟨S_, .f32⟩ : BufTy).Contents (Elt F) → (⟨S262144x1, .f32⟩ : BufTy).Contents (Elt F)),
    StableHlo.binary main_v31 main_v32 main_v33 (Host.divf : (⟨S262144x1, .f32⟩ : BufTy).Contents (Elt F) → (⟨S262144x1, .f32⟩ : BufTy).Contents (Elt F) → (⟨S262144x1, .f32⟩ : BufTy).Contents (Elt F)),
    StableHlo.unary main_v26 main_v34 (broadcastInDim S262144x256 ![0, 1] bcast_S262144x1_S262144x256_0_1 : (⟨S262144x1, .f32⟩ : BufTy).Contents (Elt F) → (⟨S262144x256, .f32⟩ : BufTy).Contents (Elt F)),
    StableHlo.binary main_v22 main_v34 main_v35 (subf : (⟨S262144x256, .f32⟩ : BufTy).Contents (Elt F) → (⟨S262144x256, .f32⟩ : BufTy).Contents (Elt F) → (⟨S262144x256, .f32⟩ : BufTy).Contents (Elt F)),
    StableHlo.nullary main_cst_9 (constant S_ .f32 0x3727C5AC#32),
    StableHlo.unary main_cst_9 main_v36 (broadcastInDim S262144x1 ![] bcast_S_S262144x1 : (⟨S_, .f32⟩ : BufTy).Contents (Elt F) → (⟨S262144x1, .f32⟩ : BufTy).Contents (Elt F)),
    StableHlo.binary main_v33 main_v36 main_v37 (addf : (⟨S262144x1, .f32⟩ : BufTy).Contents (Elt F) → (⟨S262144x1, .f32⟩ : BufTy).Contents (Elt F) → (⟨S262144x1, .f32⟩ : BufTy).Contents (Elt F)),
    StableHlo.unary main_v37 main_v38 (Host.rsqrt : (⟨S262144x1, .f32⟩ : BufTy).Contents (Elt F) → (⟨S262144x1, .f32⟩ : BufTy).Contents (Elt F)),
    StableHlo.unary main_v38 main_v39 (broadcastInDim S262144x256 ![0, 1] bcast_S262144x1_S262144x256_0_1 : (⟨S262144x1, .f32⟩ : BufTy).Contents (Elt F) → (⟨S262144x256, .f32⟩ : BufTy).Contents (Elt F)),
    StableHlo.binary main_v35 main_v39 main_v40 (mulf : (⟨S262144x256, .f32⟩ : BufTy).Contents (Elt F) → (⟨S262144x256, .f32⟩ : BufTy).Contents (Elt F) → (⟨S262144x256, .f32⟩ : BufTy).Contents (Elt F)),
    StableHlo.nullary main_cst_10 (constant S_ .f32 0x3C23D70A#32),
    StableHlo.TRef.nullary main_call1.cst (constant S_ .f32 0x00000000#32),
    StableHlo.TRef.unary main_call1.cst main_call1.v0 (broadcastInDim S262144x256 ![] bcast_S_S262144x256),
    StableHlo.TRef.binary (.of main_v40 : StableHlo.TRef sig ⟨S262144x256, .f32⟩) main_call1.v0 main_call1.v1 (cmpf .oge),
    StableHlo.TRef.unary (.of main_cst_10 : StableHlo.TRef sig ⟨S_, .f32⟩) main_call1.v2 id,
    StableHlo.TRef.unary main_call1.v2 main_call1.v3 (broadcastInDim S262144x256 ![] bcast_S_S262144x256),
    StableHlo.TRef.binary main_call1.v3 (.of main_v40 : StableHlo.TRef sig ⟨S262144x256, .f32⟩) main_call1.v4 mulf,
    StableHlo.TRef.ternary main_call1.v1 (.of main_v40 : StableHlo.TRef sig ⟨S262144x256, .f32⟩) main_call1.v4 main_call1.call0.v0 select ]

/-- The buffers that stage writes: each operation its own result. -/
abbrev NB_W : List (Ref sig .tc) := [main_cst_5, main_v23, main_v24, main_cst_6, main_v25, main_v26, main_v27, main_v28, main_v29, main_cst_7, main_v30, main_v31, main_cst_8, main_v32, main_v33, main_v34, main_v35, main_cst_9, main_v36, main_v37, main_v38, main_v39, main_v40, main_cst_10, main_call1_cst, main_call1_v0, main_call1_v1, main_call1_v2, main_call1_v3, main_call1_v4, main_v41]

theorem opsNB_writes : (opsNB : List (HloOp τ sig (Elt F))).Forall fun op => op.writes ⊆ (NB_W.map (Proc.devRef (τ := τ) .tc)).toFinset := by
  rw [opsNB]
  simp only [List.Forall]
  repeat' apply And.intro
  all_goals (simp only [nullary_writes, unary_writes, binary_writes, ternary_writes, Finset.singleton_subset_iff, List.mem_toFinset]; exact List.mem_map_of_mem (by decide))

/-- A buffer the stage does not write is as it was. -/
theorem NB_keep (V : Valuation τ sig (Elt F)) (r : Ref sig .tc) (h : r ∉ NB_W) :
    after opsNB V (Proc.devRef .tc r) = V (Proc.devRef .tc r) :=
  after_of_writes_sub opsNB V opsNB_writes h

/-- The stage's result, of the buffers it reads, whatever the others hold. -/
theorem NB_out (V : Valuation τ sig (Elt F)) :
    after opsNB V (Proc.devRef .tc main_v41) = normLeakyB (V (Proc.devRef .tc main_v22)) := by
  rw [opsNB]
  after_results_simp
  rfl

/-- The pooling: the zero table, the segment ids as a column, the accumulating scatter. -/
def opsPool : List (HloOp τ sig (Elt F)) :=
  [ StableHlo.nullary main_cst_11 (constant S_ .f32 0x00000000#32),
    StableHlo.unary main_cst_11 main_v42 (broadcastInDim S128x256 ![] bcast_S_S128x256 : (⟨S_, .f32⟩ : BufTy).Contents (Elt F) → (⟨S128x256, .f32⟩ : BufTy).Contents (Elt F)),
    StableHlo.unary main_arg5 main_v43 (broadcastInDim S262144x1 ![0] bcast_S262144_S262144x1_0 : (⟨S262144, .i32⟩ : BufTy).Contents (Elt F) → (⟨S262144x1, .i32⟩ : BufTy).Contents (Elt F)),
    StableHlo.ternary main_v42 main_v43 main_v41 main_v44 ((fun x i u => Host.scatterAdd scatter_S128x256_S262144x1_S262144x256_1_0_0_1 x i u) : (⟨S128x256, .f32⟩ : BufTy).Contents (Elt F) → (⟨S262144x1, .i32⟩ : BufTy).Contents (Elt F) → (⟨S262144x256, .f32⟩ : BufTy).Contents (Elt F) → (⟨S128x256, .f32⟩ : BufTy).Contents (Elt F)) ]

/-- The buffers that stage writes: each operation its own result. -/
abbrev Pool_W : List (Ref sig .tc) := [main_cst_11, main_v42, main_v43, main_v44]

theorem opsPool_writes : (opsPool : List (HloOp τ sig (Elt F))).Forall fun op => op.writes ⊆ (Pool_W.map (Proc.devRef (τ := τ) .tc)).toFinset := by
  rw [opsPool]
  simp only [List.Forall]
  repeat' apply And.intro
  all_goals (simp only [nullary_writes, unary_writes, binary_writes, ternary_writes, Finset.singleton_subset_iff, List.mem_toFinset]; exact List.mem_map_of_mem (by decide))

/-- A buffer the stage does not write is as it was. -/
theorem Pool_keep (V : Valuation τ sig (Elt F)) (r : Ref sig .tc) (h : r ∉ Pool_W) :
    after opsPool V (Proc.devRef .tc r) = V (Proc.devRef .tc r) :=
  after_of_writes_sub opsPool V opsPool_writes h

/-- The stage's result, of the buffers it reads, whatever the others hold. -/
theorem Pool_out (V : Valuation τ sig (Elt F)) :
    after opsPool V (Proc.devRef .tc main_v44) = poolR (V (Proc.devRef .tc main_v41)) (V (Proc.devRef .tc main_arg5)) := by
  rw [opsPool]
  after_results_simp
  rfl

/-- The pooled part's first dense layer. -/
def opsL3 : List (HloOp τ sig (Elt F)) :=
  [ StableHlo.unary main_arg3 main_v45 ((transpose S256x512 [1, 0] · transposes_S512x256_S256x512_1_0) : (⟨S512x256, .f32⟩ : BufTy).Contents (Elt F) → (⟨S256x512, .f32⟩ : BufTy).Contents (Elt F)),
    StableHlo.binary main_v44 main_v45 main_v46 ((fun l r => Host.dotGeneral dot_S128x256_S256x512_S128x512_1_0_0_1_n_n none l r) : (⟨S128x256, .f32⟩ : BufTy).Contents (Elt F) → (⟨S256x512, .f32⟩ : BufTy).Contents (Elt F) → (⟨S128x512, .f32⟩ : BufTy).Contents (Elt F)) ]

/-- The buffers that stage writes: each operation its own result. -/
abbrev L3_W : List (Ref sig .tc) := [main_v45, main_v46]

theorem opsL3_writes : (opsL3 : List (HloOp τ sig (Elt F))).Forall fun op => op.writes ⊆ (L3_W.map (Proc.devRef (τ := τ) .tc)).toFinset := by
  rw [opsL3]
  simp only [List.Forall]
  repeat' apply And.intro
  all_goals (simp only [nullary_writes, unary_writes, binary_writes, ternary_writes, Finset.singleton_subset_iff, List.mem_toFinset]; exact List.mem_map_of_mem (by decide))

/-- A buffer the stage does not write is as it was. -/
theorem L3_keep (V : Valuation τ sig (Elt F)) (r : Ref sig .tc) (h : r ∉ L3_W) :
    after opsL3 V (Proc.devRef .tc r) = V (Proc.devRef .tc r) :=
  after_of_writes_sub opsL3 V opsL3_writes h

/-- The stage's result, of the buffers it reads, whatever the others hold. -/
theorem L3_out (V : Valuation τ sig (Elt F)) :
    after opsL3 V (Proc.devRef .tc main_v46) = Host.dotGeneral dot_S128x256_S256x512_S128x512_1_0_0_1_n_n none (V (Proc.devRef .tc main_v44)) (transpose S256x512 [1, 0] (V (Proc.devRef .tc main_arg3)) transposes_S512x256_S256x512_1_0) := by
  rw [opsL3]
  after_results_simp

/-- The stretch on the pooled first layer's table. -/
def opsNC : List (HloOp τ sig (Elt F)) :=
  [ StableHlo.nullary main_cst_12 (constant S_ .f32 0x00000000#32),
    StableHlo.binary main_v46 main_cst_12 main_v47 ((fun x v => Host.reduceAdd x v reducesTo_S128x512_S128_d1 h_S_) : (⟨S128x512, .f32⟩ : BufTy).Contents (Elt F) → (⟨S_, .f32⟩ : BufTy).Contents (Elt F) → (⟨S128, .f32⟩ : BufTy).Contents (Elt F)),
    StableHlo.unary main_v47 main_v48 (broadcastInDim S128x1 ![0] bcast_S128_S128x1_0 : (⟨S128, .f32⟩ : BufTy).Contents (Elt F) → (⟨S128x1, .f32⟩ : BufTy).Contents (Elt F)),
    StableHlo.nullary main_cst_13 (constant S_ .f32 0x44000000#32),
    StableHlo.unary main_cst_13 main_v49 (broadcastInDim S128x1 ![] bcast_S_S128x1 : (⟨S_, .f32⟩ : BufTy).Contents (Elt F) → (⟨S128x1, .f32⟩ : BufTy).Contents (Elt F)),
    StableHlo.binary main_v48 main_v49 main_v50 (Host.divf : (⟨S128x1, .f32⟩ : BufTy).Contents (Elt F) → (⟨S128x1, .f32⟩ : BufTy).Contents (Elt F) → (⟨S128x1, .f32⟩ : BufTy).Contents (Elt F)),
    StableHlo.unary main_v50 main_v51 (broadcastInDim S128x512 ![0, 1] bcast_S128x1_S128x512_0_1 : (⟨S128x1, .f32⟩ : BufTy).Contents (Elt F) → (⟨S128x512, .f32⟩ : BufTy).Contents (Elt F)),
    StableHlo.binary main_v46 main_v51 main_v52 (subf : (⟨S128x512, .f32⟩ : BufTy).Contents (Elt F) → (⟨S128x512, .f32⟩ : BufTy).Contents (Elt F) → (⟨S128x512, .f32⟩ : BufTy).Contents (Elt F)),
    StableHlo.binary main_v52 main_v52 main_v53 (mulf : (⟨S128x512, .f32⟩ : BufTy).Contents (Elt F) → (⟨S128x512, .f32⟩ : BufTy).Contents (Elt F) → (⟨S128x512, .f32⟩ : BufTy).Contents (Elt F)),
    StableHlo.nullary main_cst_14 (constant S_ .f32 0x00000000#32),
    StableHlo.binary main_v53 main_cst_14 main_v54 ((fun x v => Host.reduceAdd x v reducesTo_S128x512_S128_d1 h_S_) : (⟨S128x512, .f32⟩ : BufTy).Contents (Elt F) → (⟨S_, .f32⟩ : BufTy).Contents (Elt F) → (⟨S128, .f32⟩ : BufTy).Contents (Elt F)),
    StableHlo.unary main_v54 main_v55 (broadcastInDim S128x1 ![0] bcast_S128_S128x1_0 : (⟨S128, .f32⟩ : BufTy).Contents (Elt F) → (⟨S128x1, .f32⟩ : BufTy).Contents (Elt F)),
    StableHlo.nullary main_cst_15 (constant S_ .f32 0x44000000#32),
    StableHlo.unary main_cst_15 main_v56 (broadcastInDim S128x1 ![] bcast_S_S128x1 : (⟨S_, .f32⟩ : BufTy).Contents (Elt F) → (⟨S128x1, .f32⟩ : BufTy).Contents (Elt F)),
    StableHlo.binary main_v55 main_v56 main_v57 (Host.divf : (⟨S128x1, .f32⟩ : BufTy).Contents (Elt F) → (⟨S128x1, .f32⟩ : BufTy).Contents (Elt F) → (⟨S128x1, .f32⟩ : BufTy).Contents (Elt F)),
    StableHlo.unary main_v50 main_v58 (broadcastInDim S128x512 ![0, 1] bcast_S128x1_S128x512_0_1 : (⟨S128x1, .f32⟩ : BufTy).Contents (Elt F) → (⟨S128x512, .f32⟩ : BufTy).Contents (Elt F)),
    StableHlo.binary main_v46 main_v58 main_v59 (subf : (⟨S128x512, .f32⟩ : BufTy).Contents (Elt F) → (⟨S128x512, .f32⟩ : BufTy).Contents (Elt F) → (⟨S128x512, .f32⟩ : BufTy).Contents (Elt F)),
    StableHlo.nullary main_cst_16 (constant S_ .f32 0x3727C5AC#32),
    StableHlo.unary main_cst_16 main_v60 (broadcastInDim S128x1 ![] bcast_S_S128x1 : (⟨S_, .f32⟩ : BufTy).Contents (Elt F) → (⟨S128x1, .f32⟩ : BufTy).Contents (Elt F)),
    StableHlo.binary main_v57 main_v60 main_v61 (addf : (⟨S128x1, .f32⟩ : BufTy).Contents (Elt F) → (⟨S128x1, .f32⟩ : BufTy).Contents (Elt F) → (⟨S128x1, .f32⟩ : BufTy).Contents (Elt F)),
    StableHlo.unary main_v61 main_v62 (Host.rsqrt : (⟨S128x1, .f32⟩ : BufTy).Contents (Elt F) → (⟨S128x1, .f32⟩ : BufTy).Contents (Elt F)),
    StableHlo.unary main_v62 main_v63 (broadcastInDim S128x512 ![0, 1] bcast_S128x1_S128x512_0_1 : (⟨S128x1, .f32⟩ : BufTy).Contents (Elt F) → (⟨S128x512, .f32⟩ : BufTy).Contents (Elt F)),
    StableHlo.binary main_v59 main_v63 main_v64 (mulf : (⟨S128x512, .f32⟩ : BufTy).Contents (Elt F) → (⟨S128x512, .f32⟩ : BufTy).Contents (Elt F) → (⟨S128x512, .f32⟩ : BufTy).Contents (Elt F)),
    StableHlo.nullary main_cst_17 (constant S_ .f32 0x3C23D70A#32),
    StableHlo.TRef.nullary main_call2.cst (constant S_ .f32 0x00000000#32),
    StableHlo.TRef.unary main_call2.cst main_call2.v0 (broadcastInDim S128x512 ![] bcast_S_S128x512),
    StableHlo.TRef.binary (.of main_v64 : StableHlo.TRef sig ⟨S128x512, .f32⟩) main_call2.v0 main_call2.v1 (cmpf .oge),
    StableHlo.TRef.unary (.of main_cst_17 : StableHlo.TRef sig ⟨S_, .f32⟩) main_call2.v2 id,
    StableHlo.TRef.unary main_call2.v2 main_call2.v3 (broadcastInDim S128x512 ![] bcast_S_S128x512),
    StableHlo.TRef.binary main_call2.v3 (.of main_v64 : StableHlo.TRef sig ⟨S128x512, .f32⟩) main_call2.v4 mulf,
    StableHlo.TRef.ternary main_call2.v1 (.of main_v64 : StableHlo.TRef sig ⟨S128x512, .f32⟩) main_call2.v4 main_call2.call0.v0 select ]

/-- The buffers that stage writes: each operation its own result. -/
abbrev NC_W : List (Ref sig .tc) := [main_cst_12, main_v47, main_v48, main_cst_13, main_v49, main_v50, main_v51, main_v52, main_v53, main_cst_14, main_v54, main_v55, main_cst_15, main_v56, main_v57, main_v58, main_v59, main_cst_16, main_v60, main_v61, main_v62, main_v63, main_v64, main_cst_17, main_call2_cst, main_call2_v0, main_call2_v1, main_call2_v2, main_call2_v3, main_call2_v4, main_v65]

theorem opsNC_writes : (opsNC : List (HloOp τ sig (Elt F))).Forall fun op => op.writes ⊆ (NC_W.map (Proc.devRef (τ := τ) .tc)).toFinset := by
  rw [opsNC]
  simp only [List.Forall]
  repeat' apply And.intro
  all_goals (simp only [nullary_writes, unary_writes, binary_writes, ternary_writes, Finset.singleton_subset_iff, List.mem_toFinset]; exact List.mem_map_of_mem (by decide))

/-- A buffer the stage does not write is as it was. -/
theorem NC_keep (V : Valuation τ sig (Elt F)) (r : Ref sig .tc) (h : r ∉ NC_W) :
    after opsNC V (Proc.devRef .tc r) = V (Proc.devRef .tc r) :=
  after_of_writes_sub opsNC V opsNC_writes h

/-- The stage's result, of the buffers it reads, whatever the others hold. -/
theorem NC_out (V : Valuation τ sig (Elt F)) :
    after opsNC V (Proc.devRef .tc main_v65) = normLeakyC (V (Proc.devRef .tc main_v46)) := by
  rw [opsNC]
  after_results_simp
  rfl

/-- The pooled part's second dense layer. -/
def opsL4 : List (HloOp τ sig (Elt F)) :=
  [ StableHlo.unary main_arg4 main_v66 ((transpose S512x128 [1, 0] · transposes_S128x512_S512x128_1_0) : (⟨S128x512, .f32⟩ : BufTy).Contents (Elt F) → (⟨S512x128, .f32⟩ : BufTy).Contents (Elt F)),
    StableHlo.binary main_v65 main_v66 main_v67 ((fun l r => Host.dotGeneral dot_S128x512_S512x128_S128x128_1_0_0_1_n_n none l r) : (⟨S128x512, .f32⟩ : BufTy).Contents (Elt F) → (⟨S512x128, .f32⟩ : BufTy).Contents (Elt F) → (⟨S128x128, .f32⟩ : BufTy).Contents (Elt F)) ]

/-- The buffers that stage writes: each operation its own result. -/
abbrev L4_W : List (Ref sig .tc) := [main_v66, main_v67]

theorem opsL4_writes : (opsL4 : List (HloOp τ sig (Elt F))).Forall fun op => op.writes ⊆ (L4_W.map (Proc.devRef (τ := τ) .tc)).toFinset := by
  rw [opsL4]
  simp only [List.Forall]
  repeat' apply And.intro
  all_goals (simp only [nullary_writes, unary_writes, binary_writes, ternary_writes, Finset.singleton_subset_iff, List.mem_toFinset]; exact List.mem_map_of_mem (by decide))

/-- A buffer the stage does not write is as it was. -/
theorem L4_keep (V : Valuation τ sig (Elt F)) (r : Ref sig .tc) (h : r ∉ L4_W) :
    after opsL4 V (Proc.devRef .tc r) = V (Proc.devRef .tc r) :=
  after_of_writes_sub opsL4 V opsL4_writes h

/-- The stage's result, of the buffers it reads, whatever the others hold. -/
theorem L4_out (V : Valuation τ sig (Elt F)) :
    after opsL4 V (Proc.devRef .tc main_v67) = Host.dotGeneral dot_S128x512_S512x128_S128x128_1_0_0_1_n_n none (V (Proc.devRef .tc main_v65)) (transpose S512x128 [1, 0] (V (Proc.devRef .tc main_arg4)) transposes_S128x512_S512x128_1_0) := by
  rw [opsL4]
  after_results_simp

/-- The stretch on the pooled second layer's table. -/
def opsND : List (HloOp τ sig (Elt F)) :=
  [ StableHlo.nullary main_cst_18 (constant S_ .f32 0x00000000#32),
    StableHlo.binary main_v67 main_cst_18 main_v68 ((fun x v => Host.reduceAdd x v reducesTo_S128x128_S128_d1 h_S_) : (⟨S128x128, .f32⟩ : BufTy).Contents (Elt F) → (⟨S_, .f32⟩ : BufTy).Contents (Elt F) → (⟨S128, .f32⟩ : BufTy).Contents (Elt F)),
    StableHlo.unary main_v68 main_v69 (broadcastInDim S128x1 ![0] bcast_S128_S128x1_0 : (⟨S128, .f32⟩ : BufTy).Contents (Elt F) → (⟨S128x1, .f32⟩ : BufTy).Contents (Elt F)),
    StableHlo.nullary main_cst_19 (constant S_ .f32 0x43000000#32),
    StableHlo.unary main_cst_19 main_v70 (broadcastInDim S128x1 ![] bcast_S_S128x1 : (⟨S_, .f32⟩ : BufTy).Contents (Elt F) → (⟨S128x1, .f32⟩ : BufTy).Contents (Elt F)),
    StableHlo.binary main_v69 main_v70 main_v71 (Host.divf : (⟨S128x1, .f32⟩ : BufTy).Contents (Elt F) → (⟨S128x1, .f32⟩ : BufTy).Contents (Elt F) → (⟨S128x1, .f32⟩ : BufTy).Contents (Elt F)),
    StableHlo.unary main_v71 main_v72 (broadcastInDim S128x128 ![0, 1] bcast_S128x1_S128x128_0_1 : (⟨S128x1, .f32⟩ : BufTy).Contents (Elt F) → (⟨S128x128, .f32⟩ : BufTy).Contents (Elt F)),
    StableHlo.binary main_v67 main_v72 main_v73 (subf : (⟨S128x128, .f32⟩ : BufTy).Contents (Elt F) → (⟨S128x128, .f32⟩ : BufTy).Contents (Elt F) → (⟨S128x128, .f32⟩ : BufTy).Contents (Elt F)),
    StableHlo.binary main_v73 main_v73 main_v74 (mulf : (⟨S128x128, .f32⟩ : BufTy).Contents (Elt F) → (⟨S128x128, .f32⟩ : BufTy).Contents (Elt F) → (⟨S128x128, .f32⟩ : BufTy).Contents (Elt F)),
    StableHlo.nullary main_cst_20 (constant S_ .f32 0x00000000#32),
    StableHlo.binary main_v74 main_cst_20 main_v75 ((fun x v => Host.reduceAdd x v reducesTo_S128x128_S128_d1 h_S_) : (⟨S128x128, .f32⟩ : BufTy).Contents (Elt F) → (⟨S_, .f32⟩ : BufTy).Contents (Elt F) → (⟨S128, .f32⟩ : BufTy).Contents (Elt F)),
    StableHlo.unary main_v75 main_v76 (broadcastInDim S128x1 ![0] bcast_S128_S128x1_0 : (⟨S128, .f32⟩ : BufTy).Contents (Elt F) → (⟨S128x1, .f32⟩ : BufTy).Contents (Elt F)),
    StableHlo.nullary main_cst_21 (constant S_ .f32 0x43000000#32),
    StableHlo.unary main_cst_21 main_v77 (broadcastInDim S128x1 ![] bcast_S_S128x1 : (⟨S_, .f32⟩ : BufTy).Contents (Elt F) → (⟨S128x1, .f32⟩ : BufTy).Contents (Elt F)),
    StableHlo.binary main_v76 main_v77 main_v78 (Host.divf : (⟨S128x1, .f32⟩ : BufTy).Contents (Elt F) → (⟨S128x1, .f32⟩ : BufTy).Contents (Elt F) → (⟨S128x1, .f32⟩ : BufTy).Contents (Elt F)),
    StableHlo.unary main_v71 main_v79 (broadcastInDim S128x128 ![0, 1] bcast_S128x1_S128x128_0_1 : (⟨S128x1, .f32⟩ : BufTy).Contents (Elt F) → (⟨S128x128, .f32⟩ : BufTy).Contents (Elt F)),
    StableHlo.binary main_v67 main_v79 main_v80 (subf : (⟨S128x128, .f32⟩ : BufTy).Contents (Elt F) → (⟨S128x128, .f32⟩ : BufTy).Contents (Elt F) → (⟨S128x128, .f32⟩ : BufTy).Contents (Elt F)),
    StableHlo.nullary main_cst_22 (constant S_ .f32 0x3727C5AC#32),
    StableHlo.unary main_cst_22 main_v81 (broadcastInDim S128x1 ![] bcast_S_S128x1 : (⟨S_, .f32⟩ : BufTy).Contents (Elt F) → (⟨S128x1, .f32⟩ : BufTy).Contents (Elt F)),
    StableHlo.binary main_v78 main_v81 main_v82 (addf : (⟨S128x1, .f32⟩ : BufTy).Contents (Elt F) → (⟨S128x1, .f32⟩ : BufTy).Contents (Elt F) → (⟨S128x1, .f32⟩ : BufTy).Contents (Elt F)),
    StableHlo.unary main_v82 main_v83 (Host.rsqrt : (⟨S128x1, .f32⟩ : BufTy).Contents (Elt F) → (⟨S128x1, .f32⟩ : BufTy).Contents (Elt F)),
    StableHlo.unary main_v83 main_v84 (broadcastInDim S128x128 ![0, 1] bcast_S128x1_S128x128_0_1 : (⟨S128x1, .f32⟩ : BufTy).Contents (Elt F) → (⟨S128x128, .f32⟩ : BufTy).Contents (Elt F)),
    StableHlo.binary main_v80 main_v84 main_v85 (mulf : (⟨S128x128, .f32⟩ : BufTy).Contents (Elt F) → (⟨S128x128, .f32⟩ : BufTy).Contents (Elt F) → (⟨S128x128, .f32⟩ : BufTy).Contents (Elt F)),
    StableHlo.nullary main_cst_23 (constant S_ .f32 0x3C23D70A#32),
    StableHlo.TRef.nullary main_call3.cst (constant S_ .f32 0x00000000#32),
    StableHlo.TRef.unary main_call3.cst main_call3.v0 (broadcastInDim S128x128 ![] bcast_S_S128x128),
    StableHlo.TRef.binary (.of main_v85 : StableHlo.TRef sig ⟨S128x128, .f32⟩) main_call3.v0 main_call3.v1 (cmpf .oge),
    StableHlo.TRef.unary (.of main_cst_23 : StableHlo.TRef sig ⟨S_, .f32⟩) main_call3.v2 id,
    StableHlo.TRef.unary main_call3.v2 main_call3.v3 (broadcastInDim S128x128 ![] bcast_S_S128x128),
    StableHlo.TRef.binary main_call3.v3 (.of main_v85 : StableHlo.TRef sig ⟨S128x128, .f32⟩) main_call3.v4 mulf,
    StableHlo.TRef.ternary main_call3.v1 (.of main_v85 : StableHlo.TRef sig ⟨S128x128, .f32⟩) main_call3.v4 main_call3.call0.v0 select ]

/-- The buffers that stage writes: each operation its own result. -/
abbrev ND_W : List (Ref sig .tc) := [main_cst_18, main_v68, main_v69, main_cst_19, main_v70, main_v71, main_v72, main_v73, main_v74, main_cst_20, main_v75, main_v76, main_cst_21, main_v77, main_v78, main_v79, main_v80, main_cst_22, main_v81, main_v82, main_v83, main_v84, main_v85, main_cst_23, main_call3_cst, main_call3_v0, main_call3_v1, main_call3_v2, main_call3_v3, main_call3_v4, main_v86]

theorem opsND_writes : (opsND : List (HloOp τ sig (Elt F))).Forall fun op => op.writes ⊆ (ND_W.map (Proc.devRef (τ := τ) .tc)).toFinset := by
  rw [opsND]
  simp only [List.Forall]
  repeat' apply And.intro
  all_goals (simp only [nullary_writes, unary_writes, binary_writes, ternary_writes, Finset.singleton_subset_iff, List.mem_toFinset]; exact List.mem_map_of_mem (by decide))

/-- A buffer the stage does not write is as it was. -/
theorem ND_keep (V : Valuation τ sig (Elt F)) (r : Ref sig .tc) (h : r ∉ ND_W) :
    after opsND V (Proc.devRef .tc r) = V (Proc.devRef .tc r) :=
  after_of_writes_sub opsND V opsND_writes h

/-- The stage's result, of the buffers it reads, whatever the others hold. -/
theorem ND_out (V : Valuation τ sig (Elt F)) :
    after opsND V (Proc.devRef .tc main_v86) = normLeakyD (V (Proc.devRef .tc main_v67)) := by
  rw [opsND]
  after_results_simp
  rfl

/-- The program's line is the nine stages in a row. -/
theorem ops_split : (ops : List (HloOp τ sig (Elt F))) = opsL1 ++ opsNA ++ opsL2 ++ opsNB ++ opsPool ++ opsL3 ++ opsNC ++ opsL4 ++ opsND := rfl

/-- The result buffer after the whole line: the stages' results chained, each later stage finding the arguments
    and the table before it as the earlier stages left them. -/
theorem out_eq (V : Valuation τ sig (Elt F)) :
    after ops V (Proc.devRef .tc main_v86)
      = refOut (V (Proc.devRef .tc main_arg0)) (V (Proc.devRef .tc main_arg1)) (V (Proc.devRef .tc main_arg2)) (V (Proc.devRef .tc main_arg3)) (V (Proc.devRef .tc main_arg4)) (V (Proc.devRef .tc main_arg5)) := by
  rw [ops_split]
  simp only [after_append]
  rw [ND_out, L4_out, NC_out, L3_out, Pool_out, NB_out, L2_out, NA_out, L1_out]
  rw [NC_keep _ main_arg4 (by decide), L3_keep _ main_arg4 (by decide), Pool_keep _ main_arg4 (by decide), NB_keep _ main_arg4 (by decide), L2_keep _ main_arg4 (by decide), NA_keep _ main_arg4 (by decide), L1_keep _ main_arg4 (by decide)]
  rw [Pool_keep _ main_arg3 (by decide), NB_keep _ main_arg3 (by decide), L2_keep _ main_arg3 (by decide), NA_keep _ main_arg3 (by decide), L1_keep _ main_arg3 (by decide)]
  rw [NB_keep _ main_arg5 (by decide), L2_keep _ main_arg5 (by decide), NA_keep _ main_arg5 (by decide), L1_keep _ main_arg5 (by decide)]
  rw [NA_keep _ main_arg2 (by decide), L1_keep _ main_arg2 (by decide)]
  rfl

/-- No operation writes argument 0. -/
theorem arg0_eq (V : Valuation τ sig (Elt F)) :
    after ops V (Proc.devRef .tc main_arg0) = V (Proc.devRef .tc main_arg0) := by
  rw [ops_split]
  simp only [after_append]
  rw [ND_keep _ main_arg0 (by decide), L4_keep _ main_arg0 (by decide), NC_keep _ main_arg0 (by decide), L3_keep _ main_arg0 (by decide), Pool_keep _ main_arg0 (by decide), NB_keep _ main_arg0 (by decide), L2_keep _ main_arg0 (by decide), NA_keep _ main_arg0 (by decide), L1_keep _ main_arg0 (by decide)]

/-- No operation writes argument 1. -/
theorem arg1_eq (V : Valuation τ sig (Elt F)) :
    after ops V (Proc.devRef .tc main_arg1) = V (Proc.devRef .tc main_arg1) := by
  rw [ops_split]
  simp only [after_append]
  rw [ND_keep _ main_arg1 (by decide), L4_keep _ main_arg1 (by decide), NC_keep _ main_arg1 (by decide), L3_keep _ main_arg1 (by decide), Pool_keep _ main_arg1 (by decide), NB_keep _ main_arg1 (by decide), L2_keep _ main_arg1 (by decide), NA_keep _ main_arg1 (by decide), L1_keep _ main_arg1 (by decide)]

/-- No operation writes argument 2. -/
theorem arg2_eq (V : Valuation τ sig (Elt F)) :
    after ops V (Proc.devRef .tc main_arg2) = V (Proc.devRef .tc main_arg2) := by
  rw [ops_split]
  simp only [after_append]
  rw [ND_keep _ main_arg2 (by decide), L4_keep _ main_arg2 (by decide), NC_keep _ main_arg2 (by decide), L3_keep _ main_arg2 (by decide), Pool_keep _ main_arg2 (by decide), NB_keep _ main_arg2 (by decide), L2_keep _ main_arg2 (by decide), NA_keep _ main_arg2 (by decide), L1_keep _ main_arg2 (by decide)]

/-- No operation writes argument 3. -/
theorem arg3_eq (V : Valuation τ sig (Elt F)) :
    after ops V (Proc.devRef .tc main_arg3) = V (Proc.devRef .tc main_arg3) := by
  rw [ops_split]
  simp only [after_append]
  rw [ND_keep _ main_arg3 (by decide), L4_keep _ main_arg3 (by decide), NC_keep _ main_arg3 (by decide), L3_keep _ main_arg3 (by decide), Pool_keep _ main_arg3 (by decide), NB_keep _ main_arg3 (by decide), L2_keep _ main_arg3 (by decide), NA_keep _ main_arg3 (by decide), L1_keep _ main_arg3 (by decide)]

/-- No operation writes argument 4. -/
theorem arg4_eq (V : Valuation τ sig (Elt F)) :
    after ops V (Proc.devRef .tc main_arg4) = V (Proc.devRef .tc main_arg4) := by
  rw [ops_split]
  simp only [after_append]
  rw [ND_keep _ main_arg4 (by decide), L4_keep _ main_arg4 (by decide), NC_keep _ main_arg4 (by decide), L3_keep _ main_arg4 (by decide), Pool_keep _ main_arg4 (by decide), NB_keep _ main_arg4 (by decide), L2_keep _ main_arg4 (by decide), NA_keep _ main_arg4 (by decide), L1_keep _ main_arg4 (by decide)]

/-- No operation writes argument 5. -/
theorem arg5_eq (V : Valuation τ sig (Elt F)) :
    after ops V (Proc.devRef .tc main_arg5) = V (Proc.devRef .tc main_arg5) := by
  rw [ops_split]
  simp only [after_append]
  rw [ND_keep _ main_arg5 (by decide), L4_keep _ main_arg5 (by decide), NC_keep _ main_arg5 (by decide), L3_keep _ main_arg5 (by decide), Pool_keep _ main_arg5 (by decide), NB_keep _ main_arg5 (by decide), L2_keep _ main_arg5 (by decide), NA_keep _ main_arg5 (by decide), L1_keep _ main_arg5 (by decide)]

/-- On every device, for any float values, from any memory with zero counters: every weakly fair execution of the
    program terminates with its result buffer at `refOut` of the arguments' launch contents and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v86) = refOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v86).trans (out_eq _), (h c main_arg0).trans (arg0_eq _),
      (h c main_arg1).trans (arg1_eq _), (h c main_arg2).trans (arg2_eq _), (h c main_arg3).trans (arg3_eq _),
      (h c main_arg4).trans (arg4_eq _), (h c main_arg5).trans (arg5_eq _)⟩)
    (run_raw m ρ)

end Cert.ReferenceIdeal.Hand

end
-- ==== Proof.KIPieces.lean ====
import proofs.«407833_j86303072845932_1_alg».proof.Proof.KIFrm
import Idealize.ShloMosaic.Lib.Pipeline.Value

-- membership in a rectangle of full extents: the elaborator's structural look recurses once per coordinate of the long axes
set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The found pieces read back as the body's payloads

Each case's run found the pieces the body's stores leave in the output block. Read back, they are the body's own
arithmetic: the per-segment sums of this tile's normalised rows added to what the block held — the running sum of the
earlier tiles in the accumulating case, the zero block in the reset case (the body reads back the zeros it has just
stored). -/

theorem hz2 : (![0, 0] : Fin 2 → Nat) = fun _ => 0 := funext fun a => by fin_cases a <;> rfl
theorem hz3 : (![0, 0, 0] : Fin 3 → Nat) = fun _ => 0 := funext fun a => by fin_cases a <;> rfl

/-- THE ACCUMULATING CASE's value: in the output's staging buffer holding `xo` the body leaves the tile's segment sums
    added to `xo` — its one covering store's payload, whose loads read the whole buffers. -/
theorem out_B (c : Dev nD) (i : grid0.Coords) (a2 : Memref sig .tc .vmem S1024x256 .f32) (h2 : a2.IsWhole) (a3 : Memref sig .tc .vmem S1024x1 .i32) (h3 : a3.IsWhole) (a4 : Memref sig .tc .vmem S256x512 .bf16) (h4 : a4.IsWhole) (a5 : Memref sig .tc .vmem S512x256 .bf16) (h5 : a5.IsWhole) (a6 : Memref sig .tc .vmem S1x128x256 .f32) (h6 : a6.IsWhole) (hc : ¬cond0_0 i)
    (x0 : Vec F S1024x256 .f32) (x1 : Vec F S1024x1 .i32) (x2 : Vec F S256x512 .bf16) (x3 : Vec F S512x256 .bf16) (xo : Vec F S1x128x256 .f32) :
    out0_B_4 c i a2 h2 a3 h3 a4 h4 a5 h5 a6 h6 hc x0 x1 x2 x3 xo
      = k0_pay1 (k0_pay3 x0 x2 x3) (k0_pay4 x0 x2 x3) (k0_pay5 (F := F)) x1 xo := by
  unfold out0_B_4
  rw [View.read_writes_eq_canon _ _ _ (cover0_B_4 c i a2 h2 a3 h3 a4 h4 a5 h5 a6 h6 hc x0 x1 x2 x3 xo)]
  unfold kernelRun0_B
  dsimp only
  sl_unfold_words
  rw [View.canon_unit_zero hz3]
  simp only [View.readAt_eq_ld, h2.read_unread, h3.read_unread, h4.read_unread, h5.read_unread, h6.read_unread,
    View.ld_unit_zero (S := S1024x256) hz2, View.ld_unit_zero (S := S1024x1) hz2, View.ld_unit_zero (S := S256x512) hz2,
    View.ld_unit_zero (S := S512x256) hz2, View.ld_unit_zero (S := S1x128x256) hz3]

/-- THE RESET CASE's value: the body stores the zero block, reads it back, and leaves the tile's segment sums added to
    the zeros — whatever the buffer held on entry is gone. -/
theorem out_A (c : Dev nD) (i : grid0.Coords) (a2 : Memref sig .tc .vmem S1024x256 .f32) (h2 : a2.IsWhole) (a3 : Memref sig .tc .vmem S1024x1 .i32) (h3 : a3.IsWhole) (a4 : Memref sig .tc .vmem S256x512 .bf16) (h4 : a4.IsWhole) (a5 : Memref sig .tc .vmem S512x256 .bf16) (h5 : a5.IsWhole) (a6 : Memref sig .tc .vmem S1x128x256 .f32) (h6 : a6.IsWhole) (hc : cond0_0 i)
    (x0 : Vec F S1024x256 .f32) (x1 : Vec F S1024x1 .i32) (x2 : Vec F S256x512 .bf16) (x3 : Vec F S512x256 .bf16) :
    out0_A_4 c i a2 h2 a3 h3 a4 h4 a5 h5 a6 h6 hc x0 x1 x2 x3
      = k0_pay1 (k0_pay3 x0 x2 x3) (k0_pay4 x0 x2 x3) (k0_pay5 (F := F)) x1 (k0_pay2 (F := F)) := by
  unfold out0_A_4
  rw [View.read_writes_eq_canon _ _ _ (cover0_A_4 c i a2 h2 a3 h3 a4 h4 a5 h5 a6 h6 hc x0 x1 x2 x3)]
  unfold kernelRun0_A
  dsimp only
  sl_unfold_words
  rw [View.canon_cons_unit_zero (S := S1x128x256) hz3, View.readCov_unit_zero (S := S1x128x256) _ hz3]
  simp only [View.readAt_eq_ld, h2.read_unread, h3.read_unread, h4.read_unread, h5.read_unread, h6.read_unread,
    View.ld_unit_zero (S := S1024x256) hz2, View.ld_unit_zero (S := S1024x1) hz2, View.ld_unit_zero (S := S256x512) hz2,
    View.ld_unit_zero (S := S512x256) hz2, View.ld_unit_zero (S := S1x128x256) hz3]

end Cert.KernelIdeal.Frm

end
-- ==== Proof.KIBlocks.lean ====
/-
  The blocks the kernel body is handed, read at an index. The grid's point `t` is tile `t` of 1024 rows: the
  features window's block there is rows 1024·t … 1024·t + 1023 of the features, the segment-id window's the same
  rows of the ids (reshaped to a column by the host), each weight window's one block the whole transposed weight
  the host made, and the output window's block the half `t / 128` of the [2, 128, 256] array of partial tables.
-/
import proofs.«407833_j86303072845932_1_alg».proof.Proof.KIKit
import Idealize.ShloMosaic.Lib.ValueIdx
import Idealize.ShloMosaic.Lib.Pipeline.Value
import Idealize.ShloMosaic.Lib.StableHlo.Run

set_option maxRecDepth 16384

noncomputable section

namespace Cert.KernelIdeal.Frm

open Cert.KernelIdeal Cert.KernelIdeal.Gen
open Idealize.ShloMosaic Idealize.ShloMosaic.TcCoe Idealize.ShloMosaic.ValueIdx
open Idealize.SL.Sem
open Idealize.ShloMosaic.Pipeline (Dat)

variable {F : FTy → Type} [FloatOps F]
variable (m : (ℓ : Loc nD τ sig) → Buf (Elt F) ℓ)

/-- The block index maps over the grid: the row-tile windows sit at tile `t`, the weights at their one block, the
    output at the half `t / 128`. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 3) = t.val / 128 ∧ win0_4.index t (1 : Fin 3) = 0 ∧ win0_4.index t (2 : Fin 3) = 0 :=
  (by decide +kernel : ∀ t : Fin grid0.N, _)

/-- The features tile at point `t`, with its literal type. -/
abbrev xblk (c : Dev nD) (t : Fin cfg0.N) : Vec F S1024x256 .f32 := iblk m c 0 t

/-- Entry (r, j) of the features tile at point `t` is entry (1024·t + r, j) of the features. -/
theorem xblk_apply (c : Dev nD) (t : Fin cfg0.N) (r : Fin 1024) (j : Fin 256) (h : 1024 * t.val + r.val < 262144) :
    xblk m c t (ix2 r j) = m ((c : Thread nD τ).loc main_arg0) (ix2 ⟨1024 * t.val + r.val, h⟩ j) := by
  show V m c main_arg0 (((cfg0.win 0).blk t).view.emb (ix2 r j)) = _
  rw [V_main_arg0]
  congr 1
  funext a
  apply Fin.ext
  have hi := idx_facts t
  match a with
  | ⟨0, _⟩ => show win0_0.index t 0 * 1024 + 1 * r.val = 1024 * t.val + r.val; rw [hi.1]; omega
  | ⟨1, _⟩ => show win0_0.index t 1 * 256 + 1 * j.val = j.val; rw [hi.2.1]; omega

/-! ## What the operations before the region leave in the three arrays they make -/

/-- The reshaped segment ids the region finds: the ids at shape [262144, 1]. -/
theorem V_main_v0 (c : Dev nD) :
    (V m c main_v0 : Vec F S262144x1 .i32) = shapeCast S262144x1 (m ((c : Thread nD τ).loc main_arg5)) shapeCasts_S262144_S262144x1 := by
  dsimp only [V, V0]
  simp only [hostOps0, List.flatten_cons, List.flatten_nil, List.append_nil]
  after_results
  rfl

/-- The first weight the region finds: transposed, in the narrower format. -/
theorem V_main_v2 (c : Dev nD) :
    (V m c main_v2 : Vec F S256x512 .bf16)
      = truncf .bf16 (transpose S256x512 [1, 0] (m ((c : Thread nD τ).loc main_arg1)) transposes_S512x256_S256x512_1_0) bitsLt_bf16_f32 := by
  dsimp only [V, V0]
  simp only [hostOps0, List.flatten_cons, List.flatten_nil, List.append_nil]
  after_results

/-- The second weight the region finds: transposed, in the narrower format. -/
theorem V_main_v4 (c : Dev nD) :
    (V m c main_v4 : Vec F S512x256 .bf16)
      = truncf .bf16 (transpose S512x256 [1, 0] (m ((c : Thread nD τ).loc main_arg2)) transposes_S256x512_S512x256_1_0) bitsLt_bf16_f32 := by
  dsimp only [V, V0]
  simp only [hostOps0, List.flatten_cons, List.flatten_nil, List.append_nil]
  after_results

/-! ## The other windows' blocks -/

/-- The segment-id tile at point `t`, with its literal type. -/
abbrev sblk (c : Dev nD) (t : Fin cfg0.N) : Vec F S1024x1 .i32 := iblk m c 1 t
/-- The first weight's one block, with its literal type. -/
abbrev w1blk (c : Dev nD) (t : Fin cfg0.N) : Vec F S256x512 .bf16 := iblk m c 2 t
/-- The second weight's one block, with its literal type. -/
abbrev w2blk (c : Dev nD) (t : Fin cfg0.N) : Vec F S512x256 .bf16 := iblk m c 3 t

/-- Entry (r, 0) of the segment-id tile at point `t` is id 1024·t + r. -/
theorem sblk_apply (c : Dev nD) (t : Fin cfg0.N) (r : Fin 1024) (h : 1024 * t.val + r.val < 262144) :
    sblk m c t (ix2 r (0 : Fin 1)) = m ((c : Thread nD τ).loc main_arg5) (ix1 ⟨1024 * t.val + r.val, h⟩) := by
  show V m c main_v0 (((cfg0.win 1).blk t).view.emb (ix2 r (0 : Fin 1))) = _
  rw [V_main_v0]
  refine shapeCast_apply (s := S262144) (t := S262144x1) _ _ _ (ix1 ⟨1024 * t.val + r.val, h⟩) ?_
  rw [Shape.rowMajor_val_two, Shape.rowMajor_val_one]
  have hi := idx_facts t
  show 1024 * t.val + r.val = (win0_1.index t 0 * 1024 + 1 * r.val) * 1 + (win0_1.index t 1 * 1 + 1 * 0)
  rw [hi.2.2.1, hi.2.2.2.1]; omega

section AtIdeal

variable (mI : (ℓ : Loc nD τ sig) → Buf (Elt Ideal) ℓ)

/-- At the ideal values, entry (j, k) of the first weight's block is weight (k, j) of the first layer: the transpose,
    the change of format being the identity there. -/
theorem w1blk_apply (c : Dev nD) (t : Fin cfg0.N) (j : Fin 256) (k : Fin 512) :
    w1blk mI c t (ix2 j k) = mI ((c : Thread nD τ).loc main_arg1) (ix2 k j) := by
  show V mI c main_v2 (((cfg0.win 2).blk t).view.emb (ix2 j k)) = _
  rw [V_main_v2]
  show transpose S256x512 [1, 0] _ _ _ = _
  refine transpose_apply [1, 0] _ _ _ (ix2 k j) fun b => ?_
  have hi := idx_facts t
  match b with
  | ⟨0, _⟩ => show j.val = win0_2.index t 0 * 256 + 1 * j.val; rw [hi.2.2.2.2.1]; omega
  | ⟨1, _⟩ => show k.val = win0_2.index t 1 * 512 + 1 * k.val; rw [hi.2.2.2.2.2.1]; omega

/-- At the ideal values, entry (k, c) of the second weight's block is weight (c, k) of the second layer. -/
theorem w2blk_apply (c : Dev nD) (t : Fin cfg0.N) (k : Fin 512) (c' : Fin 256) :
    w2blk mI c t (ix2 k c') = mI ((c : Thread nD τ).loc main_arg2) (ix2 c' k) := by
  show V mI c main_v4 (((cfg0.win 3).blk t).view.emb (ix2 k c')) = _
  rw [V_main_v4]
  show transpose S512x256 [1, 0] _ _ _ = _
  refine transpose_apply [1, 0] _ _ _ (ix2 c' k) fun b => ?_
  have hi := idx_facts t
  match b with
  | ⟨0, _⟩ => show k.val = win0_3.index t 0 * 512 + 1 * k.val; rw [hi.2.2.2.2.2.2.1]; omega
  | ⟨1, _⟩ => show c'.val = win0_3.index t 1 * 256 + 1 * c'.val; rw [hi.2.2.2.2.2.2.2.1]; omega

end AtIdeal

end Cert.KernelIdeal.Frm

end
-- ==== Proof.KITail.lean ====
/-
  The host part of the kernel's program after the pallas_call, as stage functions: the two per-core partial
  tables [2, 128, 256] summed along their first axis from the zero word (`sumHalves`), then the pooled part
  (`rhoK`): a dense layer of weights [512, 256] (transposed), one normalisation-and-rectifier stretch
  (`Cert.Stage.normLeaky`) on the [128, 512] table, a dense layer of weights [128, 512] (transposed), the stretch
  on the [128, 128] table. `kernelOut` is the program's result of the partial tables and the two weights.
-/
import proofs.«407833_j86303072845932_1_alg».proof.Proof.Gen.KernelIdeal
import proofs.«407833_j86303072845932_1_alg».proof.Proof.Stages

noncomputable section

namespace Cert.KernelIdeal.Hand

open Idealize.ShloMosaic Cert.KernelIdeal Cert.KernelIdeal.Gen Cert.Stage

variable {F : FTy → Type} [FloatOps F]

/-- The two cores' partial tables summed entry by entry, from the zero word. -/
def sumHalves (o : FVec F S2x128x256 .f32) : FVec F S128x256 .f32 :=
  Host.reduceAdd o (constant S_ .f32 0x00000000#32) reducesTo_S2x128x256_S128x256_d0 h_S_

/-- The pooled part: the [128, 256] table through a layer of weights [512, 256], the stretch, a layer of weights
    [128, 512], the stretch. -/
def rhoK (s : FVec F S128x256 .f32) (w3 : FVec F S512x256 .f32) (w4 : FVec F S128x512 .f32) : FVec F S128x128 .f32 :=
  normLeaky 128 128 0x43000000#32 reducesTo_S128x128_S128_d1 h_S_ bcast_S128_S128x1_0 bcast_S_S128x1
    bcast_S128x1_S128x128_0_1 bcast_S_S128x128
    (Host.dotGeneral dot_S128x512_S512x128_S128x128_1_0_0_1_n_n none
      (normLeaky 128 512 0x44000000#32 reducesTo_S128x512_S128_d1 h_S_ bcast_S128_S128x1_0 bcast_S_S128x1
        bcast_S128x1_S128x512_0_1 bcast_S_S128x512
        (Host.dotGeneral dot_S128x256_S256x512_S128x512_1_0_0_1_n_n none s
          (transpose S256x512 [1, 0] w3 transposes_S512x256_S256x512_1_0)))
      (transpose S512x128 [1, 0] w4 transposes_S128x512_S512x128_1_0))

/-- The kernel program's result of the partial tables and the pooled part's weights. -/
def kernelOut (o : FVec F S2x128x256 .f32) (w3 : FVec F S512x256 .f32) (w4 : FVec F S128x512 .f32) : FVec F S128x128 .f32 :=
  rhoK (sumHalves o) w3 w4

end Cert.KernelIdeal.Hand

end
-- ==== Proof.KIHost.lean ====
/-
  The host operations of the kernel's program read back over an arbitrary valuation of the device's buffers.

  Before the region the program reshapes the index vector into a column (main_v0) and transposes each of the two
  per-row layer weights and rounds it to bf16 (main_v2, main_v4); it writes no argument. After the region it sums the
  two partial tables, applies a dense layer, a normalisation-and-rectifier stretch, a second dense layer and a second
  stretch. Every stretch reads its input several times, so the operations are read back stage by stage: each stage's
  result as a function of the buffers the stage reads, and the buffers a stage does not write left as they were; the
  four stages then compose to `kernelOut`.
-/
import proofs.«407833_j86303072845932_1_alg».proof.Proof.Gen.KernelIdeal.Launch
import proofs.«407833_j86303072845932_1_alg».proof.Proof.KITail
import Idealize.ShloMosaic.Lib.StableHlo.Run
import Idealize.ShloMosaic.Lib.Pipeline.Frame

set_option maxRecDepth 16384

noncomputable section

namespace Cert.KernelIdeal.Hand

open Idealize.ShloMosaic Idealize.ShloMosaic.StableHlo Cert.KernelIdeal Cert.KernelIdeal.Gen Cert.Stage

variable {F : FTy → Type} [FloatOps F]

/-! ## The operations before the region -/

/-- The index vector as a column. -/
theorem pre_v0 (W : Valuation τ sig (Elt F)) :
    StableHlo.after (hostOps0 (F := F)) W (Proc.devRef .tc main_v0)
      = shapeCast S262144x1 (W (Proc.devRef .tc main_arg5)) shapeCasts_S262144_S262144x1 := by
  after_results
  rfl

/-- The first layer's weights, transposed and rounded to bf16. -/
theorem pre_v2 (W : Valuation τ sig (Elt F)) :
    StableHlo.after (hostOps0 (F := F)) W (Proc.devRef .tc main_v2)
      = truncf .bf16 (transpose S256x512 [1, 0] (W (Proc.devRef .tc main_arg1)) transposes_S512x256_S256x512_1_0) bitsLt_bf16_f32 := by
  after_results

/-- The second layer's weights, transposed and rounded to bf16. -/
theorem pre_v4 (W : Valuation τ sig (Elt F)) :
    StableHlo.after (hostOps0 (F := F)) W (Proc.devRef .tc main_v4)
      = truncf .bf16 (transpose S512x256 [1, 0] (W (Proc.devRef .tc main_arg2)) transposes_S256x512_S512x256_1_0) bitsLt_bf16_f32 := by
  after_results

/-- The arguments the region and the later operations read are not written. -/
theorem pre_arg0 (W : Valuation τ sig (Elt F)) :
    StableHlo.after (hostOps0 (F := F)) W (Proc.devRef .tc main_arg0) = W (Proc.devRef .tc main_arg0) := by
  after_results
theorem pre_arg3 (W : Valuation τ sig (Elt F)) :
    StableHlo.after (hostOps0 (F := F)) W (Proc.devRef .tc main_arg3) = W (Proc.devRef .tc main_arg3) := by
  after_results
theorem pre_arg4 (W : Valuation τ sig (Elt F)) :
    StableHlo.after (hostOps0 (F := F)) W (Proc.devRef .tc main_arg4) = W (Proc.devRef .tc main_arg4) := by
  after_results
theorem pre_keep (W : Valuation τ sig (Elt F)) (b : Ref sig .tc) (hb : b = main_arg0 ∨ b = main_arg3 ∨ b = main_arg4) :
    StableHlo.after (hostOps0 (F := F)) W (Proc.devRef .tc b) = W (Proc.devRef .tc b) := by
  rcases hb with rfl | rfl | rfl
  · exact pre_arg0 W
  · exact pre_arg3 W
  · exact pre_arg4 W

/-! ## The operations after the region, in four stages -/

/-- The partial tables summed and the first dense layer: the zero word, the sum along axis 0, the weights transposed, the product. -/
abbrev stage1 : List (HloOp τ sig (Elt F)) :=
  [ StableHlo.nullary main_cst (constant S_ .f32 0x00000000#32),
    StableHlo.binary main_v5 main_cst main_v6 ((fun x v => Host.reduceAdd x v reducesTo_S2x128x256_S128x256_d0 h_S_) : (⟨S2x128x256, .f32⟩ : BufTy).Contents (Elt F) → (⟨S_, .f32⟩ : BufTy).Contents (Elt F) → (⟨S128x256, .f32⟩ : BufTy).Contents (Elt F)),
    StableHlo.unary main_arg3 main_v7 ((transpose S256x512 [1, 0] · transposes_S512x256_S256x512_1_0) : (⟨S512x256, .f32⟩ : BufTy).Contents (Elt F) → (⟨S256x512, .f32⟩ : BufTy).Contents (Elt F)),
    StableHlo.binary main_v6 main_v7 main_v8 ((fun l r => Host.dotGeneral dot_S128x256_S256x512_S128x512_1_0_0_1_n_n none l r) : (⟨S128x256, .f32⟩ : BufTy).Contents (Elt F) → (⟨S256x512, .f32⟩ : BufTy).Contents (Elt F) → (⟨S128x512, .f32⟩ : BufTy).Contents (Elt F)) ]
/-- The normalisation-and-rectifier stretch over the [128, 512] table main_v8, ending in the select into main_v31. -/
abbrev stage2 : List (HloOp τ sig (Elt F)) :=
  [ StableHlo.nullary main_cst_0 (constant S_ .f32 0x00000000#32),
    StableHlo.binary main_v8 main_cst_0 main_v9 ((fun x v => Host.reduceAdd x v reducesTo_S128x512_S128_d1 h_S_) : (⟨S128x512, .f32⟩ : BufTy).Contents (Elt F) → (⟨S_, .f32⟩ : BufTy).Contents (Elt F) → (⟨S128, .f32⟩ : BufTy).Contents (Elt F)),
    StableHlo.unary main_v9 main_v10 (broadcastInDim S128x1 ![0] bcast_S128_S128x1_0 : (⟨S128, .f32⟩ : BufTy).Contents (Elt F) → (⟨S128x1, .f32⟩ : BufTy).Contents (Elt F)),
    StableHlo.nullary main_cst_1 (constant S_ .f32 0x44000000#32),
    StableHlo.unary main_cst_1 main_v11 (broadcastInDim S128x1 ![] bcast_S_S128x1 : (⟨S_, .f32⟩ : BufTy).Contents (Elt F) → (⟨S128x1, .f32⟩ : BufTy).Contents (Elt F)),
    StableHlo.binary main_v10 main_v11 main_v12 (Host.divf : (⟨S128x1, .f32⟩ : BufTy).Contents (Elt F) → (⟨S128x1, .f32⟩ : BufTy).Contents (Elt F) → (⟨S128x1, .f32⟩ : BufTy).Contents (Elt F)),
    StableHlo.unary main_v12 main_v13 (broadcastInDim S128x512 ![0, 1] bcast_S128x1_S128x512_0_1 : (⟨S128x1, .f32⟩ : BufTy).Contents (Elt F) → (⟨S128x512, .f32⟩ : BufTy).Contents (Elt F)),
    StableHlo.binary main_v8 main_v13 main_v14 (subf : (⟨S128x512, .f32⟩ : BufTy).Contents (Elt F) → (⟨S128x512, .f32⟩ : BufTy).Contents (Elt F) → (⟨S128x512, .f32⟩ : BufTy).Contents (Elt F)),
    StableHlo.binary main_v14 main_v14 main_v15 (mulf : (⟨S128x512, .f32⟩ : BufTy).Contents (Elt F) → (⟨S128x512, .f32⟩ : BufTy).Contents (Elt F) → (⟨S128x512, .f32⟩ : BufTy).Contents (Elt F)),
    StableHlo.nullary main_cst_2 (constant S_ .f32 0x00000000#32),
    StableHlo.binary main_v15 main_cst_2 main_v16 ((fun x v => Host.reduceAdd x v reducesTo_S128x512_S128_d1 h_S_) : (⟨S128x512, .f32⟩ : BufTy).Contents (Elt F) → (⟨S_, .f32⟩ : BufTy).Contents (Elt F) → (⟨S128, .f32⟩ : BufTy).Contents (Elt F)),
    StableHlo.unary main_v16 main_v17 (broadcastInDim S128x1 ![0] bcast_S128_S128x1_0 : (⟨S128, .f32⟩ : BufTy).Contents (Elt F) → (⟨S128x1, .f32⟩ : BufTy).Contents (Elt F)),
    StableHlo.nullary main_cst_3 (constant S_ .f32 0x44000000#32),
    StableHlo.unary main_cst_3 main_v18 (broadcastInDim S128x1 ![] bcast_S_S128x1 : (⟨S_, .f32⟩ : BufTy).Contents (Elt F) → (⟨S128x1, .f32⟩ : BufTy).Contents (Elt F)),
    StableHlo.binary main_v17 main_v18 main_v19 (Host.divf : (⟨S128x1, .f32⟩ : BufTy).Contents (Elt F) → (⟨S128x1, .f32⟩ : BufTy).Contents (Elt F) → (⟨S128x1, .f32⟩ : BufTy).Contents (Elt F)),
    StableHlo.unary main_v12 main_v20 (broadcastInDim S128x512 ![0, 1] bcast_S128x1_S128x512_0_1 : (⟨S128x1, .f32⟩ : BufTy).Contents (Elt F) → (⟨S128x512, .f32⟩ : BufTy).Contents (Elt F)),
    StableHlo.binary main_v8 main_v20 main_v21 (subf : (⟨S128x512, .f32⟩ : BufTy).Contents (Elt F) → (⟨S128x512, .f32⟩ : BufTy).Contents (Elt F) → (⟨S128x512, .f32⟩ : BufTy).Contents (Elt F)),
    StableHlo.nullary main_cst_4 (constant S_ .f32 0x3727C5AC#32),
    StableHlo.unary main_cst_4 main_v22 (broadcastInDim S128x1 ![] bcast_S_S128x1 : (⟨S_, .f32⟩ : BufTy).Contents (Elt F) → (⟨S128x1, .f32⟩ : BufTy).Contents (Elt F)),
    StableHlo.binary main_v19 main_v22 main_v23 (addf : (⟨S128x1, .f32⟩ : BufTy).Contents (Elt F) → (⟨S128x1, .f32⟩ : BufTy).Contents (Elt F) → (⟨S128x1, .f32⟩ : BufTy).Contents (Elt F)),
    StableHlo.unary main_v23 main_v24 (Host.rsqrt : (⟨S128x1, .f32⟩ : BufTy).Contents (Elt F) → (⟨S128x1, .f32⟩ : BufTy).Contents (Elt F)),
    StableHlo.unary main_v24 main_v25 (broadcastInDim S128x512 ![0, 1] bcast_S128x1_S128x512_0_1 : (⟨S128x1, .f32⟩ : BufTy).Contents (Elt F) → (⟨S128x512, .f32⟩ : BufTy).Contents (Elt F)),
    StableHlo.binary main_v21 main_v25 main_v26 (mulf : (⟨S128x512, .f32⟩ : BufTy).Contents (Elt F) → (⟨S128x512, .f32⟩ : BufTy).Contents (Elt F) → (⟨S128x512, .f32⟩ : BufTy).Contents (Elt F)),
    StableHlo.nullary main_cst_5 (constant S_ .f32 0x00000000#32),
    StableHlo.unary main_cst_5 main_v27 (broadcastInDim S128x512 ![] bcast_S_S128x512 : (⟨S_, .f32⟩ : BufTy).Contents (Elt F) → (⟨S128x512, .f32⟩ : BufTy).Contents (Elt F)),
    StableHlo.binary main_v26 main_v27 main_v28 (cmpf .oge : (⟨S128x512, .f32⟩ : BufTy).Contents (Elt F) → (⟨S128x512, .f32⟩ : BufTy).Contents (Elt F) → (⟨S128x512, .i1⟩ : BufTy).Contents (Elt F)),
    StableHlo.nullary main_cst_6 (constant S_ .f32 0x3C23D70A#32),
    StableHlo.unary main_cst_6 main_v29 (broadcastInDim S128x512 ![] bcast_S_S128x512 : (⟨S_, .f32⟩ : BufTy).Contents (Elt F) → (⟨S128x512, .f32⟩ : BufTy).Contents (Elt F)),
    StableHlo.binary main_v29 main_v26 main_v30 (mulf : (⟨S128x512, .f32⟩ : BufTy).Contents (Elt F) → (⟨S128x512, .f32⟩ : BufTy).Contents (Elt F) → (⟨S128x512, .f32⟩ : BufTy).Contents (Elt F)),
    StableHlo.TRef.ternary (.of main_v28 : StableHlo.TRef sig ⟨S128x512, .i1⟩) (.of main_v26 : StableHlo.TRef sig ⟨S128x512, .f32⟩) (.of main_v30 : StableHlo.TRef sig ⟨S128x512, .f32⟩) (.of main_v31 : StableHlo.TRef sig ⟨S128x512, .f32⟩) select ]
/-- The second dense layer: the weights transposed, the product. -/
abbrev stage3 : List (HloOp τ sig (Elt F)) :=
  [ StableHlo.unary main_arg4 main_v32 ((transpose S512x128 [1, 0] · transposes_S128x512_S512x128_1_0) : (⟨S128x512, .f32⟩ : BufTy).Contents (Elt F) → (⟨S512x128, .f32⟩ : BufTy).Contents (Elt F)),
    StableHlo.binary main_v31 main_v32 main_v33 ((fun l r => Host.dotGeneral dot_S128x512_S512x128_S128x128_1_0_0_1_n_n none l r) : (⟨S128x512, .f32⟩ : BufTy).Contents (Elt F) → (⟨S512x128, .f32⟩ : BufTy).Contents (Elt F) → (⟨S128x128, .f32⟩ : BufTy).Contents (Elt F)) ]
/-- The normalisation-and-rectifier stretch over the [128, 128] table main_v33, ending in the select into main_v56. -/
abbrev stage4 : List (HloOp τ sig (Elt F)) :=
  [ StableHlo.nullary main_cst_7 (constant S_ .f32 0x00000000#32),
    StableHlo.binary main_v33 main_cst_7 main_v34 ((fun x v => Host.reduceAdd x v reducesTo_S128x128_S128_d1 h_S_) : (⟨S128x128, .f32⟩ : BufTy).Contents (Elt F) → (⟨S_, .f32⟩ : BufTy).Contents (Elt F) → (⟨S128, .f32⟩ : BufTy).Contents (Elt F)),
    StableHlo.unary main_v34 main_v35 (broadcastInDim S128x1 ![0] bcast_S128_S128x1_0 : (⟨S128, .f32⟩ : BufTy).Contents (Elt F) → (⟨S128x1, .f32⟩ : BufTy).Contents (Elt F)),
    StableHlo.nullary main_cst_8 (constant S_ .f32 0x43000000#32),
    StableHlo.unary main_cst_8 main_v36 (broadcastInDim S128x1 ![] bcast_S_S128x1 : (⟨S_, .f32⟩ : BufTy).Contents (Elt F) → (⟨S128x1, .f32⟩ : BufTy).Contents (Elt F)),
    StableHlo.binary main_v35 main_v36 main_v37 (Host.divf : (⟨S128x1, .f32⟩ : BufTy).Contents (Elt F) → (⟨S128x1, .f32⟩ : BufTy).Contents (Elt F) → (⟨S128x1, .f32⟩ : BufTy).Contents (Elt F)),
    StableHlo.unary main_v37 main_v38 (broadcastInDim S128x128 ![0, 1] bcast_S128x1_S128x128_0_1 : (⟨S128x1, .f32⟩ : BufTy).Contents (Elt F) → (⟨S128x128, .f32⟩ : BufTy).Contents (Elt F)),
    StableHlo.binary main_v33 main_v38 main_v39 (subf : (⟨S128x128, .f32⟩ : BufTy).Contents (Elt F) → (⟨S128x128, .f32⟩ : BufTy).Contents (Elt F) → (⟨S128x128, .f32⟩ : BufTy).Contents (Elt F)),
    StableHlo.binary main_v39 main_v39 main_v40 (mulf : (⟨S128x128, .f32⟩ : BufTy).Contents (Elt F) → (⟨S128x128, .f32⟩ : BufTy).Contents (Elt F) → (⟨S128x128, .f32⟩ : BufTy).Contents (Elt F)),
    StableHlo.nullary main_cst_9 (constant S_ .f32 0x00000000#32),
    StableHlo.binary main_v40 main_cst_9 main_v41 ((fun x v => Host.reduceAdd x v reducesTo_S128x128_S128_d1 h_S_) : (⟨S128x128, .f32⟩ : BufTy).Contents (Elt F) → (⟨S_, .f32⟩ : BufTy).Contents (Elt F) → (⟨S128, .f32⟩ : BufTy).Contents (Elt F)),
    StableHlo.unary main_v41 main_v42 (broadcastInDim S128x1 ![0] bcast_S128_S128x1_0 : (⟨S128, .f32⟩ : BufTy).Contents (Elt F) → (⟨S128x1, .f32⟩ : BufTy).Contents (Elt F)),
    StableHlo.nullary main_cst_10 (constant S_ .f32 0x43000000#32),
    StableHlo.unary main_cst_10 main_v43 (broadcastInDim S128x1 ![] bcast_S_S128x1 : (⟨S_, .f32⟩ : BufTy).Contents (Elt F) → (⟨S128x1, .f32⟩ : BufTy).Contents (Elt F)),
    StableHlo.binary main_v42 main_v43 main_v44 (Host.divf : (⟨S128x1, .f32⟩ : BufTy).Contents (Elt F) → (⟨S128x1, .f32⟩ : BufTy).Contents (Elt F) → (⟨S128x1, .f32⟩ : BufTy).Contents (Elt F)),
    StableHlo.unary main_v37 main_v45 (broadcastInDim S128x128 ![0, 1] bcast_S128x1_S128x128_0_1 : (⟨S128x1, .f32⟩ : BufTy).Contents (Elt F) → (⟨S128x128, .f32⟩ : BufTy).Contents (Elt F)),
    StableHlo.binary main_v33 main_v45 main_v46 (subf : (⟨S128x128, .f32⟩ : BufTy).Contents (Elt F) → (⟨S128x128, .f32⟩ : BufTy).Contents (Elt F) → (⟨S128x128, .f32⟩ : BufTy).Contents (Elt F)),
    StableHlo.nullary main_cst_11 (constant S_ .f32 0x3727C5AC#32),
    StableHlo.unary main_cst_11 main_v47 (broadcastInDim S128x1 ![] bcast_S_S128x1 : (⟨S_, .f32⟩ : BufTy).Contents (Elt F) → (⟨S128x1, .f32⟩ : BufTy).Contents (Elt F)),
    StableHlo.binary main_v44 main_v47 main_v48 (addf : (⟨S128x1, .f32⟩ : BufTy).Contents (Elt F) → (⟨S128x1, .f32⟩ : BufTy).Contents (Elt F) → (⟨S128x1, .f32⟩ : BufTy).Contents (Elt F)),
    StableHlo.unary main_v48 main_v49 (Host.rsqrt : (⟨S128x1, .f32⟩ : BufTy).Contents (Elt F) → (⟨S128x1, .f32⟩ : BufTy).Contents (Elt F)),
    StableHlo.unary main_v49 main_v50 (broadcastInDim S128x128 ![0, 1] bcast_S128x1_S128x128_0_1 : (⟨S128x1, .f32⟩ : BufTy).Contents (Elt F) → (⟨S128x128, .f32⟩ : BufTy).Contents (Elt F)),
    StableHlo.binary main_v46 main_v50 main_v51 (mulf : (⟨S128x128, .f32⟩ : BufTy).Contents (Elt F) → (⟨S128x128, .f32⟩ : BufTy).Contents (Elt F) → (⟨S128x128, .f32⟩ : BufTy).Contents (Elt F)),
    StableHlo.nullary main_cst_12 (constant S_ .f32 0x00000000#32),
    StableHlo.unary main_cst_12 main_v52 (broadcastInDim S128x128 ![] bcast_S_S128x128 : (⟨S_, .f32⟩ : BufTy).Contents (Elt F) → (⟨S128x128, .f32⟩ : BufTy).Contents (Elt F)),
    StableHlo.binary main_v51 main_v52 main_v53 (cmpf .oge : (⟨S128x128, .f32⟩ : BufTy).Contents (Elt F) → (⟨S128x128, .f32⟩ : BufTy).Contents (Elt F) → (⟨S128x128, .i1⟩ : BufTy).Contents (Elt F)),
    StableHlo.nullary main_cst_13 (constant S_ .f32 0x3C23D70A#32),
    StableHlo.unary main_cst_13 main_v54 (broadcastInDim S128x128 ![] bcast_S_S128x128 : (⟨S_, .f32⟩ : BufTy).Contents (Elt F) → (⟨S128x128, .f32⟩ : BufTy).Contents (Elt F)),
    StableHlo.binary main_v54 main_v51 main_v55 (mulf : (⟨S128x128, .f32⟩ : BufTy).Contents (Elt F) → (⟨S128x128, .f32⟩ : BufTy).Contents (Elt F) → (⟨S128x128, .f32⟩ : BufTy).Contents (Elt F)),
    StableHlo.TRef.ternary (.of main_v53 : StableHlo.TRef sig ⟨S128x128, .i1⟩) (.of main_v51 : StableHlo.TRef sig ⟨S128x128, .f32⟩) (.of main_v55 : StableHlo.TRef sig ⟨S128x128, .f32⟩) (.of main_v56 : StableHlo.TRef sig ⟨S128x128, .f32⟩) select ]

/-- The operations after the region are the four stages in a row. -/
theorem tail_eq_stages :
    (List.flatten [hostOps1, hostOps1_1, hostOps1_2, hostOps1_3] : List (HloOp τ sig (Elt F)))
      = stage1 ++ stage2 ++ stage3 ++ stage4 := rfl

/-! ### Each stage's result, over an arbitrary valuation -/

/-- Stage 1 leaves in main_v8 the first dense layer applied to the summed partial tables. -/
theorem stage1_v8 (V : Valuation τ sig (Elt F)) :
    StableHlo.after (stage1 (F := F)) V (Proc.devRef .tc main_v8)
      = Host.dotGeneral dot_S128x256_S256x512_S128x512_1_0_0_1_n_n none (sumHalves (V (Proc.devRef .tc main_v5)))
          (transpose S256x512 [1, 0] (V (Proc.devRef .tc main_arg3)) transposes_S512x256_S256x512_1_0) := by
  after_results
  rfl

/-- Stage 1 does not write the second layer's weights. -/
theorem stage1_arg4 (V : Valuation τ sig (Elt F)) :
    StableHlo.after (stage1 (F := F)) V (Proc.devRef .tc main_arg4) = V (Proc.devRef .tc main_arg4) := by
  after_results

/-- Stage 2 leaves in main_v31 the stretch over the [128, 512] table it found in main_v8 (row length 512). -/
theorem stage2_v31 (V : Valuation τ sig (Elt F)) :
    StableHlo.after (stage2 (F := F)) V (Proc.devRef .tc main_v31)
      = normLeaky 128 512 0x44000000#32 reducesTo_S128x512_S128_d1 h_S_ bcast_S128_S128x1_0 bcast_S_S128x1
          bcast_S128x1_S128x512_0_1 bcast_S_S128x512 (V (Proc.devRef .tc main_v8)) := by
  after_results_simp
  generalize V (Proc.devRef .tc main_v8) = h
  rfl

/-- Stage 2 does not write the second layer's weights. -/
theorem stage2_arg4 (V : Valuation τ sig (Elt F)) :
    StableHlo.after (stage2 (F := F)) V (Proc.devRef .tc main_arg4) = V (Proc.devRef .tc main_arg4) := by
  after_results_simp

/-- Stage 3 leaves in main_v33 the second dense layer applied to main_v31. -/
theorem stage3_v33 (V : Valuation τ sig (Elt F)) :
    StableHlo.after (stage3 (F := F)) V (Proc.devRef .tc main_v33)
      = Host.dotGeneral dot_S128x512_S512x128_S128x128_1_0_0_1_n_n none (V (Proc.devRef .tc main_v31))
          (transpose S512x128 [1, 0] (V (Proc.devRef .tc main_arg4)) transposes_S128x512_S512x128_1_0) := by
  after_results

/-- Stage 4 leaves in main_v56 the stretch over the [128, 128] table it found in main_v33 (row length 128). -/
theorem stage4_v56 (V : Valuation τ sig (Elt F)) :
    StableHlo.after (stage4 (F := F)) V (Proc.devRef .tc main_v56)
      = normLeaky 128 128 0x43000000#32 reducesTo_S128x128_S128_d1 h_S_ bcast_S128_S128x1_0 bcast_S_S128x1
          bcast_S128x1_S128x128_0_1 bcast_S_S128x128 (V (Proc.devRef .tc main_v33)) := by
  after_results_simp
  generalize V (Proc.devRef .tc main_v33) = h
  rfl

/-! ### The four stages composed -/

/-- The program's result after the region, of the partial tables and the two weights as the valuation has them:
    stage 4 of stage 3 of stage 2 of stage 1, the second layer's weights read through stages 1 and 2 unchanged. -/
theorem tail_v56 (W : Valuation τ sig (Elt F)) :
    StableHlo.after (List.flatten [hostOps1, hostOps1_1, hostOps1_2, hostOps1_3] : List (HloOp τ sig (Elt F))) W (Proc.devRef .tc main_v56)
      = kernelOut (W (Proc.devRef .tc main_v5)) (W (Proc.devRef .tc main_arg3)) (W (Proc.devRef .tc main_arg4)) := by
  rw [tail_eq_stages, StableHlo.after_append, StableHlo.after_append, StableHlo.after_append,
    stage4_v56, stage3_v33, stage2_v31, stage2_arg4, stage1_v8, stage1_arg4]
  rfl

end Cert.KernelIdeal.Hand

end
-- ==== Proof.KIPayOps.lean ====
/-
  The tile operations that are not pointwise, each read at one entry.

  A tile here has 1024 rows. Three operations move values between a tile of D columns and a column of 1024
  values: the sum along a row, kept as a column (a lane reduction followed by the cast of a vector of 1024
  entries to 1024 rows of one entry); the spreading of a column over D columns; and the re-reading of the
  pooled block of 128 × 256 entries with or without its leading axis of extent one. Each is an equation between
  one entry of the result and entries of the operand, with the entry named by its coordinates.
-/
import proofs.«407833_j86303072845932_1_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

namespace Cert.KernelIdeal.Pay

open Idealize.ShloMosaic Idealize.ShloMosaic.ValueIdx Cert.KernelIdeal Cert.KernelIdeal.Gen
open scoped BigOperators

/-- A vector of 1024 entries re-read as 1024 rows of one entry: row `r` holds entry `r`. -/
theorem colCast_apply {α : Type} (v : S1024.Idx → α) (h : S1024.ShapeCasts S1024x1) (r : Fin 1024) (u : Fin 1) :
    shapeCast S1024x1 v h (ix2 r u) = v (ix1 r) :=
  shapeCast_apply v h _ _ (by
    have hu : u.val = 0 := by omega
    rw [Shape.rowMajor_val_two, Shape.rowMajor_val_one]
    show r.val = r.val * 1 + u.val
    omega)

/-- A column spread over `D` columns: entry `(r, k)` is the column's entry of row `r`. -/
theorem bcastCol_apply {α : Type} {D : Nat} (v : S1024x1.Idx → α) (h : S1024x1.Broadcasts ⟨2, ![1024, D]⟩)
    (r : Fin 1024) (k : Fin D) :
    broadcastTo ⟨2, ![1024, D]⟩ v h (ix2 r k) = v (ix2 r (0 : Fin 1)) := by
  refine broadcastTo_apply v h (ix2 r k) (ix2 r (0 : Fin 1)) fun ax => ?_
  match ax with
  | ⟨0, _⟩ => rfl
  | ⟨1, _⟩ => rfl

/-- The sum along each row, kept as a column: row `r` holds `Σ_k src (r, k)`. -/
theorem rowSum_apply {D : Nat} (src : FVec Ideal ⟨2, ![1024, D]⟩ .f32) (h : (⟨2, ![1024, D]⟩ : Shape).Reduces [1] S1024)
    (hφ : FKind.Formats .f32) (hacc : (0x00000000#32 : BitVec (FTy.bits .f32)) = FKind.add.neutral .f32 hφ)
    (hc : S1024.ShapeCasts S1024x1) (r : Fin 1024) (u : Fin 1) :
    shapeCast S1024x1 (multiReduction (F := Ideal) .add [1] S1024 src 0x00000000#32 h hφ hacc) hc (ix2 r u)
      = ∑ k : Fin D, src (ix2 r k) := by
  refine (colCast_apply _ hc r u).trans ?_
  refine (Ideal.multiReduction_add_single src 0x00000000#32 h hφ hacc (ix1 r)).trans ?_
  refine Finset.sum_congr rfl fun k _ => congrArg src ?_
  funext a
  match a with
  | ⟨0, _⟩ => rfl
  | ⟨1, _⟩ => rfl

/-- The pooled block without its leading axis: entry `(g, c)` is entry `(0, g, c)`. -/
theorem dropLead_apply {α : Type} (x : S1x128x256.Idx → α) (h : S1x128x256.ShapeCasts S128x256) (g : Fin 128) (c : Fin 256) :
    shapeCast S128x256 x h (ix2 g c) = x (ix3 (0 : Fin 1) g c) :=
  shapeCast_1ab_ab_apply x h g c

/-- The pooled block with a leading axis of extent one: entry `(u, g, c)` is entry `(g, c)`. -/
theorem addLead_apply {α : Type} (x : S128x256.Idx → α) (h : S128x256.ShapeCasts S1x128x256) (u : Fin 1) (g : Fin 128)
    (c : Fin 256) : shapeCast S1x128x256 x h (ix3 u g c) = x (ix2 g c) :=
  shapeCast_ab_1ab_apply x h u g c

end Cert.KernelIdeal.Pay

end
-- ==== Proof.LibDenseLayer.lean ====
/-
  One dense layer followed by rectification, at the ideal values.

  For a matrix `a` of `B` rows and `K` columns and a weight matrix `w` of `N` rows and `K` columns the layer is

      denseRelu a w (r, n) = max (Σ_k a (r, k) · w (n, k)) 0 ,

  i.e. `relu (a · wᵀ)`.  Row `r` of the result depends on row `r` of `a` alone, and column `n` on row `n` of `w`
  alone (`denseRelu_congr`): a block of rows of the result is the layer of that block of rows.

  Two printed spellings of it are read to this form.  Both contract ONE axis, of extent `K`, and the sum over the
  contraction index is re-indexed to `Fin K` through its one coordinate (`contraction_sum`):

  * a kernel's matrix product accumulated into the zero splat, the weight's SECOND axis contracted, then the
    maximum with the zero splat (`matmul_relu_eq`);
  * the host's `dot_general` of `a` with the TRANSPOSE of `w` (so the transpose's FIRST axis is contracted), then the
    maximum with the broadcast zero constant (`dot_transpose_relu_eq`).

  What the two need of the dimension numbers is stated as hypotheses on the operand index maps, coordinate by
  coordinate; for a literal record each is decided by unfolding.  Only `0 + x = x` is used of the arithmetic, so
  both hold at the infinities too.
-/
import Idealize.ShloMosaic.PureOps.Ideal.Laws
import Idealize.ShloMosaic.Lib.ValueIdx
import Idealize.ShloMosaic.Lib.Pipeline.Value

noncomputable section

namespace Cert.Lib

open Idealize.ShloMosaic Idealize.ShloMosaic.ValueIdx
open scoped BigOperators

/-- `relu (a · wᵀ)` on extended reals: entry `(r, n)` is `max (Σ_k a (r, k) · w (n, k)) 0`. -/
def denseRelu {B K N : Nat} (a : (⟨2, ![B, K]⟩ : Shape).Idx → EReal) (w : (⟨2, ![N, K]⟩ : Shape).Idx → EReal) :
    (⟨2, ![B, N]⟩ : Shape).Idx → EReal :=
  fun i => max (∑ k : Fin K, a (ix2 (i 0 : Fin B) k) * w (ix2 (i 1 : Fin N) k)) 0

theorem denseRelu_apply {B K N : Nat} (a : (⟨2, ![B, K]⟩ : Shape).Idx → EReal) (w : (⟨2, ![N, K]⟩ : Shape).Idx → EReal)
    (r : Fin B) (n : Fin N) : denseRelu a w (ix2 r n) = max (∑ k : Fin K, a (ix2 r k) * w (ix2 n k)) 0 := rfl

/-- An entry of the layer depends on one row of each operand: equal rows give equal entries, whatever the two
    operands' other rows (and numbers of rows) are. -/
theorem denseRelu_congr {B B' K N N' : Nat} (a : (⟨2, ![B, K]⟩ : Shape).Idx → EReal) (a' : (⟨2, ![B', K]⟩ : Shape).Idx → EReal)
    (w : (⟨2, ![N, K]⟩ : Shape).Idx → EReal) (w' : (⟨2, ![N', K]⟩ : Shape).Idx → EReal)
    (r : Fin B) (r' : Fin B') (n : Fin N) (n' : Fin N')
    (ha : ∀ k : Fin K, a (ix2 r k) = a' (ix2 r' k)) (hw : ∀ k : Fin K, w (ix2 n k) = w' (ix2 n' k)) :
    denseRelu a w (ix2 r n) = denseRelu a' w' (ix2 r' n') := by
  rw [denseRelu_apply, denseRelu_apply]
  exact congrArg (fun t => max t 0) (Finset.sum_congr rfl fun k _ => by rw [ha k, hw k])

/-- A ONE-AXIS CONTRACTION AS A SUM OVER `Fin K`: if at the result index `j` the two operands, read at the operand
    indices of the contraction position `q`, are `L` and `R` of `q`'s one coordinate, the contraction's sum is
    `Σ_k L k · R k`. -/
theorem contraction_sum {sl sr so : Shape} (d : DotDims sl sr so) (K : Nat) (hrk : d.contr.rank = 1)
    (hsz : d.contr.size ⟨0, by omega⟩ = K) (lhs : sl.Idx → EReal) (rhs : sr.Idx → EReal) (j : so.Idx) (L R : Fin K → EReal)
    (hl : ∀ q : d.contr.Idx, lhs (d.lhsIdx j q) = L ((q ⟨0, by omega⟩).cast hsz))
    (hr : ∀ q : d.contr.Idx, rhs (d.rhsIdx j q) = R ((q ⟨0, by omega⟩).cast hsz)) :
    ∑ q : d.contr.Idx, lhs (d.lhsIdx j q) * rhs (d.rhsIdx j q) = ∑ k : Fin K, L k * R k :=
  (Finset.sum_congr rfl fun q _ => by rw [hl q, hr q]; rfl).trans
    (Equiv.sum_comp (contrEquiv1 d K hrk hsz) fun k => L k * R k)

section Kernel
variable {B K N : Nat} {φ₁ φ₂ : FTy} (d : DotDims ⟨2, ![B, K]⟩ ⟨2, ![N, K]⟩ ⟨2, ![B, N]⟩)
  (hrk : d.contr.rank = 1) (hsz : d.contr.size ⟨0, by omega⟩ = K)
  (hl0 : ∀ (j : (⟨2, ![B, N]⟩ : Shape).Idx) (q : d.contr.Idx), (d.lhsIdx j q 0).val = (j 0).val)
  (hl1 : ∀ (j : (⟨2, ![B, N]⟩ : Shape).Idx) (q : d.contr.Idx), (d.lhsIdx j q 1).val = (q ⟨0, by omega⟩).val)
  (hr0 : ∀ (j : (⟨2, ![B, N]⟩ : Shape).Idx) (q : d.contr.Idx), (d.rhsIdx j q 0).val = (j 1).val)
  (hr1 : ∀ (j : (⟨2, ![B, N]⟩ : Shape).Idx) (q : d.contr.Idx), (d.rhsIdx j q 1).val = (q ⟨0, by omega⟩).val)

include hrk hsz hl0 hl1 hr0 hr1 in
/-- THE KERNEL'S LAYER: the product of `a` (rows × `K`) with `w` (columns × `K`, its second axis contracted)
    accumulated into the zero splat, then the maximum with the zero splat, is `denseRelu a w`. -/
theorem matmul_relu_eq (a : FVec Ideal ⟨2, ![B, K]⟩ φ₁) (w : FVec Ideal ⟨2, ![N, K]⟩ φ₂) :
    maximumf (matmul d none a w (constant ⟨2, ![B, N]⟩ .f32 0x00000000#32))
        (broadcast ⟨2, ![B, N]⟩ (Scalar.ofBits (F := Ideal) .f32 0x00000000#32))
      = denseRelu a w := by
  funext j
  show max (FloatOps.matmul d none a w (constant ⟨2, ![B, N]⟩ .f32 0x00000000#32) j) (Ideal.ofBits .f32 0x00000000#32) = _
  rw [Ideal.matmul_constant_zero_apply, Ideal.ofBits_zero_f32,
    contraction_sum d K hrk hsz a w j (fun k => a (ix2 (j 0 : Fin B) k)) (fun k => w (ix2 (j 1 : Fin N) k))
      (fun q => congrArg a (funext fun ax => Fin.ext (by
        match ax with
        | ⟨0, _⟩ => exact hl0 j q
        | ⟨1, _⟩ => exact hl1 j q)))
      (fun q => congrArg w (funext fun ax => Fin.ext (by
        match ax with
        | ⟨0, _⟩ => exact hr0 j q
        | ⟨1, _⟩ => exact hr1 j q)))]
  rfl

end Kernel

section Host
variable {B K N : Nat} {φ₁ φ₂ : FTy} (d : DotDims ⟨2, ![B, K]⟩ ⟨2, ![K, N]⟩ ⟨2, ![B, N]⟩)
  (hrk : d.contr.rank = 1) (hsz : d.contr.size ⟨0, by omega⟩ = K)
  (hl0 : ∀ (j : (⟨2, ![B, N]⟩ : Shape).Idx) (q : d.contr.Idx), (d.lhsIdx j q 0).val = (j 0).val)
  (hl1 : ∀ (j : (⟨2, ![B, N]⟩ : Shape).Idx) (q : d.contr.Idx), (d.lhsIdx j q 1).val = (q ⟨0, by omega⟩).val)
  (hr0 : ∀ (j : (⟨2, ![B, N]⟩ : Shape).Idx) (q : d.contr.Idx), (d.rhsIdx j q 0).val = (q ⟨0, by omega⟩).val)
  (hr1 : ∀ (j : (⟨2, ![B, N]⟩ : Shape).Idx) (q : d.contr.Idx), (d.rhsIdx j q 1).val = (j 1).val)

include hrk hsz hl0 hl1 hr0 hr1 in
/-- THE HOST'S LAYER: `dot_general` of `a` (rows × `K`) with the transpose of `w` (`K` × columns, its first axis
    contracted), then the maximum with the zero constant broadcast, is `denseRelu a w`. -/
theorem dot_transpose_relu_eq (ht : (⟨2, ![N, K]⟩ : Shape).Transposes [1, 0] ⟨2, ![K, N]⟩)
    (hb : (⟨0, ![]⟩ : Shape).BroadcastsInDim ⟨2, ![B, N]⟩ (![] : Fin 0 → Fin 2))
    (a : FVec Ideal ⟨2, ![B, K]⟩ φ₁) (w : FVec Ideal ⟨2, ![N, K]⟩ φ₂) :
    maximumf (Host.dotGeneral d none a (transpose ⟨2, ![K, N]⟩ [1, 0] w ht))
        (broadcastInDim ⟨2, ![B, N]⟩ ![] hb (constant (F := Ideal) ⟨0, ![]⟩ .f32 0x00000000#32))
      = denseRelu a w := by
  funext j
  show max (FloatOps.dotGeneral d none .single a (transpose ⟨2, ![K, N]⟩ [1, 0] w ht) j) (Ideal.ofBits .f32 0x00000000#32) = _
  rw [Ideal.dotGeneral_apply, Ideal.ofBits_zero_f32,
    contraction_sum d K hrk hsz a (transpose ⟨2, ![K, N]⟩ [1, 0] w ht) j (fun k => a (ix2 (j 0 : Fin B) k))
      (fun k => w (ix2 (j 1 : Fin N) k))
      (fun q => congrArg a (funext fun ax => Fin.ext (by
        match ax with
        | ⟨0, _⟩ => exact hl0 j q
        | ⟨1, _⟩ => exact hl1 j q)))
      (fun q => transpose_apply [1, 0] w ht (d.rhsIdx j q) (ix2 (j 1 : Fin N) ((q ⟨0, by omega⟩).cast hsz)) (fun b => by
        match b with
        | ⟨0, _⟩ => exact (hr0 j q).symm
        | ⟨1, _⟩ => exact (hr1 j q).symm))]
  rfl

end Host

end Cert.Lib

end
-- ==== Proof.KIPayDots.lean ====
/-
  The kernel's three matrix products, each read at one entry.

  Every product is accumulated into a block of zeros and contracts ONE axis, so an entry of the result is a plain
  sum over that axis of products of one entry of each operand:

  * the first layer, a tile of 1024 × 256 against a weight of 256 × 512 (the weight's first axis contracted):
    entry `(r, k)` is `Σ_j a (r, j) · w (j, k)`;
  * the second layer, 1024 × 512 against 512 × 256, the same way: entry `(r, c)` is `Σ_k a (r, k) · w (k, c)`;
  * the pooling product, which contracts the FIRST axis of both operands, 1024 × 128 and 1024 × 256: entry `(g, c)`
    is `Σ_r a (r, g) · b (r, c)`.

  What is needed of each product's dimension numbers is which coordinate of which operand is the contracted one and
  which is the result's; these are the four small facts per product below, one per operand axis.
-/
import proofs.«407833_j86303072845932_1_alg».proof.Proof.Gen.KernelIdeal.Skeleton
import proofs.«407833_j86303072845932_1_alg».proof.Proof.LibDenseLayer
import Idealize.ShloMosaic.Lib.ValueIdx
import Idealize.ShloMosaic.PureOps.Ideal.Laws

set_option maxRecDepth 16384

noncomputable section

namespace Cert.KernelIdeal.Pay

open Idealize.ShloMosaic Idealize.ShloMosaic.ValueIdx Cert.KernelIdeal Cert.KernelIdeal.Gen
open scoped BigOperators

/-- A product into the block of zeros, one axis of extent `K` contracted, at the entry `j`: if the operand entries
    met at contraction position `q` are those at `li` and `ri` of `q`'s one coordinate, the entry is
    `Σ_k a (li k) · w (ri k)`. -/
theorem matmul_zero_apply {sl sr so : Shape} {φ₁ φ₂ : FTy} (d : DotDims sl sr so) (K : Nat) (hrk : d.contr.rank = 1)
    (hsz : d.contr.size ⟨0, by omega⟩ = K) (a : FVec Ideal sl φ₁) (w : FVec Ideal sr φ₂) (j : so.Idx)
    (li : Fin K → sl.Idx) (ri : Fin K → sr.Idx)
    (hl : ∀ q : d.contr.Idx, d.lhsIdx j q = li ((q ⟨0, by omega⟩).cast hsz))
    (hr : ∀ q : d.contr.Idx, d.rhsIdx j q = ri ((q ⟨0, by omega⟩).cast hsz)) :
    matmul d none a w (constant (F := Ideal) so .f32 0x00000000#32) j = ∑ k : Fin K, a (li k) * w (ri k) :=
  (Ideal.matmul_constant_zero_apply d none a w j).trans
    (Cert.Lib.contraction_sum d K hrk hsz a w j (fun k => a (li k)) (fun k => w (ri k))
      (fun q => congrArg a (hl q)) (fun q => congrArg w (hr q)))

/-! ## The first layer: 1024 × 256 against 256 × 512 -/

theorem rank_A : dot_S1024x256_S256x512_S1024x512_1_0_0_1_n_n.contr.rank = 1 := rfl
theorem size_A : dot_S1024x256_S256x512_S1024x512_1_0_0_1_n_n.contr.size ⟨0, by decide⟩ = 256 := rfl

theorem lhs_A_0 (j : S1024x512.Idx) (q : dot_S1024x256_S256x512_S1024x512_1_0_0_1_n_n.contr.Idx) :
    (dot_S1024x256_S256x512_S1024x512_1_0_0_1_n_n.lhsIdx j q 0).val = (j 0).val := by
  simp [DotDims.lhsIdx, dot_S1024x256_S256x512_S1024x512_1_0_0_1_n_n]; rfl
theorem lhs_A_1 (j : S1024x512.Idx) (q : dot_S1024x256_S256x512_S1024x512_1_0_0_1_n_n.contr.Idx) :
    (dot_S1024x256_S256x512_S1024x512_1_0_0_1_n_n.lhsIdx j q 1).val = (q ⟨0, by decide⟩).val :=
  DotDims.lhsIdx_val_of_single dot_S1024x256_S256x512_S1024x512_1_0_0_1_n_n (cl := 1) rfl j q
theorem rhs_A_0 (j : S1024x512.Idx) (q : dot_S1024x256_S256x512_S1024x512_1_0_0_1_n_n.contr.Idx) :
    (dot_S1024x256_S256x512_S1024x512_1_0_0_1_n_n.rhsIdx j q 0).val = (q ⟨0, by decide⟩).val :=
  DotDims.rhsIdx_val_of_single dot_S1024x256_S256x512_S1024x512_1_0_0_1_n_n (cr := 0) rfl j q
theorem rhs_A_1 (j : S1024x512.Idx) (q : dot_S1024x256_S256x512_S1024x512_1_0_0_1_n_n.contr.Idx) :
    (dot_S1024x256_S256x512_S1024x512_1_0_0_1_n_n.rhsIdx j q 1).val = (j 1).val := by
  simp [DotDims.rhsIdx, dot_S1024x256_S256x512_S1024x512_1_0_0_1_n_n]; rfl

/-- The first layer at `(r, k)`: row `r` of the tile against column `k` of the weight. -/
theorem layerA_apply (a : FVec Ideal S1024x256 .bf16) (w : FVec Ideal S256x512 .bf16) (r : Fin 1024) (k : Fin 512) :
    matmul dot_S1024x256_S256x512_S1024x512_1_0_0_1_n_n none a w (constant (F := Ideal) S1024x512 .f32 0x00000000#32) (ix2 r k)
      = ∑ j : Fin 256, a (ix2 r j) * w (ix2 j k) :=
  matmul_zero_apply dot_S1024x256_S256x512_S1024x512_1_0_0_1_n_n 256 rank_A size_A a w (ix2 r k) (fun j => ix2 r j) (fun j => ix2 j k)
    (fun q => funext fun ax => Fin.ext (by
      match ax with
      | ⟨0, _⟩ => exact lhs_A_0 _ _
      | ⟨1, _⟩ => exact lhs_A_1 _ _))
    (fun q => funext fun ax => Fin.ext (by
      match ax with
      | ⟨0, _⟩ => exact rhs_A_0 _ _
      | ⟨1, _⟩ => exact rhs_A_1 _ _))

/-! ## The second layer: 1024 × 512 against 512 × 256 -/

theorem rank_B : dot_S1024x512_S512x256_S1024x256_1_0_0_1_n_n.contr.rank = 1 := rfl
theorem size_B : dot_S1024x512_S512x256_S1024x256_1_0_0_1_n_n.contr.size ⟨0, by decide⟩ = 512 := rfl

theorem lhs_B_0 (j : S1024x256.Idx) (q : dot_S1024x512_S512x256_S1024x256_1_0_0_1_n_n.contr.Idx) :
    (dot_S1024x512_S512x256_S1024x256_1_0_0_1_n_n.lhsIdx j q 0).val = (j 0).val := by
  simp [DotDims.lhsIdx, dot_S1024x512_S512x256_S1024x256_1_0_0_1_n_n]; rfl
theorem lhs_B_1 (j : S1024x256.Idx) (q : dot_S1024x512_S512x256_S1024x256_1_0_0_1_n_n.contr.Idx) :
    (dot_S1024x512_S512x256_S1024x256_1_0_0_1_n_n.lhsIdx j q 1).val = (q ⟨0, by decide⟩).val :=
  DotDims.lhsIdx_val_of_single dot_S1024x512_S512x256_S1024x256_1_0_0_1_n_n (cl := 1) rfl j q
theorem rhs_B_0 (j : S1024x256.Idx) (q : dot_S1024x512_S512x256_S1024x256_1_0_0_1_n_n.contr.Idx) :
    (dot_S1024x512_S512x256_S1024x256_1_0_0_1_n_n.rhsIdx j q 0).val = (q ⟨0, by decide⟩).val :=
  DotDims.rhsIdx_val_of_single dot_S1024x512_S512x256_S1024x256_1_0_0_1_n_n (cr := 0) rfl j q
theorem rhs_B_1 (j : S1024x256.Idx) (q : dot_S1024x512_S512x256_S1024x256_1_0_0_1_n_n.contr.Idx) :
    (dot_S1024x512_S512x256_S1024x256_1_0_0_1_n_n.rhsIdx j q 1).val = (j 1).val := by
  simp [DotDims.rhsIdx, dot_S1024x512_S512x256_S1024x256_1_0_0_1_n_n]; rfl

/-- The second layer at `(r, c)`: row `r` of the tile against column `c` of the weight. -/
theorem layerB_apply (a : FVec Ideal S1024x512 .bf16) (w : FVec Ideal S512x256 .bf16) (r : Fin 1024) (c : Fin 256) :
    matmul dot_S1024x512_S512x256_S1024x256_1_0_0_1_n_n none a w (constant (F := Ideal) S1024x256 .f32 0x00000000#32) (ix2 r c)
      = ∑ k : Fin 512, a (ix2 r k) * w (ix2 k c) :=
  matmul_zero_apply dot_S1024x512_S512x256_S1024x256_1_0_0_1_n_n 512 rank_B size_B a w (ix2 r c) (fun k => ix2 r k) (fun k => ix2 k c)
    (fun q => funext fun ax => Fin.ext (by
      match ax with
      | ⟨0, _⟩ => exact lhs_B_0 _ _
      | ⟨1, _⟩ => exact lhs_B_1 _ _))
    (fun q => funext fun ax => Fin.ext (by
      match ax with
      | ⟨0, _⟩ => exact rhs_B_0 _ _
      | ⟨1, _⟩ => exact rhs_B_1 _ _))

/-! ## The pooling product: the first axis of 1024 × 128 and of 1024 × 256 contracted -/

theorem rank_C : dot_S1024x128_S1024x256_S128x256_0_0_1_1_n_n.contr.rank = 1 := rfl
theorem size_C : dot_S1024x128_S1024x256_S128x256_0_0_1_1_n_n.contr.size ⟨0, by decide⟩ = 1024 := rfl

theorem lhs_C_0 (j : S128x256.Idx) (q : dot_S1024x128_S1024x256_S128x256_0_0_1_1_n_n.contr.Idx) :
    (dot_S1024x128_S1024x256_S128x256_0_0_1_1_n_n.lhsIdx j q 0).val = (q ⟨0, by decide⟩).val :=
  DotDims.lhsIdx_val_of_single dot_S1024x128_S1024x256_S128x256_0_0_1_1_n_n (cl := 0) rfl j q
theorem lhs_C_1 (j : S128x256.Idx) (q : dot_S1024x128_S1024x256_S128x256_0_0_1_1_n_n.contr.Idx) :
    (dot_S1024x128_S1024x256_S128x256_0_0_1_1_n_n.lhsIdx j q 1).val = (j 0).val := by
  simp [DotDims.lhsIdx, dot_S1024x128_S1024x256_S128x256_0_0_1_1_n_n]; rfl
theorem rhs_C_0 (j : S128x256.Idx) (q : dot_S1024x128_S1024x256_S128x256_0_0_1_1_n_n.contr.Idx) :
    (dot_S1024x128_S1024x256_S128x256_0_0_1_1_n_n.rhsIdx j q 0).val = (q ⟨0, by decide⟩).val :=
  DotDims.rhsIdx_val_of_single dot_S1024x128_S1024x256_S128x256_0_0_1_1_n_n (cr := 0) rfl j q
theorem rhs_C_1 (j : S128x256.Idx) (q : dot_S1024x128_S1024x256_S128x256_0_0_1_1_n_n.contr.Idx) :
    (dot_S1024x128_S1024x256_S128x256_0_0_1_1_n_n.rhsIdx j q 1).val = (j 1).val := by
  simp [DotDims.rhsIdx, dot_S1024x128_S1024x256_S128x256_0_0_1_1_n_n]; rfl

/-- The pooling product at `(g, c)`: column `g` of the first operand against column `c` of the second, over the
    1024 rows. -/
theorem pool_apply (a : FVec Ideal S1024x128 .bf16) (b : FVec Ideal S1024x256 .bf16) (g : Fin 128) (c : Fin 256) :
    matmul dot_S1024x128_S1024x256_S128x256_0_0_1_1_n_n none a b (constant (F := Ideal) S128x256 .f32 0x00000000#32) (ix2 g c)
      = ∑ r : Fin 1024, a (ix2 r g) * b (ix2 r c) :=
  matmul_zero_apply dot_S1024x128_S1024x256_S128x256_0_0_1_1_n_n 1024 rank_C size_C a b (ix2 g c) (fun r => ix2 r g) (fun r => ix2 r c)
    (fun q => funext fun ax => Fin.ext (by
      match ax with
      | ⟨0, _⟩ => exact lhs_C_0 _ _
      | ⟨1, _⟩ => exact lhs_C_1 _ _))
    (fun q => funext fun ax => Fin.ext (by
      match ax with
      | ⟨0, _⟩ => exact rhs_C_0 _ _
      | ⟨1, _⟩ => exact rhs_C_1 _ _))

end Cert.KernelIdeal.Pay

end
-- ==== Proof.Spec.lean ====
/-
  The mathematics both programs compute, stated once over the extended reals and over plain index types.

  One row of 256 features goes through a dense layer of 512 outputs (the row against each weight row), a
  normalisation of the result along the row (subtract the row's mean, divide by the root of the biased variance
  plus a small constant), a leaky rectifier (the value where it is at least zero, a small multiple of it
  elsewhere), a second dense layer back to 256 outputs, and the same normalisation and rectifier again.
  The rows are then pooled: entry (g, c) of the pooled table is the sum, over the rows whose segment word is g,
  of column c of the row's result. Every scalar operation is spelt exactly as the ideal instance spells it
  (the quotient `Ideal.div`, the reciprocal root `Ideal.rsqrt`, the comparison `Ideal.cmp`, the literal
  words through `Ideal.ofBits`), so that nothing about these operations has to be known to compare the two
  programs: only that they apply them to the same sums.
-/
import Idealize.ShloMosaic.PureOps.Ideal

noncomputable section

namespace Cert.Spec

open Idealize.ShloMosaic

/-- The word of `0.0`. -/
abbrev zeroW : EReal := Ideal.ofBits .f32 0x00000000#32
/-- The word of the variance's additive constant `1e-5`. -/
abbrev epsW : EReal := Ideal.ofBits .f32 0x3727C5AC#32
/-- The word of the rectifier's slope `0.01`. -/
abbrev slopeW : EReal := Ideal.ofBits .f32 0x3C23D70A#32
/-- The words of the row lengths `512.0` and `256.0`. -/
abbrev len512W : EReal := Ideal.ofBits .f32 0x44000000#32
abbrev len256W : EReal := Ideal.ofBits .f32 0x43800000#32

/-- A dense layer at one output: the row against weight row `k`. -/
def dense {A B : Nat} (x : Fin A → EReal) (w : Fin B → Fin A → EReal) (k : Fin B) : EReal :=
  ∑ j : Fin A, x j * w k j

/-- The mean of a row, its length given as the word `len`. -/
def rowMean {D : Nat} (len : EReal) (h : Fin D → EReal) : EReal :=
  Ideal.div (∑ j : Fin D, h j) len

/-- The biased variance of a row. -/
def rowVar {D : Nat} (len : EReal) (h : Fin D → EReal) : EReal :=
  Ideal.div (∑ j : Fin D, (h j - rowMean len h) * (h j - rowMean len h)) len

/-- A row normalised: centred, times the reciprocal root of the variance plus the constant. -/
def rowNorm {D : Nat} (len : EReal) (h : Fin D → EReal) (k : Fin D) : EReal :=
  (h k - rowMean len h) * Ideal.rsqrt (rowVar len h + epsW)

/-- The leaky rectifier of one value: the value itself where it compares at least zero, the slope times it
    elsewhere. -/
def leaky (y : EReal) : EReal :=
  Scalar.select (Ideal.cmp .oge y zeroW) y (slopeW * y)

/-- One row through both layers. `w1 k j` is weight (k, j) of the first layer (512 × 256), `w2 k j` of the
    second (256 × 512). -/
def rowMlp (x : Fin 256 → EReal) (w1 : Fin 512 → Fin 256 → EReal) (w2 : Fin 256 → Fin 512 → EReal)
    (c : Fin 256) : EReal :=
  leaky (rowNorm len256W (dense (fun k : Fin 512 => leaky (rowNorm len512W (dense x w1) k)) w2) c)

/-- The pooled table at one entry over `N` rows: the sum of `v n` over the rows `n` whose segment word is
    the word of `g`. -/
def segSum {N : Nat} (ids : Fin N → BitVec 32) (v : Fin N → EReal) (g : Fin 128) : EReal :=
  ∑ n : Fin N, if ids n = BitVec.ofNat 32 g.val then v n else 0

end Cert.Spec

end
-- ==== Proof.KIPayLayer.lean ====
/-
  A tile normalised and rectified, and the second layer's output, each read at one entry.

  The kernel normalises a tile of 1024 rows and D columns row by row: it divides each row's sum by the row length
  (the mean, kept as a column), subtracts it, sums the squares of the differences along the row and divides again
  (the biased variance), adds a small constant, takes the reciprocal root, multiplies the centred entry by it; and it
  rectifies the result entry by entry (the value where it compares at least zero, a small multiple of it
  elsewhere). Columns of 1024 values are spread back over the D columns wherever they meet the tile. Read at the entry
  `(r, k)` all of this concerns row `r` alone, and is the rectified normalisation of that row at `k`
  (`normRect_apply`), given only that the column of sums the kernel divides holds the row's sum and the column it
  divides by holds the row length.

  The second layer's output is then, at `(r, c)`, the second dense layer of the rectified normalised first layer of
  row `r` of the features (`pay3_apply`): the products are plain sums over the contracted axis, and a change of
  number format does nothing to an extended real.
-/
import proofs.«407833_j86303072845932_1_alg».proof.Proof.Gen.KernelIdeal.Skeleton
import proofs.«407833_j86303072845932_1_alg».proof.Proof.Spec
import proofs.«407833_j86303072845932_1_alg».proof.Proof.KIPayOps
import proofs.«407833_j86303072845932_1_alg».proof.Proof.KIPayDots

set_option maxRecDepth 16384

noncomputable section

namespace Cert.KernelIdeal.Pay

open Idealize.ShloMosaic Idealize.ShloMosaic.ValueIdx Cert.KernelIdeal Cert.KernelIdeal.Gen Cert.Spec
open scoped BigOperators

section Normalise
variable {D : Nat} (hr : (⟨2, ![1024, D]⟩ : Shape).Reduces [1] S1024) (hb : S1024x1.Broadcasts ⟨2, ![1024, D]⟩)

/-- The column of row sums of the squared differences from the column `mean`. -/
def sqSumCol (t : FVec Ideal ⟨2, ![1024, D]⟩ .f32) (mean : FVec Ideal S1024x1 .f32) : FVec Ideal S1024x1 .f32 :=
  shapeCast S1024x1
    (multiReduction (F := Ideal) .add [1] S1024
      (mulf (subf t (broadcastTo ⟨2, ![1024, D]⟩ mean hb)) (subf t (broadcastTo ⟨2, ![1024, D]⟩ mean hb)))
      0x00000000#32 hr (.inl rfl) rfl)
    shapeCasts_S1024_S1024x1

/-- The column of reciprocal roots: of the sums of squares over the row length, plus the small constant. -/
def invCol (lenBits : BitVec 32) (ss : FVec Ideal S1024x1 .f32) : FVec Ideal S1024x1 .f32 :=
  rsqrt (addf (divf ss (broadcast S1024x1 (Scalar.ofBits (F := Ideal) .f32 lenBits)))
    (broadcast S1024x1 (Scalar.ofBits (F := Ideal) .f32 0x3727C5AC#32)))

/-- The tile centred by the column `mean` and scaled by the column `inv`. -/
def normTile (t : FVec Ideal ⟨2, ![1024, D]⟩ .f32) (mean inv : FVec Ideal S1024x1 .f32) : FVec Ideal ⟨2, ![1024, D]⟩ .f32 :=
  mulf (subf t (broadcastTo ⟨2, ![1024, D]⟩ mean hb)) (broadcastTo ⟨2, ![1024, D]⟩ inv hb)

/-- A tile rectified entry by entry. -/
def rectTile (y : FVec Ideal ⟨2, ![1024, D]⟩ .f32) : FVec Ideal ⟨2, ![1024, D]⟩ .f32 :=
  select (cmpf .oge y (broadcast ⟨2, ![1024, D]⟩ (Scalar.ofBits (F := Ideal) .f32 0x00000000#32))) y
    (mulf (broadcast ⟨2, ![1024, D]⟩ (Scalar.ofBits (F := Ideal) .f32 0x3C23D70A#32)) y)

/-- The tile `t` normalised along its rows and rectified, the mean being the column `sums` over the column `len`. -/
def normRect (lenBits : BitVec 32) (t : FVec Ideal ⟨2, ![1024, D]⟩ .f32) (sums len : FVec Ideal S1024x1 .f32) :
    FVec Ideal ⟨2, ![1024, D]⟩ .f32 :=
  rectTile (normTile hb t (divf sums len) (invCol lenBits (sqSumCol hr hb t (divf sums len))))

variable (lenBits : BitVec 32) (t : FVec Ideal ⟨2, ![1024, D]⟩ .f32) (sums len : FVec Ideal S1024x1 .f32) (r : Fin 1024)
  (hs : sums (ix2 r (0 : Fin 1)) = ∑ j : Fin D, t (ix2 r j)) (hl : len (ix2 r (0 : Fin 1)) = Ideal.ofBits .f32 lenBits)

include hs hl in
/-- The mean column spread over the tile reads, anywhere in row `r`, the mean of row `r`. -/
theorem mean_apply (j : Fin D) :
    broadcastTo ⟨2, ![1024, D]⟩ (divf sums len) hb (ix2 r j) = rowMean (Ideal.ofBits .f32 lenBits) (fun j => t (ix2 r j)) := by
  refine (bcastCol_apply (divf sums len) hb r j).trans ?_
  show Ideal.div (sums (ix2 r (0 : Fin 1))) (len (ix2 r (0 : Fin 1))) = _
  rw [hs, hl]
  rfl

include hs hl in
/-- The column of sums of squares holds, in row `r`, the sum of the squared differences of row `r` from its mean. -/
theorem sqSumCol_apply :
    sqSumCol hr hb t (divf sums len) (ix2 r (0 : Fin 1))
      = ∑ j : Fin D, (t (ix2 r j) - rowMean (Ideal.ofBits .f32 lenBits) (fun j => t (ix2 r j)))
          * (t (ix2 r j) - rowMean (Ideal.ofBits .f32 lenBits) (fun j => t (ix2 r j))) := by
  refine (rowSum_apply _ hr (.inl rfl) rfl shapeCasts_S1024_S1024x1 r (0 : Fin 1)).trans ?_
  refine Finset.sum_congr rfl fun j _ => ?_
  show (t (ix2 r j) - broadcastTo ⟨2, ![1024, D]⟩ (divf sums len) hb (ix2 r j))
      * (t (ix2 r j) - broadcastTo ⟨2, ![1024, D]⟩ (divf sums len) hb (ix2 r j)) = _
  rw [mean_apply hb lenBits t sums len r hs hl j]

include hs hl in
/-- THE TILE NORMALISED AND RECTIFIED, at `(r, k)`: the rectified normalisation of row `r` at `k`. -/
theorem normRect_apply (k : Fin D) :
    normRect hr hb lenBits t sums len (ix2 r k)
      = leaky (rowNorm (Ideal.ofBits .f32 lenBits) (fun j => t (ix2 r j)) k) := by
  have hinv : broadcastTo ⟨2, ![1024, D]⟩ (invCol lenBits (sqSumCol hr hb t (divf sums len))) hb (ix2 r k)
      = Ideal.rsqrt (rowVar (Ideal.ofBits .f32 lenBits) (fun j => t (ix2 r j)) + epsW) := by
    refine (bcastCol_apply _ hb r k).trans ?_
    show Ideal.rsqrt (Ideal.div (sqSumCol hr hb t (divf sums len) (ix2 r (0 : Fin 1))) (Ideal.ofBits .f32 lenBits)
        + Ideal.ofBits .f32 0x3727C5AC#32) = _
    rw [sqSumCol_apply hr hb lenBits t sums len r hs hl]
    rfl
  have hy : normTile hb t (divf sums len) (invCol lenBits (sqSumCol hr hb t (divf sums len))) (ix2 r k)
      = rowNorm (Ideal.ofBits .f32 lenBits) (fun j => t (ix2 r j)) k := by
    show (t (ix2 r k) - broadcastTo ⟨2, ![1024, D]⟩ (divf sums len) hb (ix2 r k))
        * broadcastTo ⟨2, ![1024, D]⟩ (invCol lenBits (sqSumCol hr hb t (divf sums len))) hb (ix2 r k) = _
    rw [mean_apply hb lenBits t sums len r hs hl k, hinv]
    rfl
  show Scalar.select
      (Ideal.cmp .oge (normTile hb t (divf sums len) (invCol lenBits (sqSumCol hr hb t (divf sums len))) (ix2 r k))
        (Ideal.ofBits .f32 0x00000000#32))
      (normTile hb t (divf sums len) (invCol lenBits (sqSumCol hr hb t (divf sums len))) (ix2 r k))
      (Ideal.ofBits .f32 0x3C23D70A#32
        * normTile hb t (divf sums len) (invCol lenBits (sqSumCol hr hb t (divf sums len))) (ix2 r k)) = _
  rw [hy]
  rfl

end Normalise

/-! ## The second layer's output -/

/-- The first layer's output: the features tile against the first weight. -/
def layerA (x : Vec Ideal S1024x256 .f32) (w1b : Vec Ideal S256x512 .bf16) : FVec Ideal S1024x512 .f32 :=
  matmul dot_S1024x256_S256x512_S1024x512_1_0_0_1_n_n none (truncf .bf16 (x : FVec Ideal S1024x256 .f32) bitsLt_bf16_f32 : FVec Ideal S1024x256 .bf16)
    (shapeCast S256x512 w1b shapeCasts_S256x512_S256x512 : FVec Ideal S256x512 .bf16)
    (constant (F := Ideal) S1024x512 .f32 0x00000000#32)

/-- The first layer at `(r, k)`: the dense layer of row `r` of the features at output `k`. -/
theorem layerA_eq (x : Vec Ideal S1024x256 .f32) (w1b : Vec Ideal S256x512 .bf16) (r : Fin 1024) (k : Fin 512) :
    layerA x w1b (ix2 r k)
      = dense (fun j : Fin 256 => x (ix2 r j)) (fun (k : Fin 512) (j : Fin 256) => w1b (ix2 j k)) k := by
  refine (layerA_apply _ _ r k).trans ?_
  refine Finset.sum_congr rfl fun j _ => ?_
  exact congrArg (x (ix2 r j) * ·) (congrFun (shapeCast_self w1b shapeCasts_S256x512_S256x512) (ix2 j k))

/-- The second layer's output is the product of the rectified normalised first layer with the second weight. -/
theorem pay3_eq (x : Vec Ideal S1024x256 .f32) (w1b : Vec Ideal S256x512 .bf16) (w2b : Vec Ideal S512x256 .bf16) :
    k0_pay3 (F := Ideal) x w1b w2b
      = matmul dot_S1024x512_S512x256_S1024x256_1_0_0_1_n_n none
          (truncf .bf16
            (normRect (D := 512) reduces_S1024x512_S1024 broadcasts_S1024x1_S1024x512 0x44000000#32 (layerA x w1b)
              (shapeCast S1024x1
                (multiReduction (F := Ideal) .add [1] S1024 (layerA x w1b) 0x00000000#32 reduces_S1024x512_S1024 (.inl rfl) rfl)
                shapeCasts_S1024_S1024x1)
              (broadcast S1024x1 (Scalar.ofBits (F := Ideal) .f32 0x44000000#32)))
            bitsLt_bf16_f32 : FVec Ideal S1024x512 .bf16)
          (shapeCast S512x256 w2b shapeCasts_S512x256_S512x256 : FVec Ideal S512x256 .bf16)
          (constant (F := Ideal) S1024x256 .f32 0x00000000#32) :=
  rfl

/-- THE SECOND LAYER'S OUTPUT at `(r, c)`: the second dense layer, at output `c`, of the rectified normalised first
    layer of row `r` of the features. -/
theorem pay3_apply (x : Vec Ideal S1024x256 .f32) (w1b : Vec Ideal S256x512 .bf16) (w2b : Vec Ideal S512x256 .bf16)
    (r : Fin 1024) (c : Fin 256) :
    k0_pay3 (F := Ideal) x w1b w2b (ix2 r c)
      = dense (fun k : Fin 512 => leaky (rowNorm len512W
            (dense (fun j : Fin 256 => x (ix2 r j)) (fun (k : Fin 512) (j : Fin 256) => w1b (ix2 j k))) k))
          (fun (c' : Fin 256) (k : Fin 512) => w2b (ix2 k c')) c := by
  refine (congrFun (pay3_eq x w1b w2b) (ix2 r c)).trans ?_
  refine (layerB_apply _ _ r c).trans ?_
  refine Finset.sum_congr rfl fun k _ => ?_
  refine congrArg₂ (· * ·) ?_ (congrFun (shapeCast_self w2b shapeCasts_S512x256_S512x256) (ix2 k c))
  refine (normRect_apply (D := 512) reduces_S1024x512_S1024 broadcasts_S1024x1_S1024x512 0x44000000#32 (layerA x w1b) _ _ r
    (rowSum_apply (D := 512) (layerA x w1b) reduces_S1024x512_S1024 (.inl rfl) rfl shapeCasts_S1024_S1024x1 r (0 : Fin 1))
    rfl k).trans ?_
  exact congrArg leaky (congrArg (fun h => rowNorm len512W h k) (funext fun j => layerA_eq x w1b r j))

end Cert.KernelIdeal.Pay

end
-- ==== Proof.KIPayPool.lean ====
/-
  The stored block, read at one entry.

  The kernel turns the column of segment words into a matrix of 1024 × 128 zeros and ones: entry `(r, g)` compares
  row `r`'s word with the word of the column number `g`, and the comparison's bit, widened to a word and read as an
  integer, is the number one where the words agree and zero elsewhere. The product of the transpose of that matrix
  with the rows' results (the second layer's output normalised and rectified once more) is therefore, at `(g, c)`,
  the sum over the rows whose word is `g`'s of column `c` of the row's result: `1 · y = y` and `0 · y = 0` hold for
  every extended real `y`, the infinities included, so the rows of other segments contribute exactly zero. The
  block the kernel stores is that sum added to the block it found.
-/
import proofs.«407833_j86303072845932_1_alg».proof.Proof.Gen.KernelIdeal.Skeleton
import proofs.«407833_j86303072845932_1_alg».proof.Proof.Spec
import proofs.«407833_j86303072845932_1_alg».proof.Proof.KIPayOps
import proofs.«407833_j86303072845932_1_alg».proof.Proof.KIPayDots
import proofs.«407833_j86303072845932_1_alg».proof.Proof.KIPayLayer

set_option maxRecDepth 16384

noncomputable section

namespace Cert.KernelIdeal.Pay

open Idealize.ShloMosaic Idealize.ShloMosaic.ValueIdx Cert.KernelIdeal Cert.KernelIdeal.Gen Cert.Spec
open scoped BigOperators

/-! ## The matrix of zeros and ones -/

/-- A bit widened to a word and read as a signed integer is the extended real one or zero. -/
theorem sitofp_bit (p : Bool) :
    FloatOps.sitofp (F := Ideal) .f32 ((BitVec.ofBool p).setWidth 32) = if p then (1 : EReal) else 0 := by
  cases p
  · show ((((BitVec.ofBool false).setWidth 32).toInt : ℝ) : EReal) = 0
    have h : ((BitVec.ofBool false).setWidth 32).toInt = 0 := by decide
    rw [h]; simp
  · show ((((BitVec.ofBool true).setWidth 32).toInt : ℝ) : EReal) = 1
    have h : ((BitVec.ofBool true).setWidth 32).toInt = 1 := by decide
    rw [h]; simp

/-- The matrix of zeros and ones made from the column of segment words. -/
def oneHot (seg : Vec Ideal S1024x1 .i32) : FVec Ideal S1024x128 .f32 :=
  sitofp .f32
    (extui 32
      (cmpi .eq
        (broadcastTo S1024x128 (shapeCast S1024x1 seg shapeCasts_S1024x1_S1024x1 : IVec S1024x1 32) broadcasts_S1024x1_S1024x128
          : IVec S1024x128 32)
        (iota .tc S1024x128 32 [1] iota_S1024x128_d1_w32))
      natLt_1_32)

/-- Its entry `(r, g)`: one where row `r`'s word is the word of `g`, zero elsewhere. -/
theorem oneHot_apply (seg : Vec Ideal S1024x1 .i32) (r : Fin 1024) (g : Fin 128) :
    oneHot seg (ix2 r g) = if seg (ix2 r (0 : Fin 1)) = BitVec.ofNat 32 g.val then (1 : EReal) else 0 := by
  have hl : (broadcastTo S1024x128 (shapeCast S1024x1 seg shapeCasts_S1024x1_S1024x1 : IVec S1024x1 32)
      broadcasts_S1024x1_S1024x128 : IVec S1024x128 32) (ix2 r g) = seg (ix2 r (0 : Fin 1)) :=
    (bcastCol_apply (D := 128) _ broadcasts_S1024x1_S1024x128 r g).trans
      (congrFun (shapeCast_self seg shapeCasts_S1024x1_S1024x1) (ix2 r (0 : Fin 1)))
  have hi : iota .tc S1024x128 32 [1] iota_S1024x128_d1_w32 (ix2 r g) = BitVec.ofNat 32 g.val :=
    iota_single_apply .tc S1024x128 32 1 iota_S1024x128_d1_w32 (ix2 r g)
  show FloatOps.sitofp (F := Ideal) .f32
      ((IntOp.cmpi .eq
          ((broadcastTo S1024x128 (shapeCast S1024x1 seg shapeCasts_S1024x1_S1024x1 : IVec S1024x1 32)
            broadcasts_S1024x1_S1024x128 : IVec S1024x128 32) (ix2 r g))
          (iota .tc S1024x128 32 [1] iota_S1024x128_d1_w32 (ix2 r g))).setWidth 32) = _
  rw [hl, hi]
  show FloatOps.sitofp (F := Ideal) .f32
      ((BitVec.ofBool (seg (ix2 r (0 : Fin 1)) == BitVec.ofNat 32 g.val)).setWidth 32) = _
  rw [sitofp_bit]
  by_cases h : seg (ix2 r (0 : Fin 1)) = BitVec.ofNat 32 g.val
  · rw [if_pos h, if_pos (beq_iff_eq.mpr h)]
  · rw [if_neg h, if_neg (fun hb => h (beq_iff_eq.mp hb))]

/-! ## The stored block -/

/-- The stored block is the block found plus the product of the transposed matrix of zeros and ones with the second
    layer's output normalised and rectified. -/
theorem pay1_eq (t : FVec Ideal S1024x256 .f32) (sums len : FVec Ideal S1024x1 .f32) (seg : Vec Ideal S1024x1 .i32)
    (xo : Vec Ideal S1x128x256 .f32) :
    k0_pay1 (F := Ideal) t sums len seg xo
      = shapeCast S1x128x256
          (addf (shapeCast S128x256 xo shapeCasts_S1x128x256_S128x256 : FVec Ideal S128x256 .f32)
            (matmul dot_S1024x128_S1024x256_S128x256_0_0_1_1_n_n none
              (truncf .bf16 (oneHot seg) bitsLt_bf16_f32 : FVec Ideal S1024x128 .bf16)
              (truncf .bf16
                (normRect (D := 256) reduces_S1024x256_S1024 broadcasts_S1024x1_S1024x256 0x43800000#32 t sums len)
                bitsLt_bf16_f32 : FVec Ideal S1024x256 .bf16)
              (constant (F := Ideal) S128x256 .f32 0x00000000#32)))
          shapeCasts_S128x256_S1x128x256 :=
  rfl

/-- The stored block at `(0, g, c)`, for any tile `t` whose row sums and row length are the two columns passed with
    it: the block found there plus the sum, over the rows of segment `g`, of the rectified normalisation of the row
    of `t` at `c`. -/
theorem pay1_apply_of (t : FVec Ideal S1024x256 .f32) (sums len : FVec Ideal S1024x1 .f32) (seg : Vec Ideal S1024x1 .i32)
    (xo : Vec Ideal S1x128x256 .f32)
    (hs : ∀ r : Fin 1024, sums (ix2 r (0 : Fin 1)) = ∑ j : Fin 256, t (ix2 r j))
    (hl : ∀ r : Fin 1024, len (ix2 r (0 : Fin 1)) = len256W) (g : Fin 128) (c : Fin 256) :
    k0_pay1 (F := Ideal) t sums len seg xo (ix3 (0 : Fin 1) g c)
      = xo (ix3 (0 : Fin 1) g c)
        + segSum (fun r : Fin 1024 => seg (ix2 r (0 : Fin 1)))
            (fun r : Fin 1024 => leaky (rowNorm len256W (fun j : Fin 256 => t (ix2 r j)) c)) g := by
  refine (congrFun (pay1_eq t sums len seg xo) (ix3 (0 : Fin 1) g c)).trans ?_
  refine (addLead_apply _ shapeCasts_S128x256_S1x128x256 (0 : Fin 1) g c).trans ?_
  refine congrArg₂ (· + ·) (dropLead_apply xo shapeCasts_S1x128x256_S128x256 g c) ?_
  refine (pool_apply _ _ g c).trans ?_
  refine Finset.sum_congr rfl fun r _ => ?_
  show oneHot seg (ix2 r g)
      * normRect (D := 256) reduces_S1024x256_S1024 broadcasts_S1024x1_S1024x256 0x43800000#32 t sums len (ix2 r c) = _
  rw [oneHot_apply,
    normRect_apply (D := 256) reduces_S1024x256_S1024 broadcasts_S1024x1_S1024x256 0x43800000#32 t sums len r (hs r) (hl r) c]
  by_cases h : seg (ix2 r (0 : Fin 1)) = BitVec.ofNat 32 g.val
  · rw [if_pos h, if_pos h, one_mul]
  · rw [if_neg h, if_neg h, zero_mul]

/-- THE STORED BLOCK at `(0, g, c)`: the block found there plus the sum, over the rows of segment `g`, of column `c`
    of the row's result through both layers. -/
theorem pay1_apply (x : Vec Ideal S1024x256 .f32) (seg : Vec Ideal S1024x1 .i32) (w1b : Vec Ideal S256x512 .bf16)
    (w2b : Vec Ideal S512x256 .bf16) (xo : Vec Ideal S1x128x256 .f32) (g : Fin 128) (c : Fin 256) :
    k0_pay1 (F := Ideal) (k0_pay3 x w1b w2b) (k0_pay4 x w1b w2b) k0_pay5 seg xo (ix3 (0 : Fin 1) g c)
      = xo (ix3 (0 : Fin 1) g c)
        + segSum (fun r : Fin 1024 => seg (ix2 r (0 : Fin 1)))
            (fun r : Fin 1024 => rowMlp (fun j : Fin 256 => x (ix2 r j)) (fun (k : Fin 512) (j : Fin 256) => w1b (ix2 j k))
              (fun (c' : Fin 256) (k : Fin 512) => w2b (ix2 k c')) c) g := by
  refine (pay1_apply_of (k0_pay3 (F := Ideal) x w1b w2b) (k0_pay4 (F := Ideal) x w1b w2b) (k0_pay5 (F := Ideal)) seg xo
    (fun r => rowSum_apply (D := 256) (k0_pay3 (F := Ideal) x w1b w2b) reduces_S1024x256_S1024 (.inl rfl) rfl
      shapeCasts_S1024_S1024x1 r (0 : Fin 1))
    (fun r => rfl) g c).trans ?_
  refine congrArg (xo (ix3 (0 : Fin 1) g c) + ·) ?_
  refine congrArg (fun v => segSum (fun r : Fin 1024 => seg (ix2 r (0 : Fin 1))) v g) (funext fun r => ?_)
  exact congrArg leaky (congrArg (fun h => rowNorm len256W h c) (funext fun j => pay3_apply x w1b w2b r j))

/-- The block the kernel stores at the first step of a segment block's run: zeros. -/
theorem pay2_apply (g : Fin 128) (c : Fin 256) : k0_pay2 (F := Ideal) (ix3 (0 : Fin 1) g c) = 0 := by
  show shapeCast S1x128x256 (broadcast S128x256 (Scalar.ofBits (F := Ideal) .f32 0x00000000#32))
      shapeCasts_S128x256_S1x128x256 (ix3 (0 : Fin 1) g c) = 0
  refine (addLead_apply _ shapeCasts_S128x256_S1x128x256 (0 : Fin 1) g c).trans ?_
  exact Ideal.ofBits_zero_f32

end Cert.KernelIdeal.Pay

end
-- ==== Proof.KIPayload.lean ====
/-
  The kernel body's values, read at one entry: the three statements the rest of the proof uses.

  * `pay3_apply`: the second layer's output at `(r, c)` is the second dense layer, at output `c`, of the rectified
    normalised first dense layer of row `r` of the features;
  * `pay1_apply`: the block stored at `(0, g, c)` is the block found there plus the sum, over the rows of the tile
    whose segment word is `g`'s, of column `c` of the row's result through both layers;
  * `pay2_apply`: the block stored when a run over a segment block begins is zero everywhere.

  They are proved in the modules imported here: the operations that are not pointwise read at an entry, the three
  matrix products read at an entry, a tile normalised and rectified and the second layer's output, and the matrix of
  zeros and ones with the pooled sum.
-/
import proofs.«407833_j86303072845932_1_alg».proof.Proof.KIPayOps
import proofs.«407833_j86303072845932_1_alg».proof.Proof.KIPayDots
import proofs.«407833_j86303072845932_1_alg».proof.Proof.KIPayLayer
import proofs.«407833_j86303072845932_1_alg».proof.Proof.KIPayPool
-- ==== Proof.KIValue.lean ====
/-
  The idealized kernel program's result, at the ideal values.

  The output block of the one pipeline is reset at the first point of each half of the grid and added to at every
  later point of the half, so after point `t` it holds, at (0, g, c'), the sum of what the tiles of `t`'s half up to
  `t` add there: tile `t` adds the sum, over its 1024 rows whose segment word is g, of column c' of the row's
  two-layer result (the body's store read at an index, over the tile's blocks read off the arrays the region finds:
  row r of tile `t` is row 1024·t + r of the features and of the segment ids, the two weights are the transposes
  the host made). The last point of a half writes the block back, the two halves' blocks cover the [2, 128, 256]
  array, so after the run the array holds each half's sum of its 128 tiles (`Gk`). The operations after the region
  then make the program's result the pooled part of those partial tables (`kernelOut`).
-/
import proofs.«407833_j86303072845932_1_alg».proof.Proof.KIPieces
import proofs.«407833_j86303072845932_1_alg».proof.Proof.KIBlocks
import proofs.«407833_j86303072845932_1_alg».proof.Proof.KIHost
import proofs.«407833_j86303072845932_1_alg».proof.Proof.KIPayload
import proofs.«407833_j86303072845932_1_alg».proof.Proof.Spec
import Idealize.ShloMosaic.Lib.Pipeline.Value
import Idealize.ShloMosaic.Lib.ValueIdx

set_option maxRecDepth 16384

noncomputable section

namespace Cert.KernelIdeal.Val

open Cert.KernelIdeal Cert.KernelIdeal.Gen Cert.KernelIdeal.Frm Cert.KernelIdeal.Pay Cert.KernelIdeal.Hand Cert.Spec
open Idealize.ShloMosaic Idealize.ShloMosaic.TcCoe Idealize.ShloMosaic.ValueIdx Idealize.SL.Sem
open Idealize.ShloMosaic.Pipeline (Dat)
open scoped BigOperators

variable (m : (ℓ : Loc nD τ sig) → Buf (Elt Ideal) ℓ) (ρ : Dev nD → PrngReg)

/-! ## The rows, by their position -/

/-- Row `n` of the features (zero past the last row: never read). -/
def rowAt (c : Dev nD) (n : ℕ) (j : Fin 256) : EReal :=
  if h : n < 262144 then m ((c : Thread nD τ).loc main_arg0) (ix2 ⟨n, h⟩ j) else 0
/-- Segment word `n` (the zero word past the last row: never read). -/
def idAt (c : Dev nD) (n : ℕ) : BitVec 32 :=
  if h : n < 262144 then m ((c : Thread nD τ).loc main_arg5) (ix1 ⟨n, h⟩) else 0#32
/-- The first layer's weight (k, j) and the second's (c', k). -/
abbrev W1 (c : Dev nD) (k : Fin 512) (j : Fin 256) : EReal := m ((c : Thread nD τ).loc main_arg1) (ix2 k j)
abbrev W2 (c : Dev nD) (c' : Fin 256) (k : Fin 512) : EReal := m ((c : Thread nD τ).loc main_arg2) (ix2 c' k)

/-- What tile `t` (rows 1024·t … 1024·t + 1023) adds to entry (g, c') of the pooled table. -/
def tileSum (c : Dev nD) (t : ℕ) (g : Fin 128) (c' : Fin 256) : EReal :=
  segSum (fun r : Fin 1024 => idAt m c (1024 * t + r.val))
    (fun r : Fin 1024 => rowMlp (rowAt m c (1024 * t + r.val)) (W1 m c) (W2 m c) c') g

theorem N256 : cfg0.N = 256 := N_0

/-- The body's store at point `t` over running contents `xo`: at (0, g, c') it adds tile `t`'s sum. -/
theorem step_apply (c : Dev nD) (t : Fin cfg0.N) (xo : Vec Ideal S1x128x256 .f32) (g : Fin 128) (c' : Fin 256) :
    k0_pay1 (F := Ideal) (k0_pay3 (xblk m c t) (w1blk m c t) (w2blk m c t)) (k0_pay4 (xblk m c t) (w1blk m c t) (w2blk m c t)) k0_pay5
        (sblk m c t) xo (ix3 (0 : Fin 1) g c')
      = xo (ix3 (0 : Fin 1) g c') + tileSum m c t.val g c' := by
  have ht : t.val < 256 := lt_of_lt_of_eq t.isLt N256
  rw [pay1_apply]
  congr 1
  unfold tileSum segSum
  refine Finset.sum_congr rfl fun r _ => ?_
  dsimp only
  have hb : 1024 * t.val + r.val < 262144 := by have := r.isLt; omega
  have hs : sblk m c t (ix2 r (0 : Fin 1)) = idAt m c (1024 * t.val + r.val) := by
    rw [sblk_apply m c t r hb]; unfold idAt; rw [dif_pos hb]
  have hrow : (fun j : Fin 256 => xblk m c t (ix2 r j)) = rowAt m c (1024 * t.val + r.val) := by
    funext j; rw [xblk_apply m c t r j hb]; unfold rowAt; rw [dif_pos hb]
  have hw1 : (fun (k : Fin 512) (j : Fin 256) => w1blk m c t (ix2 j k)) = W1 m c := by
    funext k j; exact w1blk_apply m c t j k
  have hw2 : (fun (c'' : Fin 256) (k : Fin 512) => w2blk m c t (ix2 k c'')) = W2 m c := by
    funext c'' k; exact w2blk_apply m c t k c''
  rw [hrow, hw1, hw2]
  exact if_congr (by rw [hs]) rfl rfl

/-! ## The output block after each point: the running sum of the half's tiles -/

/-- Every index of the [1, 128, 256] block is (0, g, c'). -/
theorem idx3 (i : S1x128x256.Idx) : ∃ (g : Fin 128) (c' : Fin 256), i = ix3 (0 : Fin 1) g c' :=
  ⟨i 1, i 2, funext fun a => by
    match a with
    | ⟨0, _⟩ => exact Fin.ext (by have h := (show Fin 1 from i (0 : Fin 3)).isLt; show (show Fin 1 from i (0 : Fin 3)).val = 0; omega)
    | ⟨1, _⟩ => rfl
    | ⟨2, _⟩ => rfl⟩

/-- What the reset case leaves at point `n`: the store's value over the zero block. -/
def resetAt (c : Dev nD) (n : ℕ) (h : n < cfg0.N) : Vec Ideal S1x128x256 .f32 :=
  k0_pay1 (F := Ideal) (k0_pay3 (xblk m c ⟨n, h⟩) (w1blk m c ⟨n, h⟩) (w2blk m c ⟨n, h⟩))
    (k0_pay4 (xblk m c ⟨n, h⟩) (w1blk m c ⟨n, h⟩) (w2blk m c ⟨n, h⟩)) k0_pay5 (sblk m c ⟨n, h⟩) (k0_pay2 (F := Ideal))
/-- What the accumulating case leaves at point `n` over running contents `acc`. -/
def stepAt (c : Dev nD) (n : ℕ) (h : n < cfg0.N) (acc : Vec Ideal S1x128x256 .f32) : Vec Ideal S1x128x256 .f32 :=
  k0_pay1 (F := Ideal) (k0_pay3 (xblk m c ⟨n, h⟩) (w1blk m c ⟨n, h⟩) (w2blk m c ⟨n, h⟩))
    (k0_pay4 (xblk m c ⟨n, h⟩) (w1blk m c ⟨n, h⟩) (w2blk m c ⟨n, h⟩)) k0_pay5 (sblk m c ⟨n, h⟩) acc

theorem outs_reset (c : Dev nD) (n : ℕ) (h : n < cfg0.N) (h0 : n % 128 = 0) : outsAt0 m c n h = resetAt m c n h :=
  (outsAt0_A m c ⟨n, h⟩ h0).trans
    (out_A c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩)
      (ms0_3 ⟨n, h⟩) (hs0_3 ⟨n, h⟩) (ms0_4 ⟨n, h⟩) (hs0_4 ⟨n, h⟩) ((hcond0_0 ⟨n, h⟩).mpr h0)
      (iblk m c 0 ⟨n, h⟩) (iblk m c 1 ⟨n, h⟩) (iblk m c 2 ⟨n, h⟩) (iblk m c 3 ⟨n, h⟩))

theorem outs_step (c : Dev nD) (n : ℕ) (h : n + 1 < cfg0.N) (hne : ¬(n + 1) % 128 = 0) :
    outsAt0 m c (n + 1) h = stepAt m c (n + 1) h (outsAt0 m c n (Nat.lt_of_succ_lt h)) :=
  (outsAt0_B m c ⟨n + 1, h⟩ hne).trans
    (out_B c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩)
      (ms0_3 ⟨n + 1, h⟩) (hs0_3 ⟨n + 1, h⟩) (ms0_4 ⟨n + 1, h⟩) (hs0_4 ⟨n + 1, h⟩) (fun hh => hne ((hcond0_0 ⟨n + 1, h⟩).mp hh))
      (iblk m c 0 ⟨n + 1, h⟩) (iblk m c 1 ⟨n + 1, h⟩) (iblk m c 2 ⟨n + 1, h⟩) (iblk m c 3 ⟨n + 1, h⟩)
      (outsAt0 m c n (Nat.lt_of_succ_lt h)))

theorem reset_apply (c : Dev nD) (n : ℕ) (h : n < cfg0.N) (i : S1x128x256.Idx) :
    resetAt m c n h i = k0_pay2 (F := Ideal) i + tileSum m c n (i 1) (i 2) := by
  obtain ⟨g, c', rfl⟩ := idx3 i
  exact step_apply m c ⟨n, h⟩ (k0_pay2 (F := Ideal)) g c'
theorem stepAt_apply (c : Dev nD) (n : ℕ) (h : n < cfg0.N) (acc : Vec Ideal S1x128x256 .f32) (i : S1x128x256.Idx) :
    stepAt m c n h acc i = acc i + tileSum m c n (i 1) (i 2) := by
  obtain ⟨g, c', rfl⟩ := idx3 i
  exact step_apply m c ⟨n, h⟩ acc g c'

/-- The block after point `t`, at (0, g, c'): the sum of the tiles of `t`'s half up to `t`. -/
theorem outs_apply (c : Dev nD) (t : ℕ) (ht : t < cfg0.N) (g : Fin 128) (c' : Fin 256) :
    outsAt0 m c t ht (ix3 (0 : Fin 1) g c') = 0 + ∑ s ∈ Finset.range (t % 128 + 1), tileSum m c (128 * (t / 128) + s) g c' := by
  have hN : cfg0.N = 256 := N256
  have hb : 128 * (t / 128) + t % 128 < cfg0.N := by rw [Nat.div_add_mod]; exact ht
  have hfold := Pipeline.eq_accAt_of_mod (outsAt0 m c) 128 (resetAt m c) (stepAt m c)
      (outs_reset m c) (outs_step m c) (by decide) t ht hb
  rw [hfold]
  have hsum := Pipeline.accAt_add_apply (resetAt m c) (stepAt m c) (fun i : S1x128x256.Idx => k0_pay2 (F := Ideal) i)
      (fun n (i : S1x128x256.Idx) => tileSum m c n (i 1) (i 2)) (128 * (t / 128)) 127
      (fun h i => reset_apply m c _ h i)
      (fun n h acc i _ _ => stepAt_apply m c n h acc i)
      (t % 128) (by have := Nat.mod_lt t (show 0 < 128 by decide); omega) hb (ix3 (0 : Fin 1) g c')
  rw [hsum, pay2_apply]

/-! ## The array of partial tables after the run -/

/-- Entry (p, g, c') of the partial tables: the sum of half `p`'s 128 tiles. -/
def halfSum (c : Dev nD) (p : Fin 2) (g : Fin 128) (c' : Fin 256) : EReal :=
  0 + ∑ s ∈ Finset.range 128, tileSum m c (128 * p.val + s) g c'

/-- The partial tables as contents of their array. -/
def Gk (c : Dev nD) : Buf (Elt Ideal) ((c : Thread nD τ).loc main_v5) :=
  fun i => halfSum m c (i 0) (i 1) (i 2)

/-- An index of the array is in point `t`'s block iff each coordinate is in the block's range on its axis. -/
theorem mem_blk4 (t : Fin cfg0.N) (i : S2x128x256.Idx) :
    i ∈ ((cfg0.win 4).blk t).view.set ↔ ∀ a : Fin 3, win0_4.index t a * S1x128x256.size a ≤ (i a).val ∧ (i a).val < win0_4.index t a * S1x128x256.size a + S1x128x256.size a := by
  show i ∈ ((View.whole main_v5).slice (win0_4.rect t)).set ↔ _
  rw [View.set_slice_whole, Rect.mem_set_unit]
  exact Iff.rfl

/-- What a point that writes the block back writes: its half's block of the partial tables. -/
theorem flushed_eq (c : Dev nD) (t : Fin cfg0.N) (hf : (cfg0.win 4).flush t = true) :
    (dats m 0 c).flushed 4 t = ((cfg0.win 4).blk t).view.read (Elt Ideal) (Gk m c) := by
  have hN : cfg0.N = 256 := N256
  have h127 : t.val % 128 = 127 := (flush0_4 t).mp hf
  have hi := idx_facts t
  show (cfg0.win 4).cut (grid0.coords t) ((dats m 0 c).after 4 t) = _
  rw [after0_4]
  funext j
  obtain ⟨g, c', rfl⟩ := idx3 j
  show outsAt0 m c t.val t.isLt (ix3 (0 : Fin 1) g c') = Gk m c (((cfg0.win 4).blk t).view.emb (ix3 (0 : Fin 1) g c'))
  have hp : t.val / 128 < 2 := by have := t.isLt; omega
  have he : ((cfg0.win 4).blk t).view.emb (ix3 (0 : Fin 1) g c') = ix3 (⟨t.val / 128, hp⟩ : Fin 2) g c' := by
    funext a; apply Fin.ext
    match a with
    | ⟨0, _⟩ => show win0_4.index t 0 * 1 + 1 * 0 = t.val / 128; rw [hi.2.2.2.2.2.2.2.2.1]; omega
    | ⟨1, _⟩ => show win0_4.index t 1 * 128 + 1 * g.val = g.val; rw [hi.2.2.2.2.2.2.2.2.2.1]; omega
    | ⟨2, _⟩ => show win0_4.index t 2 * 256 + 1 * c'.val = c'.val; rw [hi.2.2.2.2.2.2.2.2.2.2]; omega
  rw [he, outs_apply, h127]
  rfl

/-- After the run the array holds the partial tables: each half's last point writes its block, and the two blocks
    cover the array. -/
theorem final4 (c : Dev nD) : (dats m 0 c).arrAt 4 cfg0.N = Gk m c :=
  (dats m 0 c).arrAt_eq_of_cover 4 (Gk m c) (flushed_eq m c) fun i => by
    have hN : cfg0.N = 256 := N256
    have h0 : (i 0).val < 2 := (i 0).isLt
    have h1 : (i 1).val < 128 := (i 1).isLt
    have h2 : (i 2).val < 256 := (i 2).isLt
    have htl : 128 * (i 0).val + 127 < cfg0.N := by omega
    refine ⟨⟨128 * (i 0).val + 127, htl⟩, (flush0_4 _).mpr (by show (128 * (i 0).val + 127) % 128 = 127; omega), ?_⟩
    rw [mem_blk4]
    have hi := idx_facts ⟨128 * (i 0).val + 127, htl⟩
    have hq : (128 * (i 0).val + 127) / 128 = (i 0).val := by omega
    intro a
    match a with
    | ⟨0, _⟩ => show win0_4.index _ 0 * 1 ≤ (i 0).val ∧ (i 0).val < win0_4.index _ 0 * 1 + 1; rw [hi.2.2.2.2.2.2.2.2.1]; dsimp only; omega
    | ⟨1, _⟩ => show win0_4.index _ 1 * 128 ≤ (i 1).val ∧ (i 1).val < win0_4.index _ 1 * 128 + 128; rw [hi.2.2.2.2.2.2.2.2.2.1]; omega
    | ⟨2, _⟩ => show win0_4.index _ 2 * 256 ≤ (i 2).val ∧ (i 2).val < win0_4.index _ 2 * 256 + 256; rw [hi.2.2.2.2.2.2.2.2.2.2]; omega

/-! ## The program's result -/

/-- After the operations that follow the region the result buffer holds the pooled part of the partial tables. -/
theorem tail_eq (c : Dev nD) :
    Pipeline.afterTail₀ cfgs (dats m) 0 (V0 m) [hostOps1, hostOps1_1, hostOps1_2, hostOps1_3] c main_v56
      = kernelOut (F := Ideal) (Gk m c) (m ((c : Thread nD τ).loc main_arg3)) (m ((c : Thread nD τ).loc main_arg4)) := by
  unfold Pipeline.afterTail₀
  rw [tail_v56]
  have e5 := (Pipeline.withArrays_arr spec0 launch0.win.arr_inj c (V0 m c) (fun w => (dats m 0 c).arrAt w (cfgs 0).N) 4).trans (final4 m c)
  have e3 := (Pipeline.withArrays_of_ne spec0 c (V0 m c) (fun w => (dats m 0 c).arrAt w (cfgs 0).N) main_arg3
    (by exact (by decide : ∀ w, Pipeline.arrRef spec0 w ≠ main_arg3))).trans (V_main_arg3 m c)
  have e4 := (Pipeline.withArrays_of_ne spec0 c (V0 m c) (fun w => (dats m 0 c).arrAt w (cfgs 0).N) main_arg4
    (by exact (by decide : ∀ w, Pipeline.arrRef spec0 w ≠ main_arg4))).trans (V_main_arg4 m c)
  exact congr (congr (congrArg (kernelOut (F := Ideal)) e5) e3) e4

/-- The run, read: the result at the pooled part of the partial tables, the six arguments unchanged. -/
theorem run : θ_run defs (onTc (τ := τ) (main (F := Ideal))) ⟨m, fun _ => 0, ρ⟩ fun r => ∀ c : Dev nD,
      r.2.mem ((c.tc : Thread nD τ).loc main_v56) = kernelOut (F := Ideal) (Gk m c) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
    ⟨((h c).2 main_v56 (Pipeline.mem_restRefs_of main_v56 (by decide) (by decide))).trans (tail_eq m c),
     ((h c).1 0).trans (((dats m 0 c).arrAt_in 0 rfl _).trans ((A_eq m c 0).trans (V_main_arg0 m c))),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c),
     ((h c).2 main_arg3 (Pipeline.mem_restRefs_of main_arg3 (by decide) (by decide))).trans (W_main_arg3 m (dats m) c),
     ((h c).2 main_arg4 (Pipeline.mem_restRefs_of main_arg4 (by decide) (by decide))).trans (W_main_arg4 m (dats m) c),
     ((h c).2 main_arg5 (Pipeline.mem_restRefs_of main_arg5 (by decide) (by decide))).trans (W_main_arg5 m (dats m) c)⟩)
    (run_main m ρ)

end Cert.KernelIdeal.Val

end
-- ==== Proof.RefRowsNorm.lean ====
/-
  One normalisation-and-rectifier stretch read at an entry, at the ideal values.

  Entry (n, k) of the stretch over a table h of N rows and D columns depends on row n alone: it is the rectifier of
  the row's k-th normalised value. The row sums are the host's reduce along axis 1 from the zero word, which at the
  ideal values is 0 plus the sum over the row's coordinates; every other operation of the stretch is elementwise or
  a broadcast, and reads through at an index. The only algebra used is 0 + x = x.
-/
import Idealize.ShloMosaic.PureOps.Ideal.Laws
import Idealize.ShloMosaic.Lib.ValueIdx
import Idealize.ShloMosaic.Lib.IdealHost
import Idealize.ShloMosaic.Lib.Pipeline.Value
import proofs.«407833_j86303072845932_1_alg».proof.Proof.Spec
import proofs.«407833_j86303072845932_1_alg».proof.Proof.Stages

set_option maxRecDepth 16384

noncomputable section

namespace Cert.ReferenceIdeal.Hand

open Idealize.ShloMosaic Idealize.ShloMosaic.ValueIdx Cert.Spec Cert.Stage
open scoped BigOperators

/-- The reduce along axis 1 from the zero word, at row n: the sum of the row's entries. -/
theorem rowSum_apply (N D : Nat) (hred : (T2 N D).ReducesTo [1] (T1 N)) (h0 : 0 < T0.numel)
    (x : FVec Ideal (T2 N D) .f32) (n : Fin N) :
    Host.reduceAdd (F := Ideal) x (constant T0 .f32 0x00000000#32) hred h0 (ix1 n) = ∑ j : Fin D, x (ix2 n j) := by
  have hR : (T2 N D).Reduces [1] (T1 N) := ⟨hred.1, Nat.one_pos, hred.2⟩
  show Ideal.hostReduceAdd hred x (Ideal.ofBits .f32 0x00000000#32) (ix1 n) = _
  rw [Ideal.hostReduceAdd_single hred hR, Ideal.ofBits_zero_f32, zero_add]
  show ∑ j : Fin D, x (hR.lift (ix1 n) j) = _
  refine Finset.sum_congr rfl fun j _ => congrArg x ?_
  funext c; refine Fin.ext ?_
  match c with
  | ⟨0, _⟩ => rfl
  | ⟨1, _⟩ => rfl

/-- A length-N vector re-expanded to an [N, 1] column reads, at (n, 0), its entry n. -/
theorem bcCol_apply {α : Type} (N : Nat) (hcol : (T1 N).BroadcastsInDim (T2 N 1) (![0] : Fin 1 → Fin (T2 N 1).rank))
    (v : (T1 N).Idx → α) (n : Fin N) (z : Fin 1) :
    broadcastInDim (T2 N 1) ![0] hcol v (ix2 n z) = v (ix1 n) :=
  broadcastInDim_apply _ hcol v (ix2 n z) (ix1 n) fun a => by
    match a with
    | ⟨0, _⟩ =>
      show n.val = if N = 1 then 0 else n.val
      split
      · have := n.isLt; omega
      · rfl

/-- An [N, 1] column broadcast along the rows of an [N, D] table reads, at (n, k), its entry (n, 0). -/
theorem bcRow_apply {α : Type} (N D : Nat)
    (hrow : (T2 N 1).BroadcastsInDim (T2 N D) (![0, 1] : Fin 2 → Fin (T2 N D).rank))
    (m : (T2 N 1).Idx → α) (n : Fin N) (k : Fin D) :
    broadcastInDim (T2 N D) ![0, 1] hrow m (ix2 n k) = m (ix2 n (0 : Fin 1)) :=
  broadcastInDim_apply _ hrow m (ix2 n k) (ix2 n (0 : Fin 1)) fun a => by
    match a with
    | ⟨0, _⟩ =>
      show n.val = if N = 1 then 0 else n.val
      split
      · have := n.isLt; omega
      · rfl
    | ⟨1, _⟩ => rfl

/-- The host's reciprocal root at an index is the ideal instance's of the element. -/
theorem hostRsqrt_apply {s : Shape} {φ : FTy} (a : FVec Ideal s φ) (i : s.Idx) :
    Host.rsqrt a i = Ideal.rsqrt (a i) := rfl

section Stretch

variable (N D : Nat) (lenW : BitVec 32)
  (hred : (T2 N D).ReducesTo [1] (T1 N)) (h0 : 0 < T0.numel)
  (hcol : (T1 N).BroadcastsInDim (T2 N 1) (![0] : Fin 1 → Fin (T2 N 1).rank))
  (hsc : T0.BroadcastsInDim (T2 N 1) (![] : Fin 0 → Fin (T2 N 1).rank))
  (hrow : (T2 N 1).BroadcastsInDim (T2 N D) (![0, 1] : Fin 2 → Fin (T2 N D).rank))
  (hsd : T0.BroadcastsInDim (T2 N D) (![] : Fin 0 → Fin (T2 N D).rank))

/-- The column of a table's row sums, each divided by the length's word. -/
def statCol (x : FVec Ideal (T2 N D) .f32) : FVec Ideal (T2 N 1) .f32 :=
  Host.divf (F := Ideal)
    (broadcastInDim (T2 N 1) ![0] hcol (Host.reduceAdd (F := Ideal) x (constant T0 .f32 0x00000000#32) hred h0))
    (broadcastInDim (T2 N 1) ![] hsc (constant (F := Ideal) T0 .f32 lenW))

/-- The centred table: each entry less its row's mean. -/
def cenTab (h : FVec Ideal (T2 N D) .f32) : FVec Ideal (T2 N D) .f32 :=
  subf h (broadcastInDim (T2 N D) ![0, 1] hrow (statCol N D lenW hred h0 hcol hsc h))

/-- The normalised table: the centred table times the reciprocal root of the variance column plus the constant. -/
def normTab (h : FVec Ideal (T2 N D) .f32) : FVec Ideal (T2 N D) .f32 :=
  mulf (cenTab N D lenW hred h0 hcol hsc hrow h)
    (broadcastInDim (T2 N D) ![0, 1] hrow
      (Host.rsqrt (F := Ideal)
        (addf (statCol N D lenW hred h0 hcol hsc
            (mulf (cenTab N D lenW hred h0 hcol hsc hrow h) (cenTab N D lenW hred h0 hcol hsc hrow h)))
          (broadcastInDim (T2 N 1) ![] hsc (constant (F := Ideal) T0 .f32 0x3727C5AC#32)))))

/-- The stretch is the rectifier of the normalised table. -/
theorem normLeaky_eq (h : FVec Ideal (T2 N D) .f32) :
    normLeaky (F := Ideal) N D lenW hred h0 hcol hsc hrow hsd h
      = select (cmpf .oge (normTab N D lenW hred h0 hcol hsc hrow h)
            (broadcastInDim (T2 N D) ![] hsd (constant (F := Ideal) T0 .f32 0x00000000#32)))
          (normTab N D lenW hred h0 hcol hsc hrow h)
          (mulf (broadcastInDim (T2 N D) ![] hsd (constant (F := Ideal) T0 .f32 0x3C23D70A#32))
            (normTab N D lenW hred h0 hcol hsc hrow h)) := rfl

/-- The statistic column at (n, 0): the quotient of row n's sum by the length's word. -/
theorem statCol_apply (x : FVec Ideal (T2 N D) .f32) (n : Fin N) :
    statCol N D lenW hred h0 hcol hsc x (ix2 n (0 : Fin 1))
      = Ideal.div (∑ j : Fin D, x (ix2 n j)) (Ideal.ofBits .f32 lenW) := by
  unfold statCol
  rw [hostDivf_apply, bcCol_apply, rowSum_apply, broadcastInDim_scalar_apply, constant_apply]

/-- The centred table at (n, j): the entry less the mean of row n. -/
theorem cenTab_apply (h : FVec Ideal (T2 N D) .f32) (n : Fin N) (j : Fin D) :
    cenTab N D lenW hred h0 hcol hsc hrow h (ix2 n j)
      = h (ix2 n j) - rowMean (Ideal.ofBits .f32 lenW) (fun i : Fin D => h (ix2 n i)) := by
  unfold cenTab
  rw [subf_apply, bcRow_apply, statCol_apply]
  rfl

/-- The normalised table at (n, k): row n's k-th normalised value. -/
theorem normTab_apply (h : FVec Ideal (T2 N D) .f32) (n : Fin N) (k : Fin D) :
    normTab N D lenW hred h0 hcol hsc hrow h (ix2 n k)
      = rowNorm (Ideal.ofBits .f32 lenW) (fun j : Fin D => h (ix2 n j)) k := by
  unfold normTab
  rw [mulf_apply, bcRow_apply, hostRsqrt_apply, addf_apply, statCol_apply, broadcastInDim_scalar_apply, constant_apply,
    cenTab_apply]
  unfold rowNorm rowVar
  refine congrArg (fun t => (h (ix2 n k) - rowMean (Ideal.ofBits .f32 lenW) (fun i : Fin D => h (ix2 n i)))
    * Ideal.rsqrt (Ideal.div t (Ideal.ofBits .f32 lenW) + epsW)) ?_
  exact Finset.sum_congr rfl fun j _ => by rw [mulf_apply, cenTab_apply]

/-- THE STRETCH AT (n, k): the rectifier of row n's k-th normalised value. -/
theorem normLeaky_apply (h : FVec Ideal (T2 N D) .f32) (n : Fin N) (k : Fin D) :
    normLeaky (F := Ideal) N D lenW hred h0 hcol hsc hrow hsd h (ix2 n k)
      = leaky (rowNorm (Ideal.ofBits .f32 lenW) (fun j : Fin D => h (ix2 n j)) k) := by
  rw [normLeaky_eq, select_apply, cmpf_apply, mulf_apply, normTab_apply, broadcastInDim_scalar_apply,
    broadcastInDim_scalar_apply, constant_apply, constant_apply]
  rfl

end Stretch

end Cert.ReferenceIdeal.Hand

end
-- ==== Proof.RefRowsPhi.lean ====
/-
  The per-row part read at an entry, at the ideal values.

  Entry (n, c) of the per-row part depends on row n of the features alone. A dense layer is the host's product of
  the table with the transposed weight: at (r, c) it is the sum over the contracted coordinate k of the table's
  entry (r, k) times the weight's entry (c, k), i.e. the row against weight row c. Each layer is followed by one
  normalisation-and-rectifier stretch, which at (n, k) is the rectifier of row n's k-th normalised value. Composing
  the four readings gives the row through both layers.
-/
import Idealize.ShloMosaic.PureOps.Ideal.Laws
import Idealize.ShloMosaic.Lib.ValueIdx
import Idealize.ShloMosaic.Lib.Pipeline.Value
import proofs.«407833_j86303072845932_1_alg».proof.Proof.Spec
import proofs.«407833_j86303072845932_1_alg».proof.Proof.RefTerm
import proofs.«407833_j86303072845932_1_alg».proof.Proof.LibDenseLayer
import proofs.«407833_j86303072845932_1_alg».proof.Proof.RefRowsNorm

set_option maxRecDepth 16384

noncomputable section

namespace Cert.ReferenceIdeal.Hand

open Idealize.ShloMosaic Idealize.ShloMosaic.ValueIdx Cert.Spec Cert.Stage
open Cert.ReferenceIdeal Cert.ReferenceIdeal.Gen
open scoped BigOperators

/-! ## A table times a weight whose first axis is contracted -/

/-- The dimension numbers of a plain product: a [B, K] table by a [K, N] weight, the table's second axis contracted
    with the weight's first. -/
abbrev plainDims (B K N : Nat)
    (wf : DotDims.WF ⟨2, ![B, K]⟩ ⟨2, ![K, N]⟩ ⟨2, ![B, N]⟩ [1] [0] [0] [1] [] []) :
    DotDims ⟨2, ![B, K]⟩ ⟨2, ![K, N]⟩ ⟨2, ![B, N]⟩ where
  lhsContracting := [1]
  rhsContracting := [0]
  lhsNonContracting := [0]
  rhsNonContracting := [1]
  lhsBatch := []
  rhsBatch := []
  wf := wf

section Plain
variable {B K N : Nat} (wf : DotDims.WF ⟨2, ![B, K]⟩ ⟨2, ![K, N]⟩ ⟨2, ![B, N]⟩ [1] [0] [0] [1] [] [])

theorem plainDims_rank : (plainDims B K N wf).contr.rank = 1 := rfl

theorem plainDims_size : (plainDims B K N wf).contr.size ⟨0, by rw [plainDims_rank]; exact Nat.one_pos⟩ = K := rfl

/-- The table's index at result index j and contraction position q: j's row … -/
theorem plainDims_lhs0 (j : (⟨2, ![B, N]⟩ : Shape).Idx) (q : (plainDims B K N wf).contr.Idx) :
    ((plainDims B K N wf).lhsIdx j q 0).val = (j 0).val := rfl

/-- … and q's one coordinate. -/
theorem plainDims_lhs1 (j : (⟨2, ![B, N]⟩ : Shape).Idx) (q : (plainDims B K N wf).contr.Idx) :
    ((plainDims B K N wf).lhsIdx j q 1).val = (q ⟨0, by rw [plainDims_rank]; exact Nat.one_pos⟩).val :=
  (plainDims B K N wf).lhsIdx_val_of_single (cl := 1) rfl j q

/-- The weight's index there: q's one coordinate … -/
theorem plainDims_rhs0 (j : (⟨2, ![B, N]⟩ : Shape).Idx) (q : (plainDims B K N wf).contr.Idx) :
    ((plainDims B K N wf).rhsIdx j q 0).val = (q ⟨0, by rw [plainDims_rank]; exact Nat.one_pos⟩).val :=
  (plainDims B K N wf).rhsIdx_val_of_single (cr := 0) rfl j q

/-- … and j's column. -/
theorem plainDims_rhs1 (j : (⟨2, ![B, N]⟩ : Shape).Idx) (q : (plainDims B K N wf).contr.Idx) :
    ((plainDims B K N wf).rhsIdx j q 1).val = (j 1).val := rfl

/-- THE HOST'S PRODUCT OF A TABLE WITH A TRANSPOSED WEIGHT, AT (r, c): row r of the table against row c of the
    weight. -/
theorem dot_transpose_apply (ht : (⟨2, ![N, K]⟩ : Shape).Transposes [1, 0] ⟨2, ![K, N]⟩)
    (a : FVec Ideal ⟨2, ![B, K]⟩ .f32) (w : FVec Ideal ⟨2, ![N, K]⟩ .f32) (r : Fin B) (c : Fin N) :
    Host.dotGeneral (plainDims B K N wf) none a (transpose ⟨2, ![K, N]⟩ [1, 0] w ht) (ix2 r c)
      = dense (fun k : Fin K => a (ix2 r k)) (fun (c : Fin N) (k : Fin K) => w (ix2 c k)) c := by
  show FloatOps.dotGeneral (plainDims B K N wf) none .single a (transpose ⟨2, ![K, N]⟩ [1, 0] w ht) (ix2 r c) = _
  rw [Ideal.dotGeneral_apply,
    Cert.Lib.contraction_sum (plainDims B K N wf) K (plainDims_rank wf) (plainDims_size wf) a
      (transpose ⟨2, ![K, N]⟩ [1, 0] w ht) (ix2 r c) (fun k => a (ix2 r k)) (fun k => w (ix2 c k))
      (fun q => congrArg a (funext fun ax => Fin.ext (by
        match ax with
        | ⟨0, _⟩ => exact plainDims_lhs0 wf (ix2 r c) q
        | ⟨1, _⟩ => exact plainDims_lhs1 wf (ix2 r c) q)))
      (fun q => transpose_apply [1, 0] w ht ((plainDims B K N wf).rhsIdx (ix2 r c) q)
        (ix2 c ((q ⟨0, by rw [plainDims_rank]; exact Nat.one_pos⟩).cast (plainDims_size wf))) (fun b => by
        match b with
        | ⟨0, _⟩ => exact (plainDims_rhs0 wf (ix2 r c) q).symm
        | ⟨1, _⟩ => exact (plainDims_rhs1 wf (ix2 r c) q).symm))]
  rfl

end Plain

/-! ## The two layers of the per-row part -/

/-- The first layer at (n, k): row n of the features against row k of the first weight. -/
theorem layer1_apply (x : FVec Ideal S262144x256 .f32) (w1 : FVec Ideal S512x256 .f32) (n : Fin 262144) (k : Fin 512) :
    Host.dotGeneral (F := Ideal) dot_S262144x256_S256x512_S262144x512_1_0_0_1_n_n none x
        (transpose S256x512 [1, 0] w1 transposes_S512x256_S256x512_1_0) (ix2 n k)
      = dense (fun j : Fin 256 => x (ix2 n j)) (fun (k : Fin 512) (j : Fin 256) => w1 (ix2 k j)) k :=
  dot_transpose_apply (B := 262144) (K := 256) (N := 512) dot_S262144x256_S256x512_S262144x512_1_0_0_1_n_n_wf
    transposes_S512x256_S256x512_1_0 x w1 n k

/-- The second layer at (n, c): row n of the table against row c of the second weight. -/
theorem layer2_apply (h : FVec Ideal S262144x512 .f32) (w2 : FVec Ideal S256x512 .f32) (n : Fin 262144) (c : Fin 256) :
    Host.dotGeneral (F := Ideal) dot_S262144x512_S512x256_S262144x256_1_0_0_1_n_n none h
        (transpose S512x256 [1, 0] w2 transposes_S256x512_S512x256_1_0) (ix2 n c)
      = dense (fun k : Fin 512 => h (ix2 n k)) (fun (c : Fin 256) (k : Fin 512) => w2 (ix2 c k)) c :=
  dot_transpose_apply (B := 262144) (K := 512) (N := 256) dot_S262144x512_S512x256_S262144x256_1_0_0_1_n_n_wf
    transposes_S256x512_S512x256_1_0 h w2 n c

/-- THE PER-ROW PART AT (n, c): row n of the features through both layers. -/
theorem phiR_apply (x : FVec Ideal S262144x256 .f32) (w1 : FVec Ideal S512x256 .f32) (w2 : FVec Ideal S256x512 .f32)
    (n : Fin 262144) (c : Fin 256) :
    phiR (F := Ideal) x w1 w2 (ix2 n c)
      = rowMlp (fun j => x (ix2 n j)) (fun k j => w1 (ix2 k j)) (fun k j => w2 (ix2 k j)) c := by
  unfold phiR
  refine (normLeaky_apply 262144 256 _ _ _ _ _ _ _ _ n c).trans ?_
  unfold rowMlp
  refine congrArg (fun r => leaky (rowNorm len256W r c)) (funext fun j => ?_)
  rw [layer2_apply]
  refine congrArg (fun v => dense v (fun (c : Fin 256) (k : Fin 512) => w2 (ix2 c k)) j) (funext fun k => ?_)
  refine (normLeaky_apply 262144 512 _ _ _ _ _ _ _ _ n k).trans ?_
  exact congrArg (fun r => leaky (rowNorm len512W r k)) (funext fun i => layer1_apply x w1 n i)

end Cert.ReferenceIdeal.Hand

end
-- ==== Proof.LibRowGatherScatter.lean ====
/-
  Rows of a table gathered by, and scattered-and-added at, a column of integer indices, read at one element.

  The table has `N` rows of `C` entries; the indices are an `E × 1` column of machine integers.

  * The gather of rows (what `table[idx]` lowers to: one collapsed axis, one offset axis, the start index naming a
    row) reads, at `(e, k)`, the table's entry `k` of the row the index `e` names — the index read as a signed
    integer and clamped into `[0, N - 1]`.
  * The accumulating scatter of rows (what `segment_sum` / `.at[idx].add` lowers to), at the ideal values, leaves at
    `(i, k)` the operand's entry plus the sum of the updates' entries `k` over the rows `e` whose index, read as a
    signed integer and NOT clamped, is `i`; an index that names no row contributes nowhere.
-/
import Idealize.ShloMosaic.PureOps.Ideal
import Idealize.ShloMosaic.Lib.ValueIdx

noncomputable section

namespace Cert.Gcn

open Idealize.ShloMosaic Idealize.ShloMosaic.ValueIdx
open scoped BigOperators

/-! ## The gather of rows -/

/-- The dimension numbers of a row gather: operand `N × C`, start indices `E × 1`, result `E × C`. -/
abbrev rowGatherDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(e, k)`: entry `k` of the row that index `e` names, read signed and clamped into
    `[0, N - 1]`. -/
theorem gather_rows_apply {α : Type} {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (k : Fin C) :
    Host.gather (rowGatherDims N E C wf) x idx (ix2 e k)
      = x (ix2 ⟨min (idx (ix2 e (0 : Fin 1))).toInt.toNat (N - 1), by omega⟩ k) := by
  unfold Host.gather
  congr 1
  funext a
  refine Fin.ext ?_
  show (rowGatherDims N E C wf).start (ix2 e k) idx a + (rowGatherDims N E C wf).batchCoord (ix2 e k) a
      + (rowGatherDims N E C wf).offCoord (ix2 e k) a = _
  rw [GatherDims.batchCoord_eq_zero _ _ _ List.not_mem_nil]
  match a with
  | ⟨0, _⟩ =>
    rw [GatherDims.offCoord_eq_zero _ _ _ (fun h => ((GatherDims.mem_sKept _ _).mp h).1 (List.mem_singleton.mpr rfl))]
    simp only [Nat.add_zero]
    unfold GatherDims.start
    rw [dif_pos (show (⟨0, by decide⟩ : Fin 2) ∈ (rowGatherDims N E C wf).startIndexMap from List.mem_singleton.mpr rfl)]
    have hsi : (rowGatherDims N E C wf).siIdx (ix2 e k) ⟨List.idxOf (⟨0, by decide⟩ : Fin 2) (rowGatherDims N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowGatherDims N E C wf).start (ix2 e k) idx (1 : Fin 2) + 0
        + (rowGatherDims N E C wf).offCoord (ix2 e k) (1 : Fin 2) = k.val
    have hs : (rowGatherDims N E C wf).start (ix2 e k) idx (1 : Fin 2) = 0 := by
      unfold GatherDims.start
      rw [dif_neg (show (1 : Fin 2) ∉ ([0] : List (Fin 2)) from by decide)]
    have hm : (1 : Fin 2) ∈ (rowGatherDims N E C wf).sKept :=
      (GatherDims.mem_sKept _ _).mpr ⟨show (1 : Fin 2) ∉ ([0] : List (Fin 2)) from by decide, List.not_mem_nil⟩
    rw [hs]
    unfold GatherDims.offCoord
    rw [dif_pos hm]
    simp only [Nat.zero_add]
    rfl

/-! ## The accumulating scatter of rows -/

/-- The dimension numbers of a row scatter: operand `N × C`, scatter indices `E × 1`, updates `E × C`. -/
abbrev rowScatterDims (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

section
variable {N E C w : Nat} (wf : ScatterDims.WF ⟨2, ![N, C]⟩ ⟨2, ![E, 1]⟩ ⟨2, ![E, C]⟩ [1] [0] [0] 1)
  (idx : IVec ⟨2, ![E, 1]⟩ w) (e : Fin E) (k : Fin C)

/-- On the row axis the update `(e, k)` lands at the signed value of index `e`. -/
theorem rowScatter_pos0 :
    (rowScatterDims N E C wf).start (ix2 e k) idx (0 : Fin 2) + ((rowScatterDims N E C wf).window (ix2 e k) (0 : Fin 2) : ℤ)
      = (idx (ix2 e (0 : Fin 1))).toInt := by
  have hw : (rowScatterDims N E C wf).window (ix2 e k) (0 : Fin 2) = 0 := by
    have h0 : (0 : Fin 2) ∉ (rowScatterDims N E C wf).sKept := show (0 : Fin 2) ∉ ([1] : List (Fin 2)) from by decide
    unfold ScatterDims.window
    rw [dif_neg h0]
  rw [hw]
  unfold ScatterDims.start
  rw [dif_pos (show (0 : Fin 2) ∈ ([0] : List (Fin 2)) from by decide)]
  have hsi : (rowScatterDims N E C wf).siIdx (ix2 e k) ⟨List.idxOf (0 : Fin 2) (rowScatterDims N E C wf).scatterDimsToOperandDims,
      List.idxOf_lt_length_iff.2 (show (0 : Fin 2) ∈ ([0] : List (Fin 2)) from by decide)⟩ = ix2 e (0 : Fin 1) := by
    funext b; refine Fin.ext ?_
    match b with
    | ⟨0, _⟩ => rfl
    | ⟨1, _⟩ => rfl
  rw [hsi]
  simp

/-- On the column axis the update `(e, k)` lands at `k`. -/
theorem rowScatter_pos1 :
    (rowScatterDims N E C wf).start (ix2 e k) idx (1 : Fin 2) + ((rowScatterDims N E C wf).window (ix2 e k) (1 : Fin 2) : ℤ)
      = (k.val : ℤ) := by
  have hs : (rowScatterDims N E C wf).start (ix2 e k) idx (1 : Fin 2) = 0 := by
    unfold ScatterDims.start
    rw [dif_neg (show (1 : Fin 2) ∉ ([0] : List (Fin 2)) from by decide)]
  have hw : (rowScatterDims N E C wf).window (ix2 e k) (1 : Fin 2) = k.val := by
    have h1 : (1 : Fin 2) ∈ (rowScatterDims N E C wf).sKept := show (1 : Fin 2) ∈ ([1] : List (Fin 2)) from by decide
    unfold ScatterDims.window
    rw [dif_pos h1]
    rfl
  rw [hs, hw, zero_add]

end

section
variable {N E C w : Nat} (wf : ScatterDims.WF ⟨2, ![N, C]⟩ ⟨2, ![E, 1]⟩ ⟨2, ![E, C]⟩ [1] [0] [0] 1)
  (idx : IVec ⟨2, ![E, 1]⟩ w)

/-- The update `(e, b)` lands on `(i, k)` exactly when index `e`, read signed, is `i` and `b = k`. -/
theorem rowScatter_resultIdx (e : Fin E) (b : Fin C) (i : Fin N) (k : Fin C) :
    (rowScatterDims N E C wf).resultIdx? (ix2 e b) idx = some (ix2 i k)
      ↔ (idx (ix2 e (0 : Fin 1))).toInt = (i.val : ℤ) ∧ b = k := by
  have p0 := rowScatter_pos0 wf idx e b
  have p1 := rowScatter_pos1 wf idx e b
  unfold ScatterDims.resultIdx?
  constructor
  · intro h
    split at h
    · rename_i hb
      have hf := Option.some.inj h
      have h0 : ((rowScatterDims N E C wf).start (ix2 e b) idx (0 : Fin 2)
          + ((rowScatterDims N E C wf).window (ix2 e b) (0 : Fin 2) : ℤ)).toNat = i.val :=
        congrArg (fun f => (f (0 : Fin 2)).val) hf
      have h1 : ((rowScatterDims N E C wf).start (ix2 e b) idx (1 : Fin 2)
          + ((rowScatterDims N E C wf).window (ix2 e b) (1 : Fin 2) : ℤ)).toNat = k.val :=
        congrArg (fun f => (f (1 : Fin 2)).val) hf
      have b0 := (hb (0 : Fin 2)).1
      rw [p0] at h0 b0
      rw [p1] at h1
      exact ⟨by omega, Fin.ext (by omega)⟩
    · exact absurd h (by simp)
  · rintro ⟨h0, rfl⟩
    have hb : ∀ a : Fin 2, 0 ≤ (rowScatterDims N E C wf).start (ix2 e b) idx a + ((rowScatterDims N E C wf).window (ix2 e b) a : ℤ)
        ∧ (rowScatterDims N E C wf).start (ix2 e b) idx a + ((rowScatterDims N E C wf).window (ix2 e b) a : ℤ)
          < (((⟨2, ![N, C]⟩ : Shape).size a : ℕ) : ℤ) := by
      intro a
      match a with
      | ⟨0, _⟩ =>
        show 0 ≤ (rowScatterDims N E C wf).start (ix2 e b) idx (0 : Fin 2) + ((rowScatterDims N E C wf).window (ix2 e b) (0 : Fin 2) : ℤ)
          ∧ (rowScatterDims N E C wf).start (ix2 e b) idx (0 : Fin 2) + ((rowScatterDims N E C wf).window (ix2 e b) (0 : Fin 2) : ℤ) < ((N : ℕ) : ℤ)
        rw [p0, h0]
        exact ⟨by omega, by exact_mod_cast i.isLt⟩
      | ⟨1, _⟩ =>
        show 0 ≤ (rowScatterDims N E C wf).start (ix2 e b) idx (1 : Fin 2) + ((rowScatterDims N E C wf).window (ix2 e b) (1 : Fin 2) : ℤ)
          ∧ (rowScatterDims N E C wf).start (ix2 e b) idx (1 : Fin 2) + ((rowScatterDims N E C wf).window (ix2 e b) (1 : Fin 2) : ℤ) < ((C : ℕ) : ℤ)
        rw [p1]
        exact ⟨by omega, by exact_mod_cast b.isLt⟩
    rw [dif_pos hb]
    congr 1
    funext a
    refine Fin.ext ?_
    match a with
    | ⟨0, _⟩ =>
      show ((rowScatterDims N E C wf).start (ix2 e b) idx (0 : Fin 2) + ((rowScatterDims N E C wf).window (ix2 e b) (0 : Fin 2) : ℤ)).toNat = i.val
      rw [p0, h0]; simp
    | ⟨1, _⟩ =>
      show ((rowScatterDims N E C wf).start (ix2 e b) idx (1 : Fin 2) + ((rowScatterDims N E C wf).window (ix2 e b) (1 : Fin 2) : ℤ)).toNat = b.val
      rw [p1]; simp

/-- THE ACCUMULATING ROW SCATTER READ AT `(i, k)`, at the ideal values: the operand's entry plus the sum of the
    updates' entries `k` over the rows `e` whose index, read signed, is `i`. -/
theorem scatterAdd_rows_apply (x : (⟨2, ![N, C]⟩ : Shape).Idx → EReal) (upd : (⟨2, ![E, C]⟩ : Shape).Idx → EReal)
    (i : Fin N) (k : Fin C) :
    Ideal.hostScatterAdd (rowScatterDims N E C wf) x idx upd (ix2 i k)
      = x (ix2 i k) + ∑ e ∈ Finset.univ.filter (fun e : Fin E => (idx (ix2 e (0 : Fin 1))).toInt = (i.val : ℤ)), upd (ix2 e k) := by
  unfold Ideal.hostScatterAdd
  congr 1
  rw [Finset.sum_filter, sum_idx2, Finset.sum_filter]
  refine Finset.sum_congr rfl fun e _ => ?_
  simp only [rowScatter_resultIdx wf idx e _ i k]
  by_cases h : (idx (ix2 e (0 : Fin 1))).toInt = (i.val : ℤ)
  · simp [h]
  · simp [h]

end

end Cert.Gcn

end
-- ==== Proof.RefRowsPool.lean ====
/-
  The pooling read at an entry, at the ideal values.

  Entry (g, c) of the pooled table is the accumulating scatter of the rows into the zero table, read at (g, c): the
  zero entry plus the sum of column c over the rows whose segment word, read as a signed integer, is g. For g below
  128 a 32-bit word reads signed as g exactly when it is the word of g, so the sum is the sum over all rows of the
  entry where the row's word is the word of g and of 0 elsewhere. The only algebra used is 0 + x = x.
-/
import Idealize.ShloMosaic.PureOps.Ideal.Laws
import Idealize.ShloMosaic.Lib.ValueIdx
import Idealize.ShloMosaic.Lib.IdealHost
import Idealize.ShloMosaic.Lib.Pipeline.Value
import proofs.«407833_j86303072845932_1_alg».proof.Proof.Spec
import proofs.«407833_j86303072845932_1_alg».proof.Proof.RefTerm
import proofs.«407833_j86303072845932_1_alg».proof.Proof.LibRowGatherScatter

set_option maxRecDepth 16384

noncomputable section

namespace Cert.ReferenceIdeal.Hand

open Idealize.ShloMosaic Idealize.ShloMosaic.ValueIdx Cert.Spec Cert.Stage
open Cert.ReferenceIdeal Cert.ReferenceIdeal.Gen
open scoped BigOperators

/-- A 32-bit word reads, as a signed integer, as a number g below 128 exactly when it is the word of g. -/
theorem toInt_eq_iff_eq_ofNat (w : BitVec 32) (g : Nat) (hg : g < 128) :
    w.toInt = (g : ℤ) ↔ w = BitVec.ofNat 32 g := by
  constructor
  · intro h
    apply BitVec.eq_of_toNat_eq
    rw [BitVec.toNat_ofNat]
    have hw := w.isLt
    rw [BitVec.toInt_eq_toNat_cond] at h
    split at h <;> omega
  · rintro rfl
    rw [BitVec.toInt_eq_toNat_cond, BitVec.toNat_ofNat]
    have hm : g % 2 ^ 32 = g := Nat.mod_eq_of_lt (by omega)
    rw [hm]
    split <;> omega

/-- The segment words re-expanded to a [262144, 1] column read, at (e, 0), the word of row e. -/
theorem idsCol_apply (ids : IVec S262144 32) (e : Fin 262144) :
    broadcastInDim S262144x1 ![0] bcast_S262144_S262144x1_0 ids (ix2 e (0 : Fin 1)) = ids (ix1 e) :=
  broadcastInDim_apply _ bcast_S262144_S262144x1_0 ids (ix2 e (0 : Fin 1)) (ix1 e) fun a => by
    match a with
    | ⟨0, _⟩ => rfl

/-- THE POOLED TABLE AT (g, c): the sum of column c over the rows whose segment word is the word of g. -/
theorem poolR_apply (phis : FVec Ideal S262144x256 .f32) (ids : IVec S262144 32) (g : Fin 128) (c : Fin 256) :
    poolR (F := Ideal) phis ids (ix2 g c)
      = segSum (fun n : Fin 262144 => ids (ix1 n)) (fun n => phis (ix2 n c)) g := by
  unfold poolR
  show Ideal.hostScatterAdd (Cert.Gcn.rowScatterDims 128 262144 256 scatter_S128x256_S262144x1_S262144x256_1_0_0_1_wf)
      (broadcastInDim S128x256 ![] bcast_S_S128x256 (constant (F := Ideal) S_ .f32 0x00000000#32))
      (broadcastInDim S262144x1 ![0] bcast_S262144_S262144x1_0 ids) phis (ix2 g c) = _
  rw [Cert.Gcn.scatterAdd_rows_apply, broadcastInDim_scalar_apply, constant_apply, Ideal.ofBits_zero_f32, zero_add,
    Finset.sum_filter]
  unfold segSum
  refine Finset.sum_congr rfl fun e _ => ?_
  rw [idsCol_apply]
  exact if_congr (toInt_eq_iff_eq_ofNat _ g.val g.isLt) rfl rfl

end Cert.ReferenceIdeal.Hand

end
-- ==== Proof.RefRows.lean ====
/-
  The reference's stages read at an entry, at the ideal values: the normalisation-and-rectifier stretch, the
  per-row part, and the pooling, each in its own module.
-/
import proofs.«407833_j86303072845932_1_alg».proof.Proof.RefRowsNorm
import proofs.«407833_j86303072845932_1_alg».proof.Proof.RefRowsPhi
import proofs.«407833_j86303072845932_1_alg».proof.Proof.RefRowsPool
-- ==== Proof.LibSumBlocks.lean ====
/-
  A sum over `a · b` consecutive positions, regrouped into `a` blocks of `b`: position `r + b · q` is entry `r` of
  block `q`. Twice, a sum over `a · b · c` positions as blocks of blocks. In any commutative monoid, so also where
  the summands are extended reals.
-/
import Mathlib.Algebra.BigOperators.Fin
import Mathlib.Logic.Equiv.Fin.Basic

namespace Cert.Lib

open scoped BigOperators

/-- The positions below `a · b`, block by block. -/
theorem sum_blocks {M : Type*} [AddCommMonoid M] (a b : ℕ) (f : ℕ → M) :
    ∑ q : Fin a, ∑ r : Fin b, f (r.val + b * q.val) = ∑ x : Fin (a * b), f x.val := by
  rw [← Fintype.sum_prod_type']
  exact Equiv.sum_comp finProdFinEquiv fun x => f x.val

/-- The positions below `a · b · c`, as `a` groups of `b` blocks of `c`. -/
theorem sum_blocks_blocks {M : Type*} [AddCommMonoid M] (a b c : ℕ) (f : ℕ → M) :
    ∑ p : Fin a, ∑ s : Fin b, ∑ r : Fin c, f (r.val + c * (s.val + b * p.val)) = ∑ x : Fin (a * b * c), f x.val := by
  rw [← sum_blocks (a * b) c f, ← sum_blocks a b fun t => ∑ r : Fin c, f (r.val + c * t)]

end Cert.Lib
-- ==== Proof.Bridge.lean ====
/-
  The two programs compute the same pooled table, hence the same result.

  The kernel's program sums, for each of the two halves of the rows, the 128 tiles of that half (each tile's
  contribution to entry (g, c') is the sum over its 1024 rows whose segment word is g of column c' of the row's
  two-layer result), then adds the two halves. The reference scatters all 262144 rows at once: entry (g, c') is
  the sum over every row whose segment word is g. Row `r` of tile `s` of half `p` is row r + 1024·(s + 128·p),
  so both are the one sum over the rows, regrouped; only commutativity and associativity of the sum and 0 + x = x
  are used, which hold on the extended reals at the infinities too. The pooled parts of the two programs are
  then the same stage functions of that table.
-/
import proofs.«407833_j86303072845932_1_alg».proof.Proof.KIValue
import proofs.«407833_j86303072845932_1_alg».proof.Proof.RefRows
import proofs.«407833_j86303072845932_1_alg».proof.Proof.LibSumBlocks
import Idealize.ShloMosaic.PureOps.Ideal.Laws

set_option maxRecDepth 16384

noncomputable section

namespace Cert.Bridge

open Idealize.ShloMosaic Idealize.ShloMosaic.TcCoe Idealize.ShloMosaic.ValueIdx Idealize.SL.Sem
open Cert.KernelIdeal Cert.KernelIdeal.Val Cert.KernelIdeal.Hand Cert.Spec
open scoped BigOperators

variable (m : (ℓ : Loc nD τ sig) → Buf (Elt Ideal) ℓ)

/-- What row `n` contributes to entry (g, c') of the pooled table. -/
def rowTerm (c : Dev nD) (g : Fin 128) (c' : Fin 256) (n : ℕ) : EReal :=
  if idAt m c n = BitVec.ofNat 32 g.val then rowMlp (rowAt m c n) (W1 m c) (W2 m c) c' else 0

/-- A tile's sum is the sum of its rows' contributions. -/
theorem tileSum_eq (c : Dev nD) (t : ℕ) (g : Fin 128) (c' : Fin 256) :
    tileSum m c t g c' = ∑ r : Fin 1024, rowTerm m c g c' (r.val + 1024 * t) := by
  unfold tileSum segSum rowTerm
  refine Finset.sum_congr rfl fun r _ => ?_
  rw [Nat.add_comm]

/-- The two halves' tables summed: the sum of every row's contribution. -/
theorem halves_total (c : Dev nD) (g : Fin 128) (c' : Fin 256) :
    (∑ p : Fin 2, halfSum m c p g c') = ∑ n : Fin 262144, rowTerm m c g c' n.val := by
  have h := Cert.Lib.sum_blocks_blocks 2 128 1024 (rowTerm m c g c')
  refine Eq.trans ?_ h
  refine Finset.sum_congr rfl fun p _ => ?_
  unfold halfSum
  rw [zero_add, Finset.sum_range]
  refine Finset.sum_congr rfl fun s _ => ?_
  rw [tileSum_eq, Nat.add_comm (128 * p.val) s.val]

/-- The reduce over the first axis of a [2, 128, 256] table, read at (g, c'). -/
theorem sumHalves_apply (o : FVec Ideal S2x128x256 .f32) (g : Fin 128) (c' : Fin 256) :
    sumHalves (F := Ideal) o (ix2 g c') = 0 + ∑ p : Fin 2, o (ix3 p g c') := by
  have hr : S2x128x256.Reduces [0] S128x256 := by decide
  unfold sumHalves
  show Ideal.hostReduceAdd _ o (Ideal.ofBits .f32 0x00000000#32) (ix2 g c') = _
  rw [Ideal.hostReduceAdd_single _ hr, Ideal.ofBits_zero_f32]
  refine congrArg (0 + ·) (Finset.sum_congr rfl fun p _ => congrArg o (funext fun a => ?_))
  match a with
  | ⟨0, _⟩ => rfl
  | ⟨1, _⟩ => rfl
  | ⟨2, _⟩ => rfl

/-- THE POOLED TABLES AGREE: the kernel program's two halves summed are the reference's scatter of the rows. -/
theorem pooled_eq (c : Dev nD) :
    sumHalves (F := Ideal) (Gk m c)
      = Cert.ReferenceIdeal.Hand.poolR (F := Ideal)
          (Cert.ReferenceIdeal.Hand.phiR (m ((c : Thread nD τ).loc main_arg0)) (m ((c : Thread nD τ).loc main_arg1)) (m ((c : Thread nD τ).loc main_arg2)))
          (m ((c : Thread nD τ).loc main_arg5)) := by
  funext i
  obtain ⟨g, c', rfl⟩ : ∃ (g : Fin 128) (c' : Fin 256), i = ix2 g c' := ⟨i 0, i 1, eq_ix2 i⟩
  rw [sumHalves_apply, Cert.ReferenceIdeal.Hand.poolR_apply, zero_add]
  show (∑ p : Fin 2, halfSum m c p g c') = _
  rw [halves_total]
  unfold segSum
  refine Finset.sum_congr rfl fun n _ => ?_
  unfold rowTerm idAt
  dsimp only
  rw [dif_pos n.isLt, Cert.ReferenceIdeal.Hand.phiR_apply]
  have hrow : rowAt m c n.val = fun j : Fin 256 => m ((c : Thread nD τ).loc main_arg0) (ix2 n j) := by
    funext j; unfold rowAt; rw [dif_pos n.isLt]
  rw [hrow]

/-- The two programs' results agree. -/
theorem result_eq (c : Dev nD) :
    kernelOut (F := Ideal) (Gk m c) (m ((c : Thread nD τ).loc main_arg3)) (m ((c : Thread nD τ).loc main_arg4))
      = Cert.ReferenceIdeal.Hand.refOut (F := Ideal) (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) := by
  unfold kernelOut Cert.ReferenceIdeal.Hand.refOut
  rw [pooled_eq]
  rfl

end Cert.Bridge

end
-- ==== Proof.lean ====
/-
  The certificate of the segment-pooled two-layer network: a Pallas kernel that, tile by tile of 1024 rows,
  runs each row through two dense layers (each followed by a normalisation along the row and a leaky rectifier)
  and adds the tile's rows into a [128, 256] table by their segment id — as a product with a one-hot matrix,
  accumulated in the output block over the 128 tiles of each half of the rows —, followed on the host by the sum
  of the two halves and the same two-layer network on the pooled table; against jnp's per-row network,
  `segment_sum`, and the network on the pooled table.

  * The three frames. The two kernel programs (the word-level one and its idealization) run by the frame run
    of their one pipeline: the body's run in its two cases (the point that resets the output block, every other
    point), the output block's contents point by point, and the host operations before and after the region.
    The reference is a straight line of host operations (its four local functions inlined), run as a sequence.
  * `preserves`: the idealization rewrote nothing.
  * `algebraic`: at the ideal values the kernel program's result is the pooled part of the sum of the two
    halves' tables (`Cert.KernelIdeal.Val.run`), the reference's the pooled part of the scatter of all rows
    (`Cert.ReferenceIdeal.Hand.run`), and the two tables are one sum over the rows regrouped
    (`Cert.Bridge.result_eq`); no law beyond commutativity and associativity of the sum and `0 + x = x` is used,
    so the finiteness of the inputs is never needed.
-/
import proofs.«407833_j86303072845932_1_alg».proof.Defs
import proofs.«407833_j86303072845932_1_alg».proof.Proof.Gen.Kernel
import proofs.«407833_j86303072845932_1_alg».proof.Proof.Gen.KernelIdeal
import proofs.«407833_j86303072845932_1_alg».proof.Proof.Gen.ReferenceIdeal
import proofs.«407833_j86303072845932_1_alg».proof.Proof.Gen.Pre_finite_inputs
import proofs.«407833_j86303072845932_1_alg».proof.Proof.KFrm
import proofs.«407833_j86303072845932_1_alg».proof.Proof.KIFrm
import proofs.«407833_j86303072845932_1_alg».proof.Proof.RefRun
import proofs.«407833_j86303072845932_1_alg».proof.Proof.Bridge
import Idealize.ShloMosaic.Adequacy
import Idealize.ShloMosaic.Init

noncomputable section

namespace Cert.Proof

open Idealize.ShloMosaic Idealize.SL.Sem

/-- The word-level kernel program runs and leaves its six arguments as they were. -/
theorem frame_k : Cert.frame_Kernel := fun m ρ _ => Cert.Kernel.Frm.frame m ρ

/-- So does its idealization. -/
theorem frame_ki : Cert.frame_KernelIdeal := fun m ρ _ => Cert.KernelIdeal.Frm.frame m ρ

/-- The reference runs and leaves its arguments as they were: its run, with the result dropped. -/
theorem frame_ri : Cert.frame_ReferenceIdeal := fun m ρ _ =>
  (θ_run Cert.ReferenceIdeal.defs _ _).mono (fun _ h c => (h c).2) (Cert.ReferenceIdeal.Hand.run (F := Ideal) m ρ)

/-- The idealization rewrote no operation. -/
theorem preserves : Cert.preserves_Kernel_KernelIdeal := trivial

/-- From memories that agree on the arguments both programs end with the same result: the kernel program's is the
    pooled part of its two halves' tables summed, the reference's the pooled part of the scatter of all rows, and
    those two tables are the same sum over the rows. -/
theorem algebraic : Cert.algebraic_KernelIdeal_ReferenceIdeal := by
  intro m ρ m' ρ' _ hagree
  refine ⟨fun c => Cert.KernelIdeal.Hand.kernelOut (F := Ideal) (Cert.KernelIdeal.Val.Gk m c)
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)),
    Cert.KernelIdeal.Val.run m ρ, ?_⟩
  refine (θ_run Cert.ReferenceIdeal.defs _ _).mono (fun _ h c => ⟨(h c).1.trans ?_, (h c).2⟩)
    (Cert.ReferenceIdeal.Hand.run (F := Ideal) m' ρ')
  obtain ⟨e0, e1, e2, e3, e4, e5⟩ := hagree c
  rw [e0, e1, e2, e3, e4, e5]
  exact (Cert.Bridge.result_eq m c).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
